-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S30000x64 : Shape := ⟨2, ![30000, 64]⟩
abbrev S70000x64 : Shape := ⟨2, ![70000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S4096 : Shape := ⟨1, ![4096]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S30000x64 : S_.BroadcastsInDim S30000x64 (![] : Fin 0 → Fin S30000x64.rank)
  reducesTo_S30000x64_S_d0_1 : S30000x64.ReducesTo [0, 1] S_
  bcast_S_S70000x64 : S_.BroadcastsInDim S70000x64 (![] : Fin 0 → Fin S70000x64.rank)
  reducesTo_S70000x64_S_d0_1 : S70000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg13 : IVec S4096 32) (main_arg14 : IVec S4096 32) (main_v65 : IVec S_ 1) (main_v66 : IVec S4096 32) : IVec S_ 1 :=
  let main_v67 : IVec S4096 1 := cmpi .slt main_arg13 main_v66
  let main_c_27 : IVec S_ 1 := constantI S_ 1 1#1
  let main_v68 : IVec S_ 1 := (fun x v => Host.reduce IntOp.andi x v reducesTo_S4096_S_d0 h_S_) main_v67 main_c_27
  let main_v69 : IVec S_ 1 := andi main_v65 main_v68
  let main_c_28 : IVec S_ 32 := constantI S_ 32 4294937296#32
  let main_v70 : IVec S4096 32 := broadcastInDim S4096 ![] bcast_S_S4096 main_c_28
  let main_v71 : IVec S4096 1 := cmpi .sge main_arg14 main_v70
  let main_c_29 : IVec S_ 1 := constantI S_ 1 1#1
  let main_v72 : IVec S_ 1 := (fun x v => Host.reduce IntOp.andi x v reducesTo_S4096_S_d0 h_S_) main_v71 main_c_29
  let main_v73 : IVec S_ 1 := andi main_v69 main_v72
  let main_c_30 : IVec S_ 32 := constantI S_ 32 70000#32
  let main_v74 : IVec S4096 32 := broadcastInDim S4096 ![] bcast_S_S4096 main_c_30
  let main_v75 : IVec S4096 1 := cmpi .slt main_arg14 main_v74
  let main_c_31 : IVec S_ 1 := constantI S_ 1 1#1
  let main_v76 : IVec S_ 1 := (fun x v => Host.reduce IntOp.andi x v reducesTo_S4096_S_d0 h_S_) main_v75 main_c_31
  let main_v77 : IVec S_ 1 := andi main_v73 main_v76
  main_v77

def fn_part3 {F : FTy → Type} [FloatOps F] (main_arg1 : IVec S1600000 32) (main_arg13 : IVec S4096 32) (main_arg14 : IVec S4096 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_c_20 : IVec S_ 32 := constantI S_ 32 0#32
  let main_v54 : IVec S1600000 32 := broadcastInDim S1600000 ![] bcast_S_S1600000 main_c_20
  let main_v55 : IVec S1600000 1 := cmpi .sge main_arg1 main_v54
  let main_c_21 : IVec S_ 1 := constantI S_ 1 1#1
  let main_v56 : IVec S_ 1 := (fun x v => Host.reduce IntOp.andi x v reducesTo_S1600000_S_d0 h_S_) main_v55 main_c_21
  let main_v57 : IVec S_ 1 := andi main_v53 main_v56
  let main_c_22 : IVec S_ 32 := constantI S_ 32 100000#32
  let main_v58 : IVec S1600000 32 := broadcastInDim S1600000 ![] bcast_S_S1600000 main_c_22
  let main_v59 : IVec S1600000 1 := cmpi .slt main_arg1 main_v58
  let main_c_23 : IVec S_ 1 := constantI S_ 1 1#1
  let main_v60 : IVec S_ 1 := (fun x v => Host.reduce IntOp.andi x v reducesTo_S1600000_S_d0 h_S_) main_v59 main_c_23
  let main_v61 : IVec S_ 1 := andi main_v57 main_v60
  let main_c_24 : IVec S_ 32 := constantI S_ 32 0#32
  let main_v62 : IVec S4096 32 := broadcastInDim S4096 ![] bcast_S_S4096 main_c_24
  let main_v63 : IVec S4096 1 := cmpi .sge main_arg13 main_v62
  let main_c_25 : IVec S_ 1 := constantI S_ 1 1#1
  let main_v64 : IVec S_ 1 := (fun x v => Host.reduce IntOp.andi x v reducesTo_S4096_S_d0 h_S_) main_v63 main_c_25
  let main_v65 : IVec S_ 1 := andi main_v61 main_v64
  let main_c_26 : IVec S_ 32 := constantI S_ 32 100000#32
  let main_v66 : IVec S4096 32 := broadcastInDim S4096 ![] bcast_S_S4096 main_c_26
  fn_part4 (F := F) main_arg13 main_arg14 main_v65 main_v66

def fn_part2 {F : FTy → Type} [FloatOps F] (main_arg1 : IVec S1600000 32) (main_arg9 : FVec F S64x32 .f32) (main_arg10 : FVec F S32 .f32) (main_arg11 : FVec F S64x32 .f32) (main_arg12 : FVec F S32 .f32) (main_arg13 : IVec S4096 32) (main_arg14 : IVec S4096 32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_arg13 main_arg14 main_v48 main_v49 main_v50

def fn_part1 {F : FTy → Type} [FloatOps F] (main_arg1 : IVec S1600000 32) (main_arg6 : FVec F S64 .f32) (main_arg7 : FVec F S64x64 .f32) (main_arg8 : FVec F S64 .f32) (main_arg9 : FVec F S64x32 .f32) (main_arg10 : FVec F S32 .f32) (main_arg11 : FVec F S64x32 .f32) (main_arg12 : FVec F S32 .f32) (main_arg13 : IVec S4096 32) (main_arg14 : IVec S4096 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : IVec S1600000 32) (main_arg1 : IVec S1600000 32) (main_arg2 : FVec F S1600000 .f32) (main_arg3 : FVec F S30000x64 .f32) (main_arg4 : FVec F S70000x64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S64x32 .f32) (main_arg12 : FVec F S32 .f32) (main_arg13 : IVec S4096 32) (main_arg14 : IVec S4096 32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S30000x64 .f32 := Host.absf main_arg3
  let main_cst_0 : FVec F S_ .f32 := constant S_ .f32 0x7F800000#32
  let main_v5 : FVec F S30000x64 .f32 := broadcastInDim S30000x64 ![] bcast_S_S30000x64 main_cst_0
  let main_v6 : IVec S30000x64 1 := cmpf .olt main_v4 main_v5
  let main_c_1 : IVec S_ 1 := constantI S_ 1 1#1
  let main_v7 : IVec S_ 1 := (fun x v => Host.reduce IntOp.andi x v reducesTo_S30000x64_S_d0_1 h_S_) main_v6 main_c_1
  let main_v8 : IVec S_ 1 := andi main_v3 main_v7
  let main_v9 : FVec F S70000x64 .f32 := Host.absf main_arg4
  let main_cst_2 : FVec F S_ .f32 := constant S_ .f32 0x7F800000#32
  let main_v10 : FVec F S70000x64 .f32 := broadcastInDim S70000x64 ![] bcast_S_S70000x64 main_cst_2
  let main_v11 : IVec S70000x64 1 := cmpf .olt main_v9 main_v10
  let main_c_3 : IVec S_ 1 := constantI S_ 1 1#1
  let main_v12 : IVec S_ 1 := (fun x v => Host.reduce IntOp.andi x v reducesTo_S70000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_arg13 main_arg14 main_v13 main_v16
-- ==== Kernel.lean ====
abbrev S1600000 : Shape := ⟨1, ![1600000]⟩
abbrev S30000x64 : Shape := ⟨2, ![30000, 64]⟩
abbrev S70000x64 : Shape := ⟨2, ![70000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S4096 : Shape := ⟨1, ![4096]⟩
abbrev S100000x64 : Shape := ⟨2, ![100000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩
abbrev S100000x160 : Shape := ⟨2, ![100000, 160]⟩
abbrev S4096x1 : Shape := ⟨2, ![4096, 1]⟩
abbrev S4096x160 : Shape := ⟨2, ![4096, 160]⟩
abbrev S1024x160 : Shape := ⟨2, ![1024, 160]⟩
abbrev S1024x1 : Shape := ⟨2, ![1024, 1]⟩
abbrev S1024 : Shape := ⟨1, ![1024]⟩

abbrev nBuf : Space → Nat
  | .hbm => 134
  | .vmem => 26
  | .smem => 0
  | _ => 0

abbrev hbmTy0_0 (i : Nat) : BufTy := match i % 128 with
  | 0 => ⟨S1600000, .i32⟩
  | 1 => ⟨S1600000, .i32⟩
  | 2 => ⟨S1600000, .f32⟩
  | 3 => ⟨S30000x64, .f32⟩
  | 4 => ⟨S70000x64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S64x32, .f32⟩
  | 12 => ⟨S32, .f32⟩
  | 13 => ⟨S4096, .i32⟩
  | 14 => ⟨S4096, .i32⟩
  | 15 => ⟨S100000x64, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1, .i32⟩
  | 25 => ⟨S_, .i32⟩
  | 26 => ⟨S1600000x1, .i32⟩
  | 27 => ⟨S1600000x1, .i1⟩
  | 28 => ⟨S1x1, .i32⟩
  | 29 => ⟨S1600000x1, .i32⟩
  | 30 => ⟨S1600000x1, .i1⟩
  | 31 => ⟨S1600000x1, .i1⟩
  | 32 => ⟨S_, .i1⟩
  | 33 => ⟨S1600000, .i1⟩
  | 34 => ⟨S1600000x64, .f32⟩
  | 35 => ⟨S1600000x64, .i1⟩
  | 36 => ⟨S_, .f32⟩
  | 37 => ⟨S1600000x64, .f32⟩
  | 38 => ⟨S1600000x64, .f32⟩
  | 39 => ⟨S1600000x1, .f32⟩
  | 40 => ⟨S1600000x64, .f32⟩
  | 41 => ⟨S1600000x64, .f32⟩
  | 42 => ⟨S_, .f32⟩
  | 43 => ⟨S100000x64, .f32⟩
  | 44 => ⟨S1600000x1, .i32⟩
  | 45 => ⟨S100000x64, .f32⟩
  | 46 => ⟨S1x64, .f32⟩
  | 47 => ⟨S1x64, .f32⟩
  | 48 => ⟨S100000x64, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1, .i32⟩
  | 58 => ⟨S_, .i32⟩
  | 59 => ⟨S1600000x1, .i32⟩
  | 60 => ⟨S1600000x1, .i1⟩
  | 61 => ⟨S1x1, .i32⟩
  | 62 => ⟨S1600000x1, .i32⟩
  | 63 => ⟨S1600000x1, .i1⟩
  | 64 => ⟨S1600000x1, .i1⟩
  | 65 => ⟨S_, .i1⟩
  | 66 => ⟨S1600000, .i1⟩
  | 67 => ⟨S1600000x64, .f32⟩
  | 68 => ⟨S1600000x64, .i1⟩
  | 69 => ⟨S_, .f32⟩
  | 70 => ⟨S1600000x64, .f32⟩
  | 71 => ⟨S1600000x64, .f32⟩
  | 72 => ⟨S1600000x1, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S1x32, .f32⟩
  | 80 => ⟨S1x32, .f32⟩
  | 81 => ⟨S100000x32, .f32⟩
  | 82 => ⟨S100000x160, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S1, .i32⟩
  | 92 => ⟨S_, .i32⟩
  | 93 => ⟨S4096x1, .i32⟩
  | 94 => ⟨S4096x1, .i1⟩
  | 95 => ⟨S1x1, .i32⟩
  | 96 => ⟨S4096x1, .i32⟩
  | 97 => ⟨S4096x1, .i1⟩
  | 98 => ⟨S4096x1, .i1⟩
  | 99 => ⟨S_, .i1⟩
  | 100 => ⟨S4096, .i1⟩
  | 101 => ⟨S4096x160, .f32⟩
  | 102 => ⟨S4096x160, .i1⟩
  | 103 => ⟨S_, .f32⟩
  | 104 => ⟨S4096x160, .f32⟩
  | 105 => ⟨S4096x160, .f32⟩
  | 106 => ⟨S_, .i32⟩
  | 107 => ⟨S4096, .i32⟩
  | 108 => ⟨S4096, .i32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S1, .i32⟩
  | 118 => ⟨S_, .i32⟩
  | 119 => ⟨S4096x1, .i32⟩
  | 120 => ⟨S4096x1, .i1⟩
  | 121 => ⟨S1x1, .i32⟩
  | 122 => ⟨S4096x1, .i32⟩
  | 123 => ⟨S4096x1, .i1⟩
  | 124 => ⟨S4096x1, .i1⟩
  | 125 => ⟨S_, .i1⟩
  | 126 => ⟨S4096, .i1⟩
  | 127 => ⟨S4096x160, .f32⟩
  | _ => ⟨S1600000, .i32⟩

abbrev hbmTy0_1 (i : Nat) : BufTy := match i % 128 with
  | 0 => ⟨S4096x160, .i1⟩
  | 1 => ⟨S_, .f32⟩
  | 2 => ⟨S4096x160, .f32⟩
  | 3 => ⟨S4096x160, .f32⟩
  | 4 => ⟨S4096x1, .f32⟩
  | 5 => ⟨S4096, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x32, .f32⟩
  | .local _ .vmem, ⟨15, _⟩ => ⟨S1x32, .f32⟩
  | .local _ .vmem, ⟨16, _⟩ => ⟨S64x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S1024x160, .f32⟩
  | .local _ .vmem, ⟨21, _⟩ => ⟨S1024x160, .f32⟩
  | .local _ .vmem, ⟨22, _⟩ => ⟨S1024x160, .f32⟩
  | .local _ .vmem, ⟨23, _⟩ => ⟨S1024x160, .f32⟩
  | .local _ .vmem, ⟨24, _⟩ => ⟨S1024x1, .f32⟩
  | .local _ .vmem, ⟨25, _⟩ => ⟨S1024x1, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_cst_0 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v22 : Ref sig .tc := ⟨.hbm, 105, rfl⟩
abbrev main_c : Ref sig .tc := ⟨.hbm, 106, rfl⟩
abbrev main_v23 : Ref sig .tc := ⟨.hbm, 107, rfl⟩
abbrev main_v24 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x160 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S30000x64_S70000x64_S100000x64_d0 : Shape.Concatenates [S30000x64, S70000x64] S100000x64 0
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  concatenates_S100000x64_S100000x64_S100000x32_S100000x160_d1 : Shape.Concatenates [S100000x64, S100000x64, S100000x32] S100000x160 1
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x160_0 : S4096.BroadcastsInDim S4096x160 (![0] : Fin 1 → Fin S4096x160.rank)
  bcast_S_S4096x160 : S_.BroadcastsInDim S4096x160 (![] : Fin 0 → Fin S4096x160.rank)
  inb_S1024x160_S1024x160_0_0 : ∀ a, (![0, 0] : Fin 2 → Nat) a + S1024x160.size a ≤ S1024x160.size a
  h_S1024x160 : 0 < S1024x160.numel
  shapeCasts_S1024x160_S1024x160 : S1024x160.ShapeCasts S1024x160
  reduces_S1024x160_S1024 : S1024x160.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S4096x1_S4096 : S4096x1.ShapeCasts S4096
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S100000x160_S4096x1_S4096x160_1_0_n_n_0_1_1160_wf : GatherDims.WF S100000x160 S4096x1 S4096x160 [1] [0] [] [0] [] 1 ![1, 160]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x160.size a ≤ S4096x160.size a
  hwx2_0 : ∀ i : grid2.Coords, EltTy.bits .f32 = 32 ∨ (Rect.block (s := S4096x160) S1024x160.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x160.size a ≤ S4096x160.size a
  hwx2_1 : ∀ i : grid2.Coords, EltTy.bits .f32 = 32 ∨ (Rect.block (s := S4096x160) S1024x160.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .f32 = 32 ∨ (Rect.block (s := S4096x1) S1024x1.size (cc2_transform_2 i) (hinb2_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x160_S4096x1_S4096x160_1_0_n_n_0_1_1160 : GatherDims S100000x160 S4096x1 S4096x160 where
  offsetDims := [1]
  collapsedSliceDims := [0]
  operandBatchingDims := []
  startIndicesBatchingDims := []
  startIndexMap := [0]
  indexVectorDim := 1
  sliceSizes := ![1, 160]
  wf := gather_S100000x160_S4096x1_S4096x160_1_0_n_n_0_1_1160_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v22) S1024x160.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1024x160.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1600000 : Shape := ⟨1, ![1600000]⟩
abbrev S30000x64 : Shape := ⟨2, ![30000, 64]⟩
abbrev S70000x64 : Shape := ⟨2, ![70000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S4096 : Shape := ⟨1, ![4096]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S100000x160 : Shape := ⟨2, ![100000, 160]⟩
abbrev S4096x1 : Shape := ⟨2, ![4096, 1]⟩
abbrev S4096x160 : Shape := ⟨2, ![4096, 160]⟩

abbrev nBuf : Space → Nat
  | .hbm => 131
  | .vmem => 0
  | .smem => 0
  | _ => 0

abbrev hbmTy0_0 (i : Nat) : BufTy := match i % 128 with
  | 0 => ⟨S1600000, .i32⟩
  | 1 => ⟨S1600000, .i32⟩
  | 2 => ⟨S1600000, .f32⟩
  | 3 => ⟨S30000x64, .f32⟩
  | 4 => ⟨S70000x64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S64x32, .f32⟩
  | 12 => ⟨S32, .f32⟩
  | 13 => ⟨S4096, .i32⟩
  | 14 => ⟨S4096, .i32⟩
  | 15 => ⟨S100000x64, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S1600000x1, .f32⟩
  | 26 => ⟨S1600000x64, .f32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S100000x64, .f32⟩
  | 43 => ⟨S_, .f32⟩
  | 44 => ⟨S_, .f32⟩
  | 45 => ⟨S100000x64, .f32⟩
  | 46 => ⟨S100000x64, .i1⟩
  | 47 => ⟨S_, .f32⟩
  | 48 => ⟨S100000x64, .f32⟩
  | 49 => ⟨S100000x64, .f32⟩
  | 50 => ⟨S100000x64, .f32⟩
  | 51 => ⟨S100000x64, .f32⟩
  | 52 => ⟨S_, .f32⟩
  | 53 => ⟨S100000, .f32⟩
  | 54 => ⟨S100000x1, .f32⟩
  | 55 => ⟨S100000x1, .f32⟩
  | 56 => ⟨S_, .f32⟩
  | 57 => ⟨S100000x1, .f32⟩
  | 58 => ⟨S100000x1, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x1, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S100000x64, .f32⟩
  | 78 => ⟨S100000x32, .f32⟩
  | 79 => ⟨S1x32, .f32⟩
  | 80 => ⟨S100000x32, .f32⟩
  | 81 => ⟨S100000x32, .f32⟩
  | 82 => ⟨S100000x64, .f32⟩
  | 83 => ⟨S100000x32, .f32⟩
  | 84 => ⟨S1x32, .f32⟩
  | 85 => ⟨S100000x32, .f32⟩
  | 86 => ⟨S100000x32, .f32⟩
  | 87 => ⟨S100000x32, .f32⟩
  | 88 => ⟨S_, .f32⟩
  | 89 => ⟨S_, .f32⟩
  | 90 => ⟨S100000x32, .f32⟩
  | 91 => ⟨S100000x32, .i1⟩
  | 92 => ⟨S_, .f32⟩
  | 93 => ⟨S100000x32, .f32⟩
  | 94 => ⟨S100000x32, .f32⟩
  | 95 => ⟨S100000x32, .f32⟩
  | 96 => ⟨S100000x32, .f32⟩
  | 97 => ⟨S_, .f32⟩
  | 98 => ⟨S100000, .f32⟩
  | 99 => ⟨S100000x1, .f32⟩
  | 100 => ⟨S100000x1, .f32⟩
  | 101 => ⟨S_, .f32⟩
  | 102 => ⟨S100000x1, .f32⟩
  | 103 => ⟨S100000x1, .f32⟩
  | 104 => ⟨S100000x32, .f32⟩
  | 105 => ⟨S100000x32, .f32⟩
  | 106 => ⟨S100000x160, .f32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S4096x160, .f32⟩
  | 116 => ⟨S_, .i32⟩
  | 117 => ⟨S4096, .i32⟩
  | 118 => ⟨S4096, .i32⟩
  | 119 => ⟨S_, .i32⟩
  | 120 => ⟨S4096, .i32⟩
  | 121 => ⟨S4096, .i1⟩
  | 122 => ⟨S_, .i32⟩
  | 123 => ⟨S4096, .i32⟩
  | 124 => ⟨S4096, .i32⟩
  | 125 => ⟨S4096, .i32⟩
  | 126 => ⟨S4096x1, .i32⟩
  | 127 => ⟨S4096x160, .f32⟩
  | _ => ⟨S1600000, .i32⟩

abbrev hbmTy0_1 (i : Nat) : BufTy := match i % 128 with
  | 0 => ⟨S4096x160, .f32⟩
  | 1 => ⟨S_, .f32⟩
  | 2 => ⟨S4096, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v25 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_call1_v2 : Ref sig .tc := ⟨.hbm, 54, rfl⟩
abbrev main_v26 : Ref sig .tc := ⟨.hbm, 55, rfl⟩
abbrev main_cst_2 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_6 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v55 : Ref sig .tc := ⟨.hbm, 95, rfl⟩
abbrev main_call3_v0 : Ref sig .tc := ⟨.hbm, 96, rfl⟩
abbrev main_call3_cst : Ref sig .tc := ⟨.hbm, 97, rfl⟩
abbrev main_call3_v1 : Ref sig .tc := ⟨.hbm, 98, rfl⟩
abbrev main_call3_v2 : Ref sig .tc := ⟨.hbm, 99, rfl⟩
abbrev main_v56 : Ref sig .tc := ⟨.hbm, 100, rfl⟩
abbrev main_cst_7 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_8 : Ref sig .tc := ⟨.hbm, 107, rfl⟩
abbrev main_v62 : Ref sig .tc := ⟨.hbm, 108, rfl⟩
abbrev main_v63 : Ref sig .tc := ⟨.hbm, 109, rfl⟩
abbrev main_c_9 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_10 : Ref sig .tc := ⟨.hbm, 116, rfl⟩
abbrev main_v69 : Ref sig .tc := ⟨.hbm, 117, rfl⟩
abbrev main_v70 : Ref sig .tc := ⟨.hbm, 118, rfl⟩
abbrev main_c_11 : Ref sig .tc := ⟨.hbm, 119, rfl⟩
abbrev main_v71 : Ref sig .tc := ⟨.hbm, 120, rfl⟩
abbrev main_v72 : Ref sig .tc := ⟨.hbm, 121, rfl⟩
abbrev main_c_12 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_13 : Ref sig .tc := ⟨.hbm, 129, rfl⟩
abbrev main_v79 : Ref sig .tc := ⟨.hbm, 130, rfl⟩

abbrev nD : Nat := 1
abbrev τ : Topo := Topo.v7x

variable {F : FTy → Type} [FloatOps F]

class Facts₀ : Prop where
  concatenates_S30000x64_S70000x64_S100000x64_d0 : Shape.Concatenates [S30000x64, S70000x64] S100000x64 0
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  concatenates_S100000x64_S100000x64_S100000x32_S100000x160_d1 : Shape.Concatenates [S100000x64, S100000x64, S100000x32] S100000x160 1
  bcast_S_S4096 : S_.BroadcastsInDim S4096 (![] : Fin 0 → Fin S4096.rank)
  bcast_S4096_S4096x1_0 : S4096.BroadcastsInDim S4096x1 (![0] : Fin 1 → Fin S4096x1.rank)
  reducesTo_S4096x160_S4096_d1 : S4096x160.ReducesTo [1] S4096
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x160_S4096x1_S4096x160_1_0_n_n_0_1_1160_wf : GatherDims.WF S100000x160 S4096x1 S4096x160 [1] [0] [] [0] [] 1 ![1, 160]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x160_S4096x1_S4096x160_1_0_n_n_0_1_1160 : GatherDims S100000x160 S4096x1 S4096x160 where
  offsetDims := [1]
  collapsedSliceDims := [0]
  operandBatchingDims := []
  startIndicesBatchingDims := []
  startIndexMap := [0]
  indexVectorDim := 1
  sliceSizes := ![1, 160]
  wf := gather_S100000x160_S4096x1_S4096x160_1_0_n_n_0_1_1160_wf

class Facts : Prop extends Facts₀ where

variable [Facts]
-- ==== Proof.K.RunCond.lean ====
/-
  The run of the kernel program from the launch to the return, GIVEN one segment record per kernel region entered
  from the contents before it and left at the contents after it: every weakly fair execution of the program
  terminates, and the final memory holds the result buffer at the last valuation and every argument as launched.
  The three host stretches between regions run over all the unscoped buffers; the last valuation is read back
  against the final state, buffer by buffer.
-/
import proofs.«415617_j89146341196446_1_alg».proof.Proof.Gen.Kernel.Regions

set_option maxRecDepth 1152

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- An unscoped reference of the core is among those the thread states hold. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- The run, given the regions' records: as the conditional frame, with the result buffer's final contents read off
    the last valuation beside the arguments'. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V3 m c) ∗ E 0 c) ⊢ R0.pre c)
    (hpost0 : ∀ c : Dev nD, R0.post c ⊢ iprop(StableHlo.held (c : Thread nD τ) (Pipeline.ucRefs τ sig) (Gen.V4 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V6 m outs c) ∗ E 1 c) ⊢ R1.pre c)
    (hpost1 : ∀ c : Dev nD, R1.post c ⊢ iprop(StableHlo.held (c : Thread nD τ) (Pipeline.ucRefs τ sig) (Gen.V7 m outs c) ∗ E 2 c))
    (R2 : RegionSeg (pcfgs (F := F)) Gen.adm pdats ι defs₀ 𝒱₀ L lv 2)
    (hpre2 : ∀ c : Dev nD, iprop(StableHlo.held (c : Thread nD τ) (Pipeline.ucRefs τ sig) (Gen.V11 m outs c) ∗ E 2 c) ⊢ R2.pre c)
    (hpost2 : ∀ c : Dev nD, R2.post c ⊢ iprop(StableHlo.held (c : Thread nD τ) (Pipeline.ucRefs τ sig) (Gen.V12 m outs c) ∗ E 3 c)) :
    θ_run defs (onTc (τ := τ) (main (F := F))) ⟨m, fun _ => 0, ρ⟩ (fun r => ∀ c : Dev nD,
      r.2.mem ((c.tc : Thread nD τ).loc main_v27) = Gen.V13 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) Gen.adm pdats ι cellOf_inj EP defs₀ 𝒱₀ L lv m ρ main
    (Gen.segs m outs 𝒱₀ L lv E ι pdats R0 R1 R2)
    (fun c Q => by
      -- the program is the chain of its thirteen items, and so is the segments' run
      rewrite [main_chain c, Seg.run_eq_chain,
        show (Gen.segs m outs 𝒱₀ L lv E ι pdats R0 R1 R2 c).map Seg.prog = [
          StableHlo.seq hostOps0, StableHlo.seq hostOps0_1, StableHlo.seq hostOps0_2,
          Prog.lift (.customCall (Pipeline.entry 0) ()),
          StableHlo.seq hostOps1, StableHlo.seq hostOps1_1,
          Prog.lift (.customCall (Pipeline.entry 1) ()),
          StableHlo.seq hostOps2, StableHlo.seq hostOps2_1, StableHlo.seq hostOps2_2, StableHlo.seq hostOps2_3,
          Prog.lift (.customCall (Pipeline.entry 2) ()),
          StableHlo.seq hostOps3 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V13 m outs c))
    (hch := fun c => ⟨.rfl, .rfl, .rfl, hpre0 c, hpost0 c, .rfl, hpre1 c, hpost1 c, .rfl, .rfl, .rfl, hpre2 c, hpost2 c, sep_mono .rfl (hE3 c)⟩)
    (hinit := ?_)
    (QY := fun c s => ∀ b ∈ Pipeline.ucRefs τ sig, s.mem ((c : Thread nD τ).1, b) = Gen.V13 m outs c b)
    (hfin := fun c s' => ?_) (hQ := fun s h c => ?_)
  · -- the launch: every core's unscoped buffers are held at the launch contents; the rest makes the first rest state
    have hheld : ∀ c : Dev nD, (unscopedBufs c (fun b => m ((c.tc : Thread nD τ).loc b)) : sProp (MT nD τ sig Ix (Elt F) ℕ U Lvl))
        = StableHlo.held (c : Thread nD τ) (Pipeline.ucRefs τ sig) (Gen.V0 m c) :=
      fun c => Pipeline.unscopedBufs_held (Ix := Ix) (Name := ℕ) (U := U) (Lvl := Lvl) c (Gen.V0 m c)
    simp only [hheld]
    rw [bigSep_sep']
    iintro ⟨⟨Hh, Hr⟩, Hla⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (Gen.V13 m outs c) s')
    isplitl [Hh] <;> iassumption
  · -- the result's buffer is unscoped, and so is every argument's, which no item writes
    exact ⟨h c _ (mem_uc main_v27 (by decide)),
      (h c _ (mem_uc main_arg0 (by decide))).trans (Gen.V13_main_arg0 m outs c),
      (h c _ (mem_uc main_arg1 (by decide))).trans (Gen.V13_main_arg1 m outs c),
      (h c _ (mem_uc main_arg2 (by decide))).trans (Gen.V13_main_arg2 m outs c),
      (h c _ (mem_uc main_arg3 (by decide))).trans (Gen.V13_main_arg3 m outs c),
      (h c _ (mem_uc main_arg4 (by decide))).trans (Gen.V13_main_arg4 m outs c),
      (h c _ (mem_uc main_arg5 (by decide))).trans (Gen.V13_main_arg5 m outs c),
      (h c _ (mem_uc main_arg6 (by decide))).trans (Gen.V13_main_arg6 m outs c),
      (h c _ (mem_uc main_arg7 (by decide))).trans (Gen.V13_main_arg7 m outs c),
      (h c _ (mem_uc main_arg8 (by decide))).trans (Gen.V13_main_arg8 m outs c),
      (h c _ (mem_uc main_arg9 (by decide))).trans (Gen.V13_main_arg9 m outs c),
      (h c _ (mem_uc main_arg10 (by decide))).trans (Gen.V13_main_arg10 m outs c),
      (h c _ (mem_uc main_arg11 (by decide))).trans (Gen.V13_main_arg11 m outs c),
      (h c _ (mem_uc main_arg12 (by decide))).trans (Gen.V13_main_arg12 m outs c),
      (h c _ (mem_uc main_arg13 (by decide))).trans (Gen.V13_main_arg13 m outs c),
      (h c _ (mem_uc main_arg14 (by decide))).trans (Gen.V13_main_arg14 m outs c)⟩

end Cert.Kernel.Hand

end
-- ==== Proof.K.Half0.lean ====
/-
  Region 0 of the kernel program: the first graph layer's dense stage, a pipeline over 20 row tiles of 5000
  rows. At a parameter `V` (what the core's buffers hold when the region is entered): each window's block at a grid
  point, what the body leaves in the output window's staging buffer (its one store, of the layer's value on the
  tile), the body's triple, the proof data and the body obligation.
-/
import proofs.«415617_j89146341196446_1_alg».proof.Proof.Gen.Kernel.Launch
import proofs.«415617_j89146341196446_1_alg».proof.Proof.Gen.Kernel.Skeleton
import proofs.«415617_j89146341196446_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rT0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- The output window's staging buffer after the body, from the six input blocks: its one store. -/
def out0_6 (x0 x1 : Vec F S5000x64 .f32) (x2 : Vec F S64x64 .f32) (x3 : Vec F S1x64 .f32) (x4 : Vec F S64x64 .f32) (x5 : Vec F S1x64 .f32) :
    Vec F S5000x64 .f32 :=
  View.canon [⟨rT0, k0_pay1 (View.ld x0 rT0) (View.ld x1 rT0) (View.ld x2 rW0) (View.ld x4 rW0) (View.ld x3 rB0) (View.ld x5 rB0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-! ## The inputs' staging buffers -/

/-- Input window 0's current staging buffer holds its block at every point, whether the pipeline fetched it there or
    not, for any proof data whose array is `V`'s and whose body leaves the block in place: an unfetched point has
    the same block index as the one before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2, whose block index is constant over the grid: it is fetched at the first point only
    and holds that one block ever after. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same of input window 3 (constant block index). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The same of input window 4 (constant block index). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The same of input window 5 (constant block index). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body's one store -/

/-- The store's rectangle is the whole output buffer, so it covers every index of it. -/
theorem cover0_6 (p0 : Vec F S5000x64 .f32) (y : S5000x64.Idx) :
    ∃ pc ∈ ([⟨rT0, p0⟩] : List (View.Piece (Elt F) S5000x64 .f32)), y ∈ pc.1.set :=
  View.cover_of_tiled [⟨rT0, p0⟩] S5000x64.size (by rfl) y

/-! ## The body's triple -/

set_option maxHeartbeats 1000000 in
/-- The body on whole staging memrefs — the six inputs' at read contents `x0 … x5`, the output's at anything — runs to
    the continuation with the inputs' as they were and the output's at `out0_6` of them: it loads the six inputs whole
    (the two weight matrices before the two bias rows), loads the output buffer (a value it never uses), and stores the
    layer's value on the tile over the whole output buffer. The grid coordinate is not read. -/
theorem sound_kernel0 (c : Dev nD) (E : Set ℕ) (i : grid0.Coords)
    (arg1 : Memref sig .tc .vmem S5000x64 .f32) (harg1 : arg1.IsWhole)
    (arg2 : Memref sig .tc .vmem S5000x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gnn_layer_kernel i arg1 harg1 arg2 harg2 arg3 harg3 arg4 harg4 arg5 harg5 arg6 harg6 arg7 harg7) K := by
  simp only [cc0__gnn_layer_kernel_eq_skeleton]; unfold cc0__gnn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Half1.lean ====
/-
  Region 1 of the kernel program: the second graph layer's dense stage (64 columns in, 32 out), a pipeline over 20 row tiles of 5000
  rows. At a parameter `V` (what the core's buffers hold when the region is entered): each window's block at a grid
  point, what the body leaves in the output window's staging buffer (its one store, of the layer's value on the
  tile), the body's triple, the proof data and the body obligation.
-/
import proofs.«415617_j89146341196446_1_alg».proof.Proof.Gen.Kernel.Launch
import proofs.«415617_j89146341196446_1_alg».proof.Proof.Gen.Kernel.Skeleton
import proofs.«415617_j89146341196446_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rT1 : Rect S5000x64 := Rect.unit (s := S5000x64) ![0, 0] S5000x64.size inb_S5000x64_S5000x64_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rO1 : Rect S5000x32 := Rect.unit (s := S5000x32) ![0, 0] S5000x32.size inb_S5000x32_S5000x32_0_0

/-- The output window's staging buffer after the body, from the six input blocks: its one store. -/
def out1_6 (x0 x1 : Vec F S5000x64 .f32) (x2 : Vec F S64x32 .f32) (x3 : Vec F S1x32 .f32) (x4 : Vec F S64x32 .f32) (x5 : Vec F S1x32 .f32) :
    Vec F S5000x32 .f32 :=
  View.canon [⟨rO1, k1_pay1 (View.ld x0 rT1) (View.ld x1 rT1) (View.ld x2 rW1) (View.ld x4 rW1) (View.ld x3 rB1) (View.ld x5 rB1)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-! ## The inputs' staging buffers -/

/-- Input window 0's current staging buffer holds its block at every point, whether the pipeline fetched it there or
    not, for any proof data whose array is `V`'s and whose body leaves the block in place: an unfetched point has
    the same block index as the one before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2, whose block index is constant over the grid: it is fetched at the first point only
    and holds that one block ever after. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of input window 3 (constant block index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same of input window 4 (constant block index). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The same of input window 5 (constant block index). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body's one store -/

/-- The store's rectangle is the whole output buffer, so it covers every index of it. -/
theorem cover1_6 (p0 : Vec F S5000x32 .f32) (y : S5000x32.Idx) :
    ∃ pc ∈ ([⟨rO1, p0⟩] : List (View.Piece (Elt F) S5000x32 .f32)), y ∈ pc.1.set :=
  View.cover_of_tiled [⟨rO1, p0⟩] S5000x32.size (by rfl) y

/-! ## The body's triple -/

set_option maxHeartbeats 1000000 in
/-- The body on whole staging memrefs — the six inputs' at read contents `x0 … x5`, the output's at anything — runs to
    the continuation with the inputs' as they were and the output's at `out1_6` of them: it loads the six inputs whole
    (the two weight matrices before the two bias rows), loads the output buffer (a value it never uses), and stores the
    layer's value on the tile over the whole output buffer. The grid coordinate is not read. -/
theorem sound_kernel1 (c : Dev nD) (E : Set ℕ) (i : grid1.Coords)
    (arg1 : Memref sig .tc .vmem S5000x64 .f32) (harg1 : arg1.IsWhole)
    (arg2 : Memref sig .tc .vmem S5000x64 .f32) (harg2 : arg2.IsWhole)
    (arg3 : Memref sig .tc .vmem S64x32 .f32) (harg3 : arg3.IsWhole)
    (arg4 : Memref sig .tc .vmem S1x32 .f32) (harg4 : arg4.IsWhole)
    (arg5 : Memref sig .tc .vmem S64x32 .f32) (harg5 : arg5.IsWhole)
    (arg6 : Memref sig .tc .vmem S1x32 .f32) (harg6 : arg6.IsWhole)
    (arg7 : Memref sig .tc .vmem S5000x32 .f32) (harg7 : arg7.IsWhole)
    (x0 x1 : Vec F S5000x64 .f32) (x2 : Vec F S64x32 .f32) (x3 : Vec F S1x32 .f32) (x4 : Vec F S64x32 .f32) (x5 : Vec F S1x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__gnn_layer_kernel i arg1 harg1 arg2 harg2 arg3 harg3 arg4 harg4 arg5 harg5 arg6 harg6 arg7 harg7) K := by
  simp only [cc1__gnn_layer_kernel_eq_skeleton]; unfold cc1__gnn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Half2.lean ====
/-
  Region 2 of the kernel program: the scores, a pipeline over 4 tiles of 1024 scored pairs. At a parameter
  `V` (what the core's buffers hold when the region is entered): each window's block at a grid point, what the body
  leaves in the output window's staging buffer (its one store: the row sums of the product of the two row blocks), the
  proof data and the body obligation.
-/
import proofs.«415617_j89146341196446_1_alg».proof.Proof.Gen.Kernel.Launch
import proofs.«415617_j89146341196446_1_alg».proof.Proof.Gen.Kernel.Skeleton
import proofs.«415617_j89146341196446_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rI2 : Rect S1024x160 := Rect.unit (s := S1024x160) ![0, 0] S1024x160.size inb_S1024x160_S1024x160_0_0
abbrev rO2 : Rect S1024x1 := Rect.unit (s := S1024x1) ![0, 0] S1024x1.size inb_S1024x1_S1024x1_0_0

/-- The output window's staging buffer after the body, from the two input blocks: its one store. -/
def out2_2 (x0 x1 : Vec F S1024x160 .f32) : Vec F S1024x1 .f32 :=
  View.canon [⟨rO2, k2_pay1 (View.ld x0 rI2) (View.ld x1 rI2)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by dsimp only [dat2]

/-! ## The inputs' staging buffers -/

/-- Input window 0's current staging buffer holds its block at every point, whether the pipeline fetched it there or
    not, for any proof data whose array is `V`'s and whose body leaves the block in place: an unfetched point has
    the same block index as the one before it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's one store -/

/-- The store's rectangle is the whole output buffer, so it covers every index of it. -/
theorem cover2_2 (p0 : Vec F S1024x1 .f32) (y : S1024x1.Idx) :
    ∃ pc ∈ ([⟨rO2, p0⟩] : List (View.Piece (Elt F) S1024x1 .f32)), y ∈ pc.1.set :=
  View.cover_of_tiled [⟨rO2, p0⟩] S1024x1.size (by rfl) y

/-! ## The body's triple -/

set_option maxHeartbeats 1000000 in
/-- The body on whole staging memrefs — the two inputs' at read contents `x0`, `x1`, the output's at anything — runs to
    the continuation with the inputs' as they were and the output's at `out2_2 x0 x1`: it loads the two inputs whole,
    loads the output buffer (a value it never uses), and stores the row sums over the whole output buffer. The grid
    coordinate is not read. -/
theorem sound_kernel2 (c : Dev nD) (E : Set ℕ) (i : grid2.Coords)
    (arg1 : Memref sig .tc .vmem S1024x160 .f32) (harg1 : arg1.IsWhole)
    (arg2 : Memref sig .tc .vmem S1024x160 .f32) (harg2 : arg2.IsWhole)
    (arg3 : Memref sig .tc .vmem S1024x1 .f32) (harg3 : arg3.IsWhole)
    (x0 x1 : Vec F S1024x160 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dot_kernel i arg1 harg1 arg2 harg2 arg3 harg3) K := by
  simp only [cc2__dot_kernel_eq_skeleton]; unfold cc2__dot_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Outs.lean ====
/-
  What the three kernel regions of the program leave in memory, as concrete contents: the buffers' contents at each
  region's entry and exit, folded from the launch memory through the host stretches, each region's result array
  at what its pipeline leaves there (the write-backs of all its points folded over the array as entered). The
  generated valuations between the program's items, read at these contents, are these.
-/
import proofs.«415617_j89146341196446_1_alg».proof.Proof.Gen.Kernel.Regions
import proofs.«415617_j89146341196446_1_alg».proof.Proof.K.Half0
import proofs.«415617_j89146341196446_1_alg».proof.Proof.K.Half1
import proofs.«415617_j89146341196446_1_alg».proof.Proof.K.Half2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 0's exit: the entry contents with the result array at what the pipeline leaves. -/
def X4 (c : Dev nD) : Valuation τ sig (Elt F) :=
  Function.update (Gen.V3 m c) main_v10 ((dat0 (fun c b => Gen.V3 m c b) c).arrAt 6 cfg0.N)
/-- Region 1's entry: the two host stretches after region 0's exit. -/
def X6 (c : Dev nD) : Valuation τ sig (Elt F) := StableHlo.after hostOps1_1 (StableHlo.after hostOps1 (X4 m c))
/-- Region 1's exit. -/
def X7 (c : Dev nD) : Valuation τ sig (Elt F) :=
  Function.update (X6 m c) main_v20 ((dat1 (fun c b => X6 m c b) c).arrAt 6 cfg1.N)
/-- Region 2's entry: the four host stretches after region 1's exit. -/
def X11 (c : Dev nD) : Valuation τ sig (Elt F) :=
  StableHlo.after hostOps2_3 (StableHlo.after hostOps2_2 (StableHlo.after hostOps2_1 (StableHlo.after hostOps2 (X7 m c))))
/-- Region 2's exit. -/
def X12 (c : Dev nD) : Valuation τ sig (Elt F) :=
  Function.update (X11 m c) main_v26 ((dat2 (fun c b => X11 m c b) c).arrAt 2 cfg2.N)

/-- What each region leaves: its exit contents read at the reference asked for (elsewhere the launch contents). -/
def outs : Gen.Outs (F := F) := fun J r c =>
  match J with
  | 4 => X4 m c (Proc.devRef .tc r)
  | 7 => X7 m c (Proc.devRef .tc r)
  | 12 => X12 m c (Proc.devRef .tc r)
  | _ => m ((c : Thread nD τ).loc r)

theorem outs_4X (c : Dev nD) : outs m 4 main_v10 c = (dat0 (fun c b => Gen.V3 m c b) c).arrAt 6 cfg0.N := by
  show X4 m c (Proc.devRef .tc main_v10) = _
  unfold X4
  exact Function.update_self _ _ _
theorem outs_7X (c : Dev nD) : outs m 7 main_v20 c = (dat1 (fun c b => X6 m c b) c).arrAt 6 cfg1.N := by
  show X7 m c (Proc.devRef .tc main_v20) = _
  unfold X7
  exact Function.update_self _ _ _
theorem outs_12X (c : Dev nD) : outs m 12 main_v26 c = (dat2 (fun c b => X11 m c b) c).arrAt 2 cfg2.N := by
  show X12 m c (Proc.devRef .tc main_v26) = _
  unfold X12
  exact Function.update_self _ _ _

/-! The generated valuations at these contents are the exit and entry contents above. -/
theorem V4_eq (c : Dev nD) : Gen.V4 m (outs m) c = X4 m c := by
  show Function.update (Gen.V3 m c) main_v10 (outs m 4 main_v10 c) = _
  rw [outs_4X]; rfl
theorem V6_eq (c : Dev nD) : Gen.V6 m (outs m) c = X6 m c := by
  show StableHlo.after hostOps1_1 (StableHlo.after hostOps1 (Gen.V4 m (outs m) c)) = _
  rw [V4_eq]; rfl
theorem V7_eq (c : Dev nD) : Gen.V7 m (outs m) c = X7 m c := by
  show Function.update (Gen.V6 m (outs m) c) main_v20 (outs m 7 main_v20 c) = _
  rw [outs_7X, V6_eq]; rfl
theorem V11_eq (c : Dev nD) : Gen.V11 m (outs m) c = X11 m c := by
  show StableHlo.after hostOps2_3 (StableHlo.after hostOps2_2 (StableHlo.after hostOps2_1 (StableHlo.after hostOps2 (Gen.V7 m (outs m) c)))) = _
  rw [V7_eq]; rfl
theorem V12_eq (c : Dev nD) : Gen.V12 m (outs m) c = X12 m c := by
  show Function.update (Gen.V11 m (outs m) c) main_v26 (outs m 12 main_v26 c) = _
  rw [outs_12X, V11_eq]; rfl

theorem outs_4 (c : Dev nD) : outs m 4 main_v10 c = (dat0 (fun c b => Gen.V3 m c b) c).arrAt 6 cfg0.N := outs_4X m c
theorem outs_7 (c : Dev nD) : outs m 7 main_v20 c = (dat1 (fun c b => Gen.V6 m (outs m) c b) c).arrAt 6 cfg1.N := by
  rw [show (fun (c : Dev nD) (b : Ref sig .tc) => Gen.V6 m (outs m) c b) = (fun (c : Dev nD) (b : Ref sig .tc) => X6 m c b) from
    funext fun c => funext fun b => congrFun (V6_eq m c) (Proc.devRef .tc b)]
  exact outs_7X m c
theorem outs_12 (c : Dev nD) : outs m 12 main_v26 c = (dat2 (fun c b => Gen.V11 m (outs m) c b) c).arrAt 2 cfg2.N := by
  rw [show (fun (c : Dev nD) (b : Ref sig .tc) => Gen.V11 m (outs m) c b) = (fun (c : Dev nD) (b : Ref sig .tc) => X11 m c b) from
    funext fun c => funext fun b => congrFun (V11_eq m c) (Proc.devRef .tc b)]
  exact outs_12X m c

end Cert.Kernel.Hand

end
-- ==== Proof.K.Run.lean ====
/-
  The launch of the kernel program: its three kernel regions as segments between the generated valuations, each
  entered from every unscoped buffer of the core at the contents before it and left at the contents after it, and
  the run from any memory with zero counters to the return.
-/
import proofs.«415617_j89146341196446_1_alg».proof.Proof.Gen.Kernel.Regions
import proofs.«415617_j89146341196446_1_alg».proof.Proof.K.RunCond
import proofs.«415617_j89146341196446_1_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## A kernel region as a segment between two valuations

Every region of this program is of one kind: its pipeline owes nothing at any point, records no pair of its own,
has no semaphore beside the staging ones and no prefetched table, and its invariant is the class's (the scoped
scratch at some contents and the generator register at some state). Such a region is entered from all the unscoped
buffers at a valuation that has its arrays at the proof data's entry contents, and left at any valuation that has
the arrays at what the pipeline leaves and agrees with the first elsewhere. -/

/-- No core owes another anything: no level is assigned. -/
abbrev L0 : GSem nD τ sig → Finset Unit := fun _ => ∅
abbrev lv0 : GSem nD τ sig → Unit → ℕ := fun _ _ => 0
/-- What rides beside the buffers through every segment: the core's generator register at some state and its dues,
    at nothing. -/
abbrev Rst (c : Dev nD) : sProp 𝕄 :=
  iprop((∃ r, prngReg c r) ∗ ∃ W, owes (c : Thread nD τ) (0 : CellTallies nD τ sig Unit) W)

/-- A core owing nothing owes, within any bound that excludes no pair, the nothing a proof data owes at a point. -/
theorem owesAt_of_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  iintro ⟨%W, HO⟩
  iexists W
  isplitr
  · ipureintro; exact fun x _ => Or.inl (hr.symm ▸ Set.mem_univ x)
  rw [ho]; iexact HO

/-- and back, the bound forgotten. -/
theorem zero_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  iintro ⟨%W, -, HO⟩
  iexists W
  rw [ho]; iexact HO

section Records

variable (pd : (p : Fin 3) → (c : Dev nD) → Dat τ (Elt F) Unit ℕ (UR sig nD τ) ℕ (cfgs p) c)

set_option backward.isDefEq.respectTransparency.types false in
/-- Pipeline `p`'s region over the thread state, from the contents `Wb` to the contents `Wa`. -/
def regOf (p : Fin 3) (lf : Pipeline.LaunchFacts (nD := nD) (τ := τ) cfgs p)
    (Wb Wa : Dev nD → Valuation τ sig (Elt F))
    (hbody : ∀ c, BodyObligation (pd p c) (defs₀ (F := F)) Variants.none () Set.univ)
    (hΦ : ∀ c t, (pd p c).Φ t = Pipeline.ΦA (cfgs p).spec c)
    (hq : ∀ c w, (pd p c).q w = fullShare)
    (howed : ∀ c t, (pd p c).owed t = 0)
    (hrec : ∀ c t, (pd p c).recorded t = Set.univ)
    (hpf : ∀ c, (BI.emp : sProp 𝕄) ⊢ Pipeline.prefHeld (pcfgs (F := F) p).pre c (fun _ => fullShare) (Gen.adm (F := F) p).1)
    (hA : ∀ c w, (pd p c).A w = Wb c (Proc.devRef .tc (Pipeline.arrRef (cfgs p).spec w)))
    (hF : ∀ c w, (pd p c).arrAt w (cfgs p).N = Wa c (Proc.devRef .tc (Pipeline.arrRef (cfgs p).spec w)))
    (hrest : ∀ c (b : Ref sig .tc), b ∉ Finset.univ.image (Pipeline.arrRef (cfgs p).spec) →
      Wa c (Proc.devRef .tc b) = Wb c (Proc.devRef .tc b)) :
    Pipeline.RegionSeg (pcfgs (F := F)) Gen.adm pd () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (Wb c) ∗ Rst c)
  post c := iprop(StableHlo.held (c : Thread nD τ) (Pipeline.ucRefs τ sig) (Wa c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => Wb c b)
  hentry c := by
    -- the arrays leave the unscoped buffers at the entry contents; the register and the dues come out of the rest
    have hsplit := Pipeline.arrays_of_unscopedBufs (p := p) (pcfgs (F := F)) Gen.adm pd lf.win lf.arr_whole c
      ((pd p c).share_full (hq c)) (fun b => Wb c b) (hA c)
    rw [Pipeline.unscopedBufs_held] at hsplit
    rw [Pipeline.ownSems0_none]
    iintro ⟨⟨Hbufs, Hprng, HO⟩, -, -⟩
    ihave H := hsplit $$ Hbufs
    icases H with ⟨Harr, Hrest⟩
    imodintro
    isplitl [Harr]; · iexact Harr
    isplitr; · iapply (hpf c); iempintro
    isplitl [HO]; · iapply (owesAt_of_zero (pd p c) 0 (howed c 0) (hrec c 0)); iexact HO
    isplitl [Hprng]; · iexact Hprng
    iexact Hrest
  hin c := by
    rw [hΦ c 0]; unfold Pipeline.ΦA
    iintro ⟨Hprng, -, Hscr⟩
    isplitl [Hscr]; · iexact Hscr
    iexact Hprng
  hout c := by
    rw [hΦ c (Fin.last _), Pipeline.ownSems0_none]; unfold Pipeline.ΦA
    iintro ⟨Hscr, Hprng⟩
    isplitl [Hprng]; · iexact Hprng
    isplitr; · iempintro
    iexact Hscr
  hexit c := by
    -- the arrays go back among the unscoped buffers, now at what the pipeline leaves
    have hjoin := Pipeline.unscopedBufs_of_arrays (p := p) (pcfgs (F := F)) Gen.adm (Ix := Unit) (Name := ℕ) (U := UR sig nD τ) (Lvl := ℕ)
      lf.win lf.arr_whole c pd ((pd p c).share_full (hq c)) (fun b => Wb c b) (fun b => Wa c b)
      ((pd p c).arrAt · (cfgs p).N) (hF c) (hrest c)
    rw [Pipeline.unscopedBufs_held] at hjoin
    iintro ⟨Harr, HO, Hprng, Hrest⟩
    imodintro
    isplitl [Harr Hrest]
    · iapply hjoin; isplitl [Harr] <;> iassumption
    isplitl [Hprng]; · iexact Hprng
    iapply (zero_of_owesAt (pd p c) (Fin.last _) (howed c _)); iexact HO

end Records

/-! ## The proof data family -/

/-- Every pipeline's proof data, each at its region's entry contents. -/
def pdats : (p : Fin 3) → (c : Dev nD) → Dat τ (Elt F) Unit ℕ (UR sig nD τ) ℕ (cfgs p) c
  | ⟨0, _⟩ => fun c => dat0 (fun c b => Gen.V3 m c b) c
  | ⟨1, _⟩ => fun c => dat1 (fun c b => Gen.V6 m (outs m) c b) c
  | ⟨2, _⟩ => fun c => dat2 (fun c b => Gen.V11 m (outs m) c b) c

/-- No pipeline has a prefetched table. -/
theorem noTables (p : Fin 3) (c : Dev nD) :
    (BI.emp : sProp 𝕄) ⊢ Pipeline.prefHeld (pcfgs (F := F) p).pre c (fun _ => fullShare) (Gen.adm (F := F) p).1 := by
  unfold Pipeline.prefHeld
  rw [show (Finset.univ : Finset (Fin (pcfgs (F := F) p).pre.K)) = ∅ from rfl, BI.bigSep_empty]

/-! ### Region 0 -/

/-- The result array's buffer after region 0 is what the region leaves there. -/
theorem V4_out (c : Dev nD) : Gen.V4 m (outs m) c (Proc.devRef .tc main_v10) = outs m 4 main_v10 c := by
  show Function.update (Gen.V3 m c) main_v10 (outs m 4 main_v10 c) (Proc.devRef .tc main_v10) = _
  exact Function.update_self _ _ _

/-- An input window's array is never written, and no item before the next boundary changes it. -/
theorem hF_in0 (c : Dev nD) (w : Fin 7) (hin : (cfg0.win w).isOut = false)
    (hne : Pipeline.arrRef spec0 w ∉ ([main_v10] : List (Ref sig .tc))) :
    (pdats m 0 c).arrAt w cfg0.N = Gen.V4 m (outs m) c (Proc.devRef .tc (Pipeline.arrRef spec0 w)) :=
  ((pdats m 0 c).arrAt_in w hin _).trans (Gen.V4_of m (outs m) c _ hne).symm

/-- At the exit each array holds what the pipeline leaves: the inputs what they held, the result the write-backs. -/
theorem hF0 (c : Dev nD) : ∀ w : Fin 7, (pdats m 0 c).arrAt w cfg0.N = Gen.V4 m (outs m) c (Proc.devRef .tc (Pipeline.arrRef spec0 w))
  | ⟨0, _⟩ => hF_in0 m c 0 rfl (by decide)
  | ⟨1, _⟩ => hF_in0 m c 1 rfl (by decide)
  | ⟨2, _⟩ => hF_in0 m c 2 rfl (by decide)
  | ⟨3, _⟩ => hF_in0 m c 3 rfl (by decide)
  | ⟨4, _⟩ => hF_in0 m c 4 rfl (by decide)
  | ⟨5, _⟩ => hF_in0 m c 5 rfl (by decide)
  | ⟨6, _⟩ => ((V4_out m c).trans (outs_4 m c)).symm
  | ⟨_ + 7, h⟩ => absurd h (Nat.not_lt.2 (Nat.le_add_left _ _))

/-- and every other buffer what it held at the entry. -/
theorem hrest0 (c : Dev nD) (b : Ref sig .tc) (hb : b ∉ Finset.univ.image (Pipeline.arrRef spec0)) :
    Gen.V4 m (outs m) c (Proc.devRef .tc b) = Gen.V3 m c (Proc.devRef .tc b) :=
  Gen.V4_of m (outs m) c b fun h => hb (Finset.mem_image.mpr ⟨6, Finset.mem_univ _, (List.mem_singleton.mp h).symm⟩)

/-- Region 0 over the thread state. -/
def reg0 : Pipeline.RegionSeg (pcfgs (F := F)) Gen.adm (pdats m) () defs₀ Variants.none L0 lv0 0 :=
  regOf (pdats m) 0 launch0 (fun c => Gen.V3 m c) (fun c => Gen.V4 m (outs m) c) (fun c => body_obligation0 (fun c b => Gen.V3 m c b) c)
    (fun _ _ => rfl) (fun _ _ => rfl) (fun _ _ => rfl) (fun _ _ => rfl) (noTables 0) (fun _ _ => rfl)
    (hF0 m) (hrest0 m)

/-! ### Region 1 -/

/-- The result array's buffer after region 1 is what the region leaves there. -/
theorem V7_out (c : Dev nD) : Gen.V7 m (outs m) c (Proc.devRef .tc main_v20) = outs m 7 main_v20 c := by
  show Function.update (Gen.V6 m (outs m) c) main_v20 (outs m 7 main_v20 c) (Proc.devRef .tc main_v20) = _
  exact Function.update_self _ _ _

/-- An input window's array is never written, and no item before the next boundary changes it. -/
theorem hF_in1 (c : Dev nD) (w : Fin 7) (hin : (cfg1.win w).isOut = false)
    (hne : Pipeline.arrRef spec1 w ∉ ([main_v20] : List (Ref sig .tc))) :
    (pdats m 1 c).arrAt w cfg1.N = Gen.V7 m (outs m) c (Proc.devRef .tc (Pipeline.arrRef spec1 w)) :=
  ((pdats m 1 c).arrAt_in w hin _).trans (Gen.V7_of m (outs m) c _ hne).symm

/-- At the exit each array holds what the pipeline leaves: the inputs what they held, the result the write-backs. -/
theorem hF1 (c : Dev nD) : ∀ w : Fin 7, (pdats m 1 c).arrAt w cfg1.N = Gen.V7 m (outs m) c (Proc.devRef .tc (Pipeline.arrRef spec1 w))
  | ⟨0, _⟩ => hF_in1 m c 0 rfl (by decide)
  | ⟨1, _⟩ => hF_in1 m c 1 rfl (by decide)
  | ⟨2, _⟩ => hF_in1 m c 2 rfl (by decide)
  | ⟨3, _⟩ => hF_in1 m c 3 rfl (by decide)
  | ⟨4, _⟩ => hF_in1 m c 4 rfl (by decide)
  | ⟨5, _⟩ => hF_in1 m c 5 rfl (by decide)
  | ⟨6, _⟩ => ((V7_out m c).trans (outs_7 m c)).symm
  | ⟨_ + 7, h⟩ => absurd h (Nat.not_lt.2 (Nat.le_add_left _ _))

/-- and every other buffer what it held at the entry. -/
theorem hrest1 (c : Dev nD) (b : Ref sig .tc) (hb : b ∉ Finset.univ.image (Pipeline.arrRef spec1)) :
    Gen.V7 m (outs m) c (Proc.devRef .tc b) = Gen.V6 m (outs m) c (Proc.devRef .tc b) :=
  Gen.V7_of m (outs m) c b fun h => hb (Finset.mem_image.mpr ⟨6, Finset.mem_univ _, (List.mem_singleton.mp h).symm⟩)

/-- Region 1 over the thread state. -/
def reg1 : Pipeline.RegionSeg (pcfgs (F := F)) Gen.adm (pdats m) () defs₀ Variants.none L0 lv0 1 :=
  regOf (pdats m) 1 launch1 (fun c => Gen.V6 m (outs m) c) (fun c => Gen.V7 m (outs m) c) (fun c => body_obligation1 (fun c b => Gen.V6 m (outs m) c b) c)
    (fun _ _ => rfl) (fun _ _ => rfl) (fun _ _ => rfl) (fun _ _ => rfl) (noTables 1) (fun _ _ => rfl)
    (hF1 m) (hrest1 m)

/-! ### Region 2 -/

/-- The result array's buffer after region 2 is what the region leaves there. -/
theorem V12_out (c : Dev nD) : Gen.V12 m (outs m) c (Proc.devRef .tc main_v26) = outs m 12 main_v26 c := by
  show Function.update (Gen.V11 m (outs m) c) main_v26 (outs m 12 main_v26 c) (Proc.devRef .tc main_v26) = _
  exact Function.update_self _ _ _

/-- An input window's array is never written, and no item before the next boundary changes it. -/
theorem hF_in2 (c : Dev nD) (w : Fin 3) (hin : (cfg2.win w).isOut = false)
    (hne : Pipeline.arrRef spec2 w ∉ ([main_v26] : List (Ref sig .tc))) :
    (pdats m 2 c).arrAt w cfg2.N = Gen.V12 m (outs m) c (Proc.devRef .tc (Pipeline.arrRef spec2 w)) :=
  ((pdats m 2 c).arrAt_in w hin _).trans (Gen.V12_of m (outs m) c _ hne).symm

/-- At the exit each array holds what the pipeline leaves: the inputs what they held, the result the write-backs. -/
theorem hF2 (c : Dev nD) : ∀ w : Fin 3, (pdats m 2 c).arrAt w cfg2.N = Gen.V12 m (outs m) c (Proc.devRef .tc (Pipeline.arrRef spec2 w))
  | ⟨0, _⟩ => hF_in2 m c 0 rfl (by decide)
  | ⟨1, _⟩ => hF_in2 m c 1 rfl (by decide)
  | ⟨2, _⟩ => ((V12_out m c).trans (outs_12 m c)).symm
  | ⟨_ + 3, h⟩ => absurd h (Nat.not_lt.2 (Nat.le_add_left _ _))

/-- and every other buffer what it held at the entry. -/
theorem hrest2 (c : Dev nD) (b : Ref sig .tc) (hb : b ∉ Finset.univ.image (Pipeline.arrRef spec2)) :
    Gen.V12 m (outs m) c (Proc.devRef .tc b) = Gen.V11 m (outs m) c (Proc.devRef .tc b) :=
  Gen.V12_of m (outs m) c b fun h => hb (Finset.mem_image.mpr ⟨2, Finset.mem_univ _, (List.mem_singleton.mp h).symm⟩)

/-- Region 2 over the thread state. -/
def reg2 : Pipeline.RegionSeg (pcfgs (F := F)) Gen.adm (pdats m) () defs₀ Variants.none L0 lv0 2 :=
  regOf (pdats m) 2 launch2 (fun c => Gen.V11 m (outs m) c) (fun c => Gen.V12 m (outs m) c) (fun c => body_obligation2 (fun c b => Gen.V11 m (outs m) c b) c)
    (fun _ _ => rfl) (fun _ _ => rfl) (fun _ _ => rfl) (fun _ _ => rfl) (noTables 2) (fun _ _ => rfl)
    (hF2 m) (hrest2 m)

/-! ## The launch -/

set_option backward.isDefEq.respectTransparency.types false in
/-- THE RUN of the kernel program: from any memory with zero counters every weakly fair execution terminates, and the
    final memory holds the result buffer at the last valuation — the launch contents carried through the host
    stretches, each region's result array at what its pipeline leaves — and every argument as launched. -/
theorem run_main (ρ : Dev nD → PrngReg) :
    θ_run (defs (F := F)) (onTc (τ := τ) (main (F := F))) ⟨m, fun _ => 0, ρ⟩ (fun r => ∀ c : Dev nD,
      r.2.mem ((c.tc : Thread nD τ).loc main_v27) = Gen.V13 m (outs m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond m emb₁ () Variants.none L0 lv0 (fun _ _ => rfl) ρ (outs m) (pdats m)
    (O₀ := 0) (G := fun _ => (BI.emp : sProp 𝕄))
    (u₀ := initOf (Pipeline.cells cfgs cellOf_inj) (Pipeline.launchToks cfgs cellOf_inj))
    (hu₀ := by
      -- the launch element is the pipelines' own; no further ghost resource is dealt
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hu; imodintro
      isplitl [Hu]; · iapply hown; iexact Hu
      rw [BI.bigSep_emp_const]; iempintro)
    (E := fun _ c => Rst c)
    (hE0 := by
      -- each core keeps its generator register and its dues, at nothing
      refine Pipeline.initEach L0 lv0 fun c => ?_
      iintro ⟨⟨-, HO, -, Hprng, -⟩, -⟩
      imodintro
      isplitl [Hprng]; · iexists _; iexact Hprng
      iexists ∅; iexact HO)
    (hE3 := fun c => by iintro ⟨-, HO⟩; iexact HO)
    (reg0 m) (fun _ => .rfl) (fun _ => .rfl)
    (reg1 m) (fun _ => .rfl) (fun _ => .rfl)
    (reg2 m) (fun _ => .rfl) (fun _ => .rfl)

end Cert.Kernel.Hand

end
-- ==== Proof.KI.RunCond.lean ====
/-
  The run of the kernel program from the launch to the return, GIVEN one segment record per kernel region entered
  from the contents before it and left at the contents after it: every weakly fair execution of the program
  terminates, and the final memory holds the result buffer at the last valuation and every argument as launched.
  The three host stretches between regions run over all the unscoped buffers; the last valuation is read back
  against the final state, buffer by buffer.
-/
import proofs.«415617_j89146341196446_1_alg».proof.Proof.Gen.KernelIdeal.Regions

set_option maxRecDepth 1152

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- An unscoped reference of the core is among those the thread states hold. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- The run, given the regions' records: as the conditional frame, with the result buffer's final contents read off
    the last valuation beside the arguments'. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V3 m c) ∗ E 0 c) ⊢ R0.pre c)
    (hpost0 : ∀ c : Dev nD, R0.post c ⊢ iprop(StableHlo.held (c : Thread nD τ) (Pipeline.ucRefs τ sig) (Gen.V4 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V6 m outs c) ∗ E 1 c) ⊢ R1.pre c)
    (hpost1 : ∀ c : Dev nD, R1.post c ⊢ iprop(StableHlo.held (c : Thread nD τ) (Pipeline.ucRefs τ sig) (Gen.V7 m outs c) ∗ E 2 c))
    (R2 : RegionSeg (pcfgs (F := F)) Gen.adm pdats ι defs₀ 𝒱₀ L lv 2)
    (hpre2 : ∀ c : Dev nD, iprop(StableHlo.held (c : Thread nD τ) (Pipeline.ucRefs τ sig) (Gen.V11 m outs c) ∗ E 2 c) ⊢ R2.pre c)
    (hpost2 : ∀ c : Dev nD, R2.post c ⊢ iprop(StableHlo.held (c : Thread nD τ) (Pipeline.ucRefs τ sig) (Gen.V12 m outs c) ∗ E 3 c)) :
    θ_run defs (onTc (τ := τ) (main (F := F))) ⟨m, fun _ => 0, ρ⟩ (fun r => ∀ c : Dev nD,
      r.2.mem ((c.tc : Thread nD τ).loc main_v27) = Gen.V13 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) Gen.adm pdats ι cellOf_inj EP defs₀ 𝒱₀ L lv m ρ main
    (Gen.segs m outs 𝒱₀ L lv E ι pdats R0 R1 R2)
    (fun c Q => by
      -- the program is the chain of its thirteen items, and so is the segments' run
      rewrite [main_chain c, Seg.run_eq_chain,
        show (Gen.segs m outs 𝒱₀ L lv E ι pdats R0 R1 R2 c).map Seg.prog = [
          StableHlo.seq hostOps0, StableHlo.seq hostOps0_1, StableHlo.seq hostOps0_2,
          Prog.lift (.customCall (Pipeline.entry 0) ()),
          StableHlo.seq hostOps1, StableHlo.seq hostOps1_1,
          Prog.lift (.customCall (Pipeline.entry 1) ()),
          StableHlo.seq hostOps2, StableHlo.seq hostOps2_1, StableHlo.seq hostOps2_2, StableHlo.seq hostOps2_3,
          Prog.lift (.customCall (Pipeline.entry 2) ()),
          StableHlo.seq hostOps3 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V13 m outs c))
    (hch := fun c => ⟨.rfl, .rfl, .rfl, hpre0 c, hpost0 c, .rfl, hpre1 c, hpost1 c, .rfl, .rfl, .rfl, hpre2 c, hpost2 c, sep_mono .rfl (hE3 c)⟩)
    (hinit := ?_)
    (QY := fun c s => ∀ b ∈ Pipeline.ucRefs τ sig, s.mem ((c : Thread nD τ).1, b) = Gen.V13 m outs c b)
    (hfin := fun c s' => ?_) (hQ := fun s h c => ?_)
  · -- the launch: every core's unscoped buffers are held at the launch contents; the rest makes the first rest state
    have hheld : ∀ c : Dev nD, (unscopedBufs c (fun b => m ((c.tc : Thread nD τ).loc b)) : sProp (MT nD τ sig Ix (Elt F) ℕ U Lvl))
        = StableHlo.held (c : Thread nD τ) (Pipeline.ucRefs τ sig) (Gen.V0 m c) :=
      fun c => Pipeline.unscopedBufs_held (Ix := Ix) (Name := ℕ) (U := U) (Lvl := Lvl) c (Gen.V0 m c)
    simp only [hheld]
    rw [bigSep_sep']
    iintro ⟨⟨Hh, Hr⟩, Hla⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (Gen.V13 m outs c) s')
    isplitl [Hh] <;> iassumption
  · -- the result's buffer is unscoped, and so is every argument's, which no item writes
    exact ⟨h c _ (mem_uc main_v27 (by decide)),
      (h c _ (mem_uc main_arg0 (by decide))).trans (Gen.V13_main_arg0 m outs c),
      (h c _ (mem_uc main_arg1 (by decide))).trans (Gen.V13_main_arg1 m outs c),
      (h c _ (mem_uc main_arg2 (by decide))).trans (Gen.V13_main_arg2 m outs c),
      (h c _ (mem_uc main_arg3 (by decide))).trans (Gen.V13_main_arg3 m outs c),
      (h c _ (mem_uc main_arg4 (by decide))).trans (Gen.V13_main_arg4 m outs c),
      (h c _ (mem_uc main_arg5 (by decide))).trans (Gen.V13_main_arg5 m outs c),
      (h c _ (mem_uc main_arg6 (by decide))).trans (Gen.V13_main_arg6 m outs c),
      (h c _ (mem_uc main_arg7 (by decide))).trans (Gen.V13_main_arg7 m outs c),
      (h c _ (mem_uc main_arg8 (by decide))).trans (Gen.V13_main_arg8 m outs c),
      (h c _ (mem_uc main_arg9 (by decide))).trans (Gen.V13_main_arg9 m outs c),
      (h c _ (mem_uc main_arg10 (by decide))).trans (Gen.V13_main_arg10 m outs c),
      (h c _ (mem_uc main_arg11 (by decide))).trans (Gen.V13_main_arg11 m outs c),
      (h c _ (mem_uc main_arg12 (by decide))).trans (Gen.V13_main_arg12 m outs c),
      (h c _ (mem_uc main_arg13 (by decide))).trans (Gen.V13_main_arg13 m outs c),
      (h c _ (mem_uc main_arg14 (by decide))).trans (Gen.V13_main_arg14 m outs c)⟩

end Cert.KernelIdeal.Hand

end
-- ==== Proof.KI.Half0.lean ====
/-
  Region 0 of the idealized kernel program: the first graph layer's dense stage, a pipeline over 20 row tiles of 5000
  rows. At a parameter `V` (what the core's buffers hold when the region is entered): each window's block at a grid
  point, what the body leaves in the output window's staging buffer (its one store, of the layer's value on the
  tile), the body's triple, the proof data and the body obligation.
-/
import proofs.«415617_j89146341196446_1_alg».proof.Proof.Gen.KernelIdeal.Launch
import proofs.«415617_j89146341196446_1_alg».proof.Proof.Gen.KernelIdeal.Skeleton
import proofs.«415617_j89146341196446_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rT0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- The output window's staging buffer after the body, from the six input blocks: its one store. -/
def out0_6 (x0 x1 : Vec F S5000x64 .f32) (x2 : Vec F S64x64 .f32) (x3 : Vec F S1x64 .f32) (x4 : Vec F S64x64 .f32) (x5 : Vec F S1x64 .f32) :
    Vec F S5000x64 .f32 :=
  View.canon [⟨rT0, k0_pay1 (View.ld x0 rT0) (View.ld x1 rT0) (View.ld x2 rW0) (View.ld x4 rW0) (View.ld x3 rB0) (View.ld x5 rB0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-! ## The inputs' staging buffers -/

/-- Input window 0's current staging buffer holds its block at every point, whether the pipeline fetched it there or
    not, for any proof data whose array is `V`'s and whose body leaves the block in place: an unfetched point has
    the same block index as the one before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2, whose block index is constant over the grid: it is fetched at the first point only
    and holds that one block ever after. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same of input window 3 (constant block index). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The same of input window 4 (constant block index). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The same of input window 5 (constant block index). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body's one store -/

/-- The store's rectangle is the whole output buffer, so it covers every index of it. -/
theorem cover0_6 (p0 : Vec F S5000x64 .f32) (y : S5000x64.Idx) :
    ∃ pc ∈ ([⟨rT0, p0⟩] : List (View.Piece (Elt F) S5000x64 .f32)), y ∈ pc.1.set :=
  View.cover_of_tiled [⟨rT0, p0⟩] S5000x64.size (by rfl) y

/-! ## The body's triple -/

set_option maxHeartbeats 1000000 in
/-- The body on whole staging memrefs — the six inputs' at read contents `x0 … x5`, the output's at anything — runs to
    the continuation with the inputs' as they were and the output's at `out0_6` of them: it loads the six inputs whole
    (the two weight matrices before the two bias rows), loads the output buffer (a value it never uses), and stores the
    layer's value on the tile over the whole output buffer. The grid coordinate is not read. -/
theorem sound_kernel0 (c : Dev nD) (E : Set ℕ) (i : grid0.Coords)
    (arg1 : Memref sig .tc .vmem S5000x64 .f32) (harg1 : arg1.IsWhole)
    (arg2 : Memref sig .tc .vmem S5000x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gnn_layer_kernel i arg1 harg1 arg2 harg2 arg3 harg3 arg4 harg4 arg5 harg5 arg6 harg6 arg7 harg7) K := by
  simp only [cc0__gnn_layer_kernel_eq_skeleton]; unfold cc0__gnn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Half1.lean ====
/-
  Region 1 of the idealized kernel program: the second graph layer's dense stage (64 columns in, 32 out), a pipeline over 20 row tiles of 5000
  rows. At a parameter `V` (what the core's buffers hold when the region is entered): each window's block at a grid
  point, what the body leaves in the output window's staging buffer (its one store, of the layer's value on the
  tile), the body's triple, the proof data and the body obligation.
-/
import proofs.«415617_j89146341196446_1_alg».proof.Proof.Gen.KernelIdeal.Launch
import proofs.«415617_j89146341196446_1_alg».proof.Proof.Gen.KernelIdeal.Skeleton
import proofs.«415617_j89146341196446_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rT1 : Rect S5000x64 := Rect.unit (s := S5000x64) ![0, 0] S5000x64.size inb_S5000x64_S5000x64_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rO1 : Rect S5000x32 := Rect.unit (s := S5000x32) ![0, 0] S5000x32.size inb_S5000x32_S5000x32_0_0

/-- The output window's staging buffer after the body, from the six input blocks: its one store. -/
def out1_6 (x0 x1 : Vec F S5000x64 .f32) (x2 : Vec F S64x32 .f32) (x3 : Vec F S1x32 .f32) (x4 : Vec F S64x32 .f32) (x5 : Vec F S1x32 .f32) :
    Vec F S5000x32 .f32 :=
  View.canon [⟨rO1, k1_pay1 (View.ld x0 rT1) (View.ld x1 rT1) (View.ld x2 rW1) (View.ld x4 rW1) (View.ld x3 rB1) (View.ld x5 rB1)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-! ## The inputs' staging buffers -/

/-- Input window 0's current staging buffer holds its block at every point, whether the pipeline fetched it there or
    not, for any proof data whose array is `V`'s and whose body leaves the block in place: an unfetched point has
    the same block index as the one before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2, whose block index is constant over the grid: it is fetched at the first point only
    and holds that one block ever after. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of input window 3 (constant block index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same of input window 4 (constant block index). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The same of input window 5 (constant block index). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body's one store -/

/-- The store's rectangle is the whole output buffer, so it covers every index of it. -/
theorem cover1_6 (p0 : Vec F S5000x32 .f32) (y : S5000x32.Idx) :
    ∃ pc ∈ ([⟨rO1, p0⟩] : List (View.Piece (Elt F) S5000x32 .f32)), y ∈ pc.1.set :=
  View.cover_of_tiled [⟨rO1, p0⟩] S5000x32.size (by rfl) y

/-! ## The body's triple -/

set_option maxHeartbeats 1000000 in
/-- The body on whole staging memrefs — the six inputs' at read contents `x0 … x5`, the output's at anything — runs to
    the continuation with the inputs' as they were and the output's at `out1_6` of them: it loads the six inputs whole
    (the two weight matrices before the two bias rows), loads the output buffer (a value it never uses), and stores the
    layer's value on the tile over the whole output buffer. The grid coordinate is not read. -/
theorem sound_kernel1 (c : Dev nD) (E : Set ℕ) (i : grid1.Coords)
    (arg1 : Memref sig .tc .vmem S5000x64 .f32) (harg1 : arg1.IsWhole)
    (arg2 : Memref sig .tc .vmem S5000x64 .f32) (harg2 : arg2.IsWhole)
    (arg3 : Memref sig .tc .vmem S64x32 .f32) (harg3 : arg3.IsWhole)
    (arg4 : Memref sig .tc .vmem S1x32 .f32) (harg4 : arg4.IsWhole)
    (arg5 : Memref sig .tc .vmem S64x32 .f32) (harg5 : arg5.IsWhole)
    (arg6 : Memref sig .tc .vmem S1x32 .f32) (harg6 : arg6.IsWhole)
    (arg7 : Memref sig .tc .vmem S5000x32 .f32) (harg7 : arg7.IsWhole)
    (x0 x1 : Vec F S5000x64 .f32) (x2 : Vec F S64x32 .f32) (x3 : Vec F S1x32 .f32) (x4 : Vec F S64x32 .f32) (x5 : Vec F S1x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__gnn_layer_kernel i arg1 harg1 arg2 harg2 arg3 harg3 arg4 harg4 arg5 harg5 arg6 harg6 arg7 harg7) K := by
  simp only [cc1__gnn_layer_kernel_eq_skeleton]; unfold cc1__gnn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Half2.lean ====
/-
  Region 2 of the idealized kernel program: the scores, a pipeline over 4 tiles of 1024 scored pairs. At a parameter
  `V` (what the core's buffers hold when the region is entered): each window's block at a grid point, what the body
  leaves in the output window's staging buffer (its one store: the row sums of the product of the two row blocks), the
  proof data and the body obligation.
-/
import proofs.«415617_j89146341196446_1_alg».proof.Proof.Gen.KernelIdeal.Launch
import proofs.«415617_j89146341196446_1_alg».proof.Proof.Gen.KernelIdeal.Skeleton
import proofs.«415617_j89146341196446_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rI2 : Rect S1024x160 := Rect.unit (s := S1024x160) ![0, 0] S1024x160.size inb_S1024x160_S1024x160_0_0
abbrev rO2 : Rect S1024x1 := Rect.unit (s := S1024x1) ![0, 0] S1024x1.size inb_S1024x1_S1024x1_0_0

/-- The output window's staging buffer after the body, from the two input blocks: its one store. -/
def out2_2 (x0 x1 : Vec F S1024x160 .f32) : Vec F S1024x1 .f32 :=
  View.canon [⟨rO2, k2_pay1 (View.ld x0 rI2) (View.ld x1 rI2)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by dsimp only [dat2]

/-! ## The inputs' staging buffers -/

/-- Input window 0's current staging buffer holds its block at every point, whether the pipeline fetched it there or
    not, for any proof data whose array is `V`'s and whose body leaves the block in place: an unfetched point has
    the same block index as the one before it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's one store -/

/-- The store's rectangle is the whole output buffer, so it covers every index of it. -/
theorem cover2_2 (p0 : Vec F S1024x1 .f32) (y : S1024x1.Idx) :
    ∃ pc ∈ ([⟨rO2, p0⟩] : List (View.Piece (Elt F) S1024x1 .f32)), y ∈ pc.1.set :=
  View.cover_of_tiled [⟨rO2, p0⟩] S1024x1.size (by rfl) y

/-! ## The body's triple -/

set_option maxHeartbeats 1000000 in
/-- The body on whole staging memrefs — the two inputs' at read contents `x0`, `x1`, the output's at anything — runs to
    the continuation with the inputs' as they were and the output's at `out2_2 x0 x1`: it loads the two inputs whole,
    loads the output buffer (a value it never uses), and stores the row sums over the whole output buffer. The grid
    coordinate is not read. -/
theorem sound_kernel2 (c : Dev nD) (E : Set ℕ) (i : grid2.Coords)
    (arg1 : Memref sig .tc .vmem S1024x160 .f32) (harg1 : arg1.IsWhole)
    (arg2 : Memref sig .tc .vmem S1024x160 .f32) (harg2 : arg2.IsWhole)
    (arg3 : Memref sig .tc .vmem S1024x1 .f32) (harg3 : arg3.IsWhole)
    (x0 x1 : Vec F S1024x160 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dot_kernel i arg1 harg1 arg2 harg2 arg3 harg3) K := by
  simp only [cc2__dot_kernel_eq_skeleton]; unfold cc2__dot_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Outs.lean ====
/-
  What the three kernel regions of the program leave in memory, as concrete contents: the buffers' contents at each
  region's entry and exit, folded from the launch memory through the host stretches, each region's result array
  at what its pipeline leaves there (the write-backs of all its points folded over the array as entered). The
  generated valuations between the program's items, read at these contents, are these.
-/
import proofs.«415617_j89146341196446_1_alg».proof.Proof.Gen.KernelIdeal.Regions
import proofs.«415617_j89146341196446_1_alg».proof.Proof.KI.Half0
import proofs.«415617_j89146341196446_1_alg».proof.Proof.KI.Half1
import proofs.«415617_j89146341196446_1_alg».proof.Proof.KI.Half2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 0's exit: the entry contents with the result array at what the pipeline leaves. -/
def X4 (c : Dev nD) : Valuation τ sig (Elt F) :=
  Function.update (Gen.V3 m c) main_v10 ((dat0 (fun c b => Gen.V3 m c b) c).arrAt 6 cfg0.N)
/-- Region 1's entry: the two host stretches after region 0's exit. -/
def X6 (c : Dev nD) : Valuation τ sig (Elt F) := StableHlo.after hostOps1_1 (StableHlo.after hostOps1 (X4 m c))
/-- Region 1's exit. -/
def X7 (c : Dev nD) : Valuation τ sig (Elt F) :=
  Function.update (X6 m c) main_v20 ((dat1 (fun c b => X6 m c b) c).arrAt 6 cfg1.N)
/-- Region 2's entry: the four host stretches after region 1's exit. -/
def X11 (c : Dev nD) : Valuation τ sig (Elt F) :=
  StableHlo.after hostOps2_3 (StableHlo.after hostOps2_2 (StableHlo.after hostOps2_1 (StableHlo.after hostOps2 (X7 m c))))
/-- Region 2's exit. -/
def X12 (c : Dev nD) : Valuation τ sig (Elt F) :=
  Function.update (X11 m c) main_v26 ((dat2 (fun c b => X11 m c b) c).arrAt 2 cfg2.N)

/-- What each region leaves: its exit contents read at the reference asked for (elsewhere the launch contents). -/
def outs : Gen.Outs (F := F) := fun J r c =>
  match J with
  | 4 => X4 m c (Proc.devRef .tc r)
  | 7 => X7 m c (Proc.devRef .tc r)
  | 12 => X12 m c (Proc.devRef .tc r)
  | _ => m ((c : Thread nD τ).loc r)

theorem outs_4X (c : Dev nD) : outs m 4 main_v10 c = (dat0 (fun c b => Gen.V3 m c b) c).arrAt 6 cfg0.N := by
  show X4 m c (Proc.devRef .tc main_v10) = _
  unfold X4
  exact Function.update_self _ _ _
theorem outs_7X (c : Dev nD) : outs m 7 main_v20 c = (dat1 (fun c b => X6 m c b) c).arrAt 6 cfg1.N := by
  show X7 m c (Proc.devRef .tc main_v20) = _
  unfold X7
  exact Function.update_self _ _ _
theorem outs_12X (c : Dev nD) : outs m 12 main_v26 c = (dat2 (fun c b => X11 m c b) c).arrAt 2 cfg2.N := by
  show X12 m c (Proc.devRef .tc main_v26) = _
  unfold X12
  exact Function.update_self _ _ _

/-! The generated valuations at these contents are the exit and entry contents above. -/
theorem V4_eq (c : Dev nD) : Gen.V4 m (outs m) c = X4 m c := by
  show Function.update (Gen.V3 m c) main_v10 (outs m 4 main_v10 c) = _
  rw [outs_4X]; rfl
theorem V6_eq (c : Dev nD) : Gen.V6 m (outs m) c = X6 m c := by
  show StableHlo.after hostOps1_1 (StableHlo.after hostOps1 (Gen.V4 m (outs m) c)) = _
  rw [V4_eq]; rfl
theorem V7_eq (c : Dev nD) : Gen.V7 m (outs m) c = X7 m c := by
  show Function.update (Gen.V6 m (outs m) c) main_v20 (outs m 7 main_v20 c) = _
  rw [outs_7X, V6_eq]; rfl
theorem V11_eq (c : Dev nD) : Gen.V11 m (outs m) c = X11 m c := by
  show StableHlo.after hostOps2_3 (StableHlo.after hostOps2_2 (StableHlo.after hostOps2_1 (StableHlo.after hostOps2 (Gen.V7 m (outs m) c)))) = _
  rw [V7_eq]; rfl
theorem V12_eq (c : Dev nD) : Gen.V12 m (outs m) c = X12 m c := by
  show Function.update (Gen.V11 m (outs m) c) main_v26 (outs m 12 main_v26 c) = _
  rw [outs_12X, V11_eq]; rfl

theorem outs_4 (c : Dev nD) : outs m 4 main_v10 c = (dat0 (fun c b => Gen.V3 m c b) c).arrAt 6 cfg0.N := outs_4X m c
theorem outs_7 (c : Dev nD) : outs m 7 main_v20 c = (dat1 (fun c b => Gen.V6 m (outs m) c b) c).arrAt 6 cfg1.N := by
  rw [show (fun (c : Dev nD) (b : Ref sig .tc) => Gen.V6 m (outs m) c b) = (fun (c : Dev nD) (b : Ref sig .tc) => X6 m c b) from
    funext fun c => funext fun b => congrFun (V6_eq m c) (Proc.devRef .tc b)]
  exact outs_7X m c
theorem outs_12 (c : Dev nD) : outs m 12 main_v26 c = (dat2 (fun c b => Gen.V11 m (outs m) c b) c).arrAt 2 cfg2.N := by
  rw [show (fun (c : Dev nD) (b : Ref sig .tc) => Gen.V11 m (outs m) c b) = (fun (c : Dev nD) (b : Ref sig .tc) => X11 m c b) from
    funext fun c => funext fun b => congrFun (V11_eq m c) (Proc.devRef .tc b)]
  exact outs_12X m c

end Cert.KernelIdeal.Hand

end
-- ==== Proof.KI.Run.lean ====
/-
  The launch of the kernel program: its three kernel regions as segments between the generated valuations, each
  entered from every unscoped buffer of the core at the contents before it and left at the contents after it, and
  the run from any memory with zero counters to the return.
-/
import proofs.«415617_j89146341196446_1_alg».proof.Proof.Gen.KernelIdeal.Regions
import proofs.«415617_j89146341196446_1_alg».proof.Proof.KI.RunCond
import proofs.«415617_j89146341196446_1_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## A kernel region as a segment between two valuations

Every region of this program is of one kind: its pipeline owes nothing at any point, records no pair of its own,
has no semaphore beside the staging ones and no prefetched table, and its invariant is the class's (the scoped
scratch at some contents and the generator register at some state). Such a region is entered from all the unscoped
buffers at a valuation that has its arrays at the proof data's entry contents, and left at any valuation that has
the arrays at what the pipeline leaves and agrees with the first elsewhere. -/

/-- No core owes another anything: no level is assigned. -/
abbrev L0 : GSem nD τ sig → Finset Unit := fun _ => ∅
abbrev lv0 : GSem nD τ sig → Unit → ℕ := fun _ _ => 0
/-- What rides beside the buffers through every segment: the core's generator register at some state and its dues,
    at nothing. -/
abbrev Rst (c : Dev nD) : sProp 𝕄 :=
  iprop((∃ r, prngReg c r) ∗ ∃ W, owes (c : Thread nD τ) (0 : CellTallies nD τ sig Unit) W)

/-- A core owing nothing owes, within any bound that excludes no pair, the nothing a proof data owes at a point. -/
theorem owesAt_of_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  iintro ⟨%W, HO⟩
  iexists W
  isplitr
  · ipureintro; exact fun x _ => Or.inl (hr.symm ▸ Set.mem_univ x)
  rw [ho]; iexact HO

/-- and back, the bound forgotten. -/
theorem zero_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  iintro ⟨%W, -, HO⟩
  iexists W
  rw [ho]; iexact HO

section Records

variable (pd : (p : Fin 3) → (c : Dev nD) → Dat τ (Elt F) Unit ℕ (UR sig nD τ) ℕ (cfgs p) c)

set_option backward.isDefEq.respectTransparency.types false in
/-- Pipeline `p`'s region over the thread state, from the contents `Wb` to the contents `Wa`. -/
def regOf (p : Fin 3) (lf : Pipeline.LaunchFacts (nD := nD) (τ := τ) cfgs p)
    (Wb Wa : Dev nD → Valuation τ sig (Elt F))
    (hbody : ∀ c, BodyObligation (pd p c) (defs₀ (F := F)) Variants.none () Set.univ)
    (hΦ : ∀ c t, (pd p c).Φ t = Pipeline.ΦA (cfgs p).spec c)
    (hq : ∀ c w, (pd p c).q w = fullShare)
    (howed : ∀ c t, (pd p c).owed t = 0)
    (hrec : ∀ c t, (pd p c).recorded t = Set.univ)
    (hpf : ∀ c, (BI.emp : sProp 𝕄) ⊢ Pipeline.prefHeld (pcfgs (F := F) p).pre c (fun _ => fullShare) (Gen.adm (F := F) p).1)
    (hA : ∀ c w, (pd p c).A w = Wb c (Proc.devRef .tc (Pipeline.arrRef (cfgs p).spec w)))
    (hF : ∀ c w, (pd p c).arrAt w (cfgs p).N = Wa c (Proc.devRef .tc (Pipeline.arrRef (cfgs p).spec w)))
    (hrest : ∀ c (b : Ref sig .tc), b ∉ Finset.univ.image (Pipeline.arrRef (cfgs p).spec) →
      Wa c (Proc.devRef .tc b) = Wb c (Proc.devRef .tc b)) :
    Pipeline.RegionSeg (pcfgs (F := F)) Gen.adm pd () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (Wb c) ∗ Rst c)
  post c := iprop(StableHlo.held (c : Thread nD τ) (Pipeline.ucRefs τ sig) (Wa c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => Wb c b)
  hentry c := by
    -- the arrays leave the unscoped buffers at the entry contents; the register and the dues come out of the rest
    have hsplit := Pipeline.arrays_of_unscopedBufs (p := p) (pcfgs (F := F)) Gen.adm pd lf.win lf.arr_whole c
      ((pd p c).share_full (hq c)) (fun b => Wb c b) (hA c)
    rw [Pipeline.unscopedBufs_held] at hsplit
    rw [Pipeline.ownSems0_none]
    iintro ⟨⟨Hbufs, Hprng, HO⟩, -, -⟩
    ihave H := hsplit $$ Hbufs
    icases H with ⟨Harr, Hrest⟩
    imodintro
    isplitl [Harr]; · iexact Harr
    isplitr; · iapply (hpf c); iempintro
    isplitl [HO]; · iapply (owesAt_of_zero (pd p c) 0 (howed c 0) (hrec c 0)); iexact HO
    isplitl [Hprng]; · iexact Hprng
    iexact Hrest
  hin c := by
    rw [hΦ c 0]; unfold Pipeline.ΦA
    iintro ⟨Hprng, -, Hscr⟩
    isplitl [Hscr]; · iexact Hscr
    iexact Hprng
  hout c := by
    rw [hΦ c (Fin.last _), Pipeline.ownSems0_none]; unfold Pipeline.ΦA
    iintro ⟨Hscr, Hprng⟩
    isplitl [Hprng]; · iexact Hprng
    isplitr; · iempintro
    iexact Hscr
  hexit c := by
    -- the arrays go back among the unscoped buffers, now at what the pipeline leaves
    have hjoin := Pipeline.unscopedBufs_of_arrays (p := p) (pcfgs (F := F)) Gen.adm (Ix := Unit) (Name := ℕ) (U := UR sig nD τ) (Lvl := ℕ)
      lf.win lf.arr_whole c pd ((pd p c).share_full (hq c)) (fun b => Wb c b) (fun b => Wa c b)
      ((pd p c).arrAt · (cfgs p).N) (hF c) (hrest c)
    rw [Pipeline.unscopedBufs_held] at hjoin
    iintro ⟨Harr, HO, Hprng, Hrest⟩
    imodintro
    isplitl [Harr Hrest]
    · iapply hjoin; isplitl [Harr] <;> iassumption
    isplitl [Hprng]; · iexact Hprng
    iapply (zero_of_owesAt (pd p c) (Fin.last _) (howed c _)); iexact HO

end Records

/-! ## The proof data family -/

/-- Every pipeline's proof data, each at its region's entry contents. -/
def pdats : (p : Fin 3) → (c : Dev nD) → Dat τ (Elt F) Unit ℕ (UR sig nD τ) ℕ (cfgs p) c
  | ⟨0, _⟩ => fun c => dat0 (fun c b => Gen.V3 m c b) c
  | ⟨1, _⟩ => fun c => dat1 (fun c b => Gen.V6 m (outs m) c b) c
  | ⟨2, _⟩ => fun c => dat2 (fun c b => Gen.V11 m (outs m) c b) c

/-- No pipeline has a prefetched table. -/
theorem noTables (p : Fin 3) (c : Dev nD) :
    (BI.emp : sProp 𝕄) ⊢ Pipeline.prefHeld (pcfgs (F := F) p).pre c (fun _ => fullShare) (Gen.adm (F := F) p).1 := by
  unfold Pipeline.prefHeld
  rw [show (Finset.univ : Finset (Fin (pcfgs (F := F) p).pre.K)) = ∅ from rfl, BI.bigSep_empty]

/-! ### Region 0 -/

/-- The result array's buffer after region 0 is what the region leaves there. -/
theorem V4_out (c : Dev nD) : Gen.V4 m (outs m) c (Proc.devRef .tc main_v10) = outs m 4 main_v10 c := by
  show Function.update (Gen.V3 m c) main_v10 (outs m 4 main_v10 c) (Proc.devRef .tc main_v10) = _
  exact Function.update_self _ _ _

/-- An input window's array is never written, and no item before the next boundary changes it. -/
theorem hF_in0 (c : Dev nD) (w : Fin 7) (hin : (cfg0.win w).isOut = false)
    (hne : Pipeline.arrRef spec0 w ∉ ([main_v10] : List (Ref sig .tc))) :
    (pdats m 0 c).arrAt w cfg0.N = Gen.V4 m (outs m) c (Proc.devRef .tc (Pipeline.arrRef spec0 w)) :=
  ((pdats m 0 c).arrAt_in w hin _).trans (Gen.V4_of m (outs m) c _ hne).symm

/-- At the exit each array holds what the pipeline leaves: the inputs what they held, the result the write-backs. -/
theorem hF0 (c : Dev nD) : ∀ w : Fin 7, (pdats m 0 c).arrAt w cfg0.N = Gen.V4 m (outs m) c (Proc.devRef .tc (Pipeline.arrRef spec0 w))
  | ⟨0, _⟩ => hF_in0 m c 0 rfl (by decide)
  | ⟨1, _⟩ => hF_in0 m c 1 rfl (by decide)
  | ⟨2, _⟩ => hF_in0 m c 2 rfl (by decide)
  | ⟨3, _⟩ => hF_in0 m c 3 rfl (by decide)
  | ⟨4, _⟩ => hF_in0 m c 4 rfl (by decide)
  | ⟨5, _⟩ => hF_in0 m c 5 rfl (by decide)
  | ⟨6, _⟩ => ((V4_out m c).trans (outs_4 m c)).symm
  | ⟨_ + 7, h⟩ => absurd h (Nat.not_lt.2 (Nat.le_add_left _ _))

/-- and every other buffer what it held at the entry. -/
theorem hrest0 (c : Dev nD) (b : Ref sig .tc) (hb : b ∉ Finset.univ.image (Pipeline.arrRef spec0)) :
    Gen.V4 m (outs m) c (Proc.devRef .tc b) = Gen.V3 m c (Proc.devRef .tc b) :=
  Gen.V4_of m (outs m) c b fun h => hb (Finset.mem_image.mpr ⟨6, Finset.mem_univ _, (List.mem_singleton.mp h).symm⟩)

/-- Region 0 over the thread state. -/
def reg0 : Pipeline.RegionSeg (pcfgs (F := F)) Gen.adm (pdats m) () defs₀ Variants.none L0 lv0 0 :=
  regOf (pdats m) 0 launch0 (fun c => Gen.V3 m c) (fun c => Gen.V4 m (outs m) c) (fun c => body_obligation0 (fun c b => Gen.V3 m c b) c)
    (fun _ _ => rfl) (fun _ _ => rfl) (fun _ _ => rfl) (fun _ _ => rfl) (noTables 0) (fun _ _ => rfl)
    (hF0 m) (hrest0 m)

/-! ### Region 1 -/

/-- The result array's buffer after region 1 is what the region leaves there. -/
theorem V7_out (c : Dev nD) : Gen.V7 m (outs m) c (Proc.devRef .tc main_v20) = outs m 7 main_v20 c := by
  show Function.update (Gen.V6 m (outs m) c) main_v20 (outs m 7 main_v20 c) (Proc.devRef .tc main_v20) = _
  exact Function.update_self _ _ _

/-- An input window's array is never written, and no item before the next boundary changes it. -/
theorem hF_in1 (c : Dev nD) (w : Fin 7) (hin : (cfg1.win w).isOut = false)
    (hne : Pipeline.arrRef spec1 w ∉ ([main_v20] : List (Ref sig .tc))) :
    (pdats m 1 c).arrAt w cfg1.N = Gen.V7 m (outs m) c (Proc.devRef .tc (Pipeline.arrRef spec1 w)) :=
  ((pdats m 1 c).arrAt_in w hin _).trans (Gen.V7_of m (outs m) c _ hne).symm

/-- At the exit each array holds what the pipeline leaves: the inputs what they held, the result the write-backs. -/
theorem hF1 (c : Dev nD) : ∀ w : Fin 7, (pdats m 1 c).arrAt w cfg1.N = Gen.V7 m (outs m) c (Proc.devRef .tc (Pipeline.arrRef spec1 w))
  | ⟨0, _⟩ => hF_in1 m c 0 rfl (by decide)
  | ⟨1, _⟩ => hF_in1 m c 1 rfl (by decide)
  | ⟨2, _⟩ => hF_in1 m c 2 rfl (by decide)
  | ⟨3, _⟩ => hF_in1 m c 3 rfl (by decide)
  | ⟨4, _⟩ => hF_in1 m c 4 rfl (by decide)
  | ⟨5, _⟩ => hF_in1 m c 5 rfl (by decide)
  | ⟨6, _⟩ => ((V7_out m c).trans (outs_7 m c)).symm
  | ⟨_ + 7, h⟩ => absurd h (Nat.not_lt.2 (Nat.le_add_left _ _))

/-- and every other buffer what it held at the entry. -/
theorem hrest1 (c : Dev nD) (b : Ref sig .tc) (hb : b ∉ Finset.univ.image (Pipeline.arrRef spec1)) :
    Gen.V7 m (outs m) c (Proc.devRef .tc b) = Gen.V6 m (outs m) c (Proc.devRef .tc b) :=
  Gen.V7_of m (outs m) c b fun h => hb (Finset.mem_image.mpr ⟨6, Finset.mem_univ _, (List.mem_singleton.mp h).symm⟩)

/-- Region 1 over the thread state. -/
def reg1 : Pipeline.RegionSeg (pcfgs (F := F)) Gen.adm (pdats m) () defs₀ Variants.none L0 lv0 1 :=
  regOf (pdats m) 1 launch1 (fun c => Gen.V6 m (outs m) c) (fun c => Gen.V7 m (outs m) c) (fun c => body_obligation1 (fun c b => Gen.V6 m (outs m) c b) c)
    (fun _ _ => rfl) (fun _ _ => rfl) (fun _ _ => rfl) (fun _ _ => rfl) (noTables 1) (fun _ _ => rfl)
    (hF1 m) (hrest1 m)

/-! ### Region 2 -/

/-- The result array's buffer after region 2 is what the region leaves there. -/
theorem V12_out (c : Dev nD) : Gen.V12 m (outs m) c (Proc.devRef .tc main_v26) = outs m 12 main_v26 c := by
  show Function.update (Gen.V11 m (outs m) c) main_v26 (outs m 12 main_v26 c) (Proc.devRef .tc main_v26) = _
  exact Function.update_self _ _ _

/-- An input window's array is never written, and no item before the next boundary changes it. -/
theorem hF_in2 (c : Dev nD) (w : Fin 3) (hin : (cfg2.win w).isOut = false)
    (hne : Pipeline.arrRef spec2 w ∉ ([main_v26] : List (Ref sig .tc))) :
    (pdats m 2 c).arrAt w cfg2.N = Gen.V12 m (outs m) c (Proc.devRef .tc (Pipeline.arrRef spec2 w)) :=
  ((pdats m 2 c).arrAt_in w hin _).trans (Gen.V12_of m (outs m) c _ hne).symm

/-- At the exit each array holds what the pipeline leaves: the inputs what they held, the result the write-backs. -/
theorem hF2 (c : Dev nD) : ∀ w : Fin 3, (pdats m 2 c).arrAt w cfg2.N = Gen.V12 m (outs m) c (Proc.devRef .tc (Pipeline.arrRef spec2 w))
  | ⟨0, _⟩ => hF_in2 m c 0 rfl (by decide)
  | ⟨1, _⟩ => hF_in2 m c 1 rfl (by decide)
  | ⟨2, _⟩ => ((V12_out m c).trans (outs_12 m c)).symm
  | ⟨_ + 3, h⟩ => absurd h (Nat.not_lt.2 (Nat.le_add_left _ _))

/-- and every other buffer what it held at the entry. -/
theorem hrest2 (c : Dev nD) (b : Ref sig .tc) (hb : b ∉ Finset.univ.image (Pipeline.arrRef spec2)) :
    Gen.V12 m (outs m) c (Proc.devRef .tc b) = Gen.V11 m (outs m) c (Proc.devRef .tc b) :=
  Gen.V12_of m (outs m) c b fun h => hb (Finset.mem_image.mpr ⟨2, Finset.mem_univ _, (List.mem_singleton.mp h).symm⟩)

/-- Region 2 over the thread state. -/
def reg2 : Pipeline.RegionSeg (pcfgs (F := F)) Gen.adm (pdats m) () defs₀ Variants.none L0 lv0 2 :=
  regOf (pdats m) 2 launch2 (fun c => Gen.V11 m (outs m) c) (fun c => Gen.V12 m (outs m) c) (fun c => body_obligation2 (fun c b => Gen.V11 m (outs m) c b) c)
    (fun _ _ => rfl) (fun _ _ => rfl) (fun _ _ => rfl) (fun _ _ => rfl) (noTables 2) (fun _ _ => rfl)
    (hF2 m) (hrest2 m)

/-! ## The launch -/

set_option backward.isDefEq.respectTransparency.types false in
/-- THE RUN of the kernel program: from any memory with zero counters every weakly fair execution terminates, and the
    final memory holds the result buffer at the last valuation — the launch contents carried through the host
    stretches, each region's result array at what its pipeline leaves — and every argument as launched. -/
theorem run_main (ρ : Dev nD → PrngReg) :
    θ_run (defs (F := F)) (onTc (τ := τ) (main (F := F))) ⟨m, fun _ => 0, ρ⟩ (fun r => ∀ c : Dev nD,
      r.2.mem ((c.tc : Thread nD τ).loc main_v27) = Gen.V13 m (outs m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond m emb₁ () Variants.none L0 lv0 (fun _ _ => rfl) ρ (outs m) (pdats m)
    (O₀ := 0) (G := fun _ => (BI.emp : sProp 𝕄))
    (u₀ := initOf (Pipeline.cells cfgs cellOf_inj) (Pipeline.launchToks cfgs cellOf_inj))
    (hu₀ := by
      -- the launch element is the pipelines' own; no further ghost resource is dealt
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hu; imodintro
      isplitl [Hu]; · iapply hown; iexact Hu
      rw [BI.bigSep_emp_const]; iempintro)
    (E := fun _ c => Rst c)
    (hE0 := by
      -- each core keeps its generator register and its dues, at nothing
      refine Pipeline.initEach L0 lv0 fun c => ?_
      iintro ⟨⟨-, HO, -, Hprng, -⟩, -⟩
      imodintro
      isplitl [Hprng]; · iexists _; iexact Hprng
      iexists ∅; iexact HO)
    (hE3 := fun c => by iintro ⟨-, HO⟩; iexact HO)
    (reg0 m) (fun _ => .rfl) (fun _ => .rfl)
    (reg1 m) (fun _ => .rfl) (fun _ => .rfl)
    (reg2 m) (fun _ => .rfl) (fun _ => .rfl)

end Cert.KernelIdeal.Hand

end
-- ==== Proof.Ref.Ops.lean ====
/-
  The reference program's @main as a list of its 116 host operations, the four calls (the rectifier, which itself
  calls the select, and the row norm, once per layer) replaced by their bodies' operations over the calls' buffer
  records. The list is cut into nine stretches, one per stage of the computation: the node table; per layer the
  neighbour sum and the layer itself; the joined table; the two row gathers; the inner product.
-/
import proofs.«415617_j89146341196446_1_alg».proof.ReferenceIdeal
import proofs.«415617_j89146341196446_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- %0: the node table. -/
abbrev ops0 : List (HloOp τ sig (Elt F)) :=
  [ binary main_arg3 main_arg4 main_v0 ((fun a b => concatenate S100000x64 0 [⟨S30000x64, a⟩, ⟨S70000x64, b⟩] concatenates_S30000x64_S70000x64_S100000x64_d0) : (⟨S30000x64, .f32⟩ : BufTy).Contents (Elt F) → (⟨S70000x64, .f32⟩ : BufTy).Contents (Elt F) → (⟨S100000x64, .f32⟩ : BufTy).Contents (Elt F)) ]

/-- %c … %13: the first layer's neighbour sum (the wrapped column index, the row gather, the edge weight broadcast, the product, the scatter-add into zeros). -/
abbrev ops1 : List (HloOp τ sig (Elt F)) :=
  [ nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg2 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v7 main_v9 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg0 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- %14 … %30: the first layer (the two linear maps and their biases, the rectifier's and the norm's operations over their calls' buffers, the floor, the division). -/
abbrev ops2 : List (HloOp τ sig (Elt F)) :=
  [ binary main_v0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg5 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    binary main_v0 main_v13 main_v19 (mulf : (⟨S100000x64, .f32⟩ : BufTy).Contents (Elt F) → (⟨S100000x64, .f32⟩ : BufTy).Contents (Elt F) → (⟨S100000x64, .f32⟩ : BufTy).Contents (Elt F)),
    binary main_v19 main_arg7 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)),
    binary main_v18 main_v23 main_v24 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3C23D70A#32),
    TRef.nullary main_call0.cst (constant S_ .f32 0x00000000#32),
    TRef.unary main_call0.cst main_call0.v0 (broadcastInDim S100000x64 ![] bcast_S_S100000x64),
    TRef.binary (.of main_v24) main_call0.v0 main_call0.v1 (cmpf .oge),
    TRef.unary (.of main_cst_1) main_call0.v2 id,
    TRef.unary main_call0.v2 main_call0.v3 (broadcastInDim S100000x64 ![] bcast_S_S100000x64),
    TRef.binary main_call0.v3 (.of main_v24) main_call0.v4 mulf,
    TRef.ternary main_call0.v1 (.of main_v24) main_call0.v4 main_call0.call0.v0 select,
    TRef.binary (.of main_v25) (.of main_v25) main_call1.v0 mulf,
    TRef.nullary main_call1.cst (constant S_ .f32 0x00000000#32),
    TRef.binary main_call1.v0 main_call1.cst main_call1.v1 (fun x v => Host.reduceAdd x v reducesTo_S100000x64_S100000_d1 h_S_),
    TRef.unary main_call1.v1 main_call1.v2 (broadcastInDim S100000x1 ![0] bcast_S100000_S100000x1_0),
    TRef.unary main_call1.v2 main_call1.v3 Host.sqrt,
    nullary main_cst_2 (constant S_ .f32 0x2B8CBCCC#32),
    unary main_cst_2 main_v27 (broadcastInDim S100000x1 ![] bcast_S_S100000x1 : (⟨S_, .f32⟩ : BufTy).Contents (Elt F) → (⟨S100000x1, .f32⟩ : BufTy).Contents (Elt F)),
    binary main_v26 main_v27 main_v28 (maximumf : (⟨S100000x1, .f32⟩ : BufTy).Contents (Elt F) → (⟨S100000x1, .f32⟩ : BufTy).Contents (Elt F) → (⟨S100000x1, .f32⟩ : BufTy).Contents (Elt F)),
    unary main_v28 main_v29 (broadcastInDim S100000x64 ![0, 1] bcast_S100000x1_S100000x64_0_1 : (⟨S100000x1, .f32⟩ : BufTy).Contents (Elt F) → (⟨S100000x64, .f32⟩ : BufTy).Contents (Elt F)),
    binary main_v25 main_v29 main_v30 (Host.divf : (⟨S100000x64, .f32⟩ : BufTy).Contents (Elt F) → (⟨S100000x64, .f32⟩ : BufTy).Contents (Elt F) → (⟨S100000x64, .f32⟩ : BufTy).Contents (Elt F)) ]

/-- %c_3 … %43: the second layer's neighbour sum. -/
abbrev ops3 : List (HloOp τ sig (Elt F)) :=
  [ nullary main_c_3 (constantI S_ 32 0#32),
    unary main_c_3 main_v31 (broadcastInDim S1600000 ![] bcast_S_S1600000 : (⟨S_, .i32⟩ : BufTy).Contents (Elt F) → (⟨S1600000, .i32⟩ : BufTy).Contents (Elt F)),
    binary main_arg1 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v33 (broadcastInDim S1600000 ![] bcast_S_S1600000 : (⟨S_, .i32⟩ : BufTy).Contents (Elt F) → (⟨S1600000, .i32⟩ : BufTy).Contents (Elt F)),
    binary main_arg1 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_arg1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_v30 main_v36 main_v37 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg2 main_v38 (broadcastInDim S1600000x1 ![0] bcast_S1600000_S1600000x1_0 : (⟨S1600000, .f32⟩ : BufTy).Contents (Elt F) → (⟨S1600000x1, .f32⟩ : BufTy).Contents (Elt F)),
    unary main_v38 main_v39 (broadcastInDim S1600000x64 ![0, 1] bcast_S1600000x1_S1600000x64_0_1 : (⟨S1600000x1, .f32⟩ : BufTy).Contents (Elt F) → (⟨S1600000x64, .f32⟩ : BufTy).Contents (Elt F)),
    binary main_v37 main_v39 main_v40 (mulf : (⟨S1600000x64, .f32⟩ : BufTy).Contents (Elt F) → (⟨S1600000x64, .f32⟩ : BufTy).Contents (Elt F) → (⟨S1600000x64, .f32⟩ : BufTy).Contents (Elt F)),
    nullary main_cst_5 (constant S_ .f32 0x00000000#32),
    unary main_cst_5 main_v41 (broadcastInDim S100000x64 ![] bcast_S_S100000x64 : (⟨S_, .f32⟩ : BufTy).Contents (Elt F) → (⟨S100000x64, .f32⟩ : BufTy).Contents (Elt F)),
    unary main_arg0 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- %44 … %60: the second layer. -/
abbrev ops4 : List (HloOp τ sig (Elt F)) :=
  [ binary main_v30 main_v43 main_v44 (addf : (⟨S100000x64, .f32⟩ : BufTy).Contents (Elt F) → (⟨S100000x64, .f32⟩ : BufTy).Contents (Elt F) → (⟨S100000x64, .f32⟩ : BufTy).Contents (Elt F)),
    binary main_v44 main_arg9 main_v45 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg10 main_v46 (broadcastInDim S1x32 ![1] bcast_S32_S1x32_1 : (⟨S32, .f32⟩ : BufTy).Contents (Elt F) → (⟨S1x32, .f32⟩ : BufTy).Contents (Elt F)),
    unary main_v46 main_v47 (broadcastInDim S100000x32 ![0, 1] bcast_S1x32_S100000x32_0_1 : (⟨S1x32, .f32⟩ : BufTy).Contents (Elt F) → (⟨S100000x32, .f32⟩ : BufTy).Contents (Elt F)),
    binary main_v45 main_v47 main_v48 (addf : (⟨S100000x32, .f32⟩ : BufTy).Contents (Elt F) → (⟨S100000x32, .f32⟩ : BufTy).Contents (Elt F) → (⟨S100000x32, .f32⟩ : BufTy).Contents (Elt F)),
    binary main_v30 main_v43 main_v49 (mulf : (⟨S100000x64, .f32⟩ : BufTy).Contents (Elt F) → (⟨S100000x64, .f32⟩ : BufTy).Contents (Elt F) → (⟨S100000x64, .f32⟩ : BufTy).Contents (Elt F)),
    binary main_v49 main_arg11 main_v50 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg12 main_v51 (broadcastInDim S1x32 ![1] bcast_S32_S1x32_1 : (⟨S32, .f32⟩ : BufTy).Contents (Elt F) → (⟨S1x32, .f32⟩ : BufTy).Contents (Elt F)),
    unary main_v51 main_v52 (broadcastInDim S100000x32 ![0, 1] bcast_S1x32_S100000x32_0_1 : (⟨S1x32, .f32⟩ : BufTy).Contents (Elt F) → (⟨S100000x32, .f32⟩ : BufTy).Contents (Elt F)),
    binary main_v50 main_v52 main_v53 (addf : (⟨S100000x32, .f32⟩ : BufTy).Contents (Elt F) → (⟨S100000x32, .f32⟩ : BufTy).Contents (Elt F) → (⟨S100000x32, .f32⟩ : BufTy).Contents (Elt F)),
    binary main_v48 main_v53 main_v54 (addf : (⟨S100000x32, .f32⟩ : BufTy).Contents (Elt F) → (⟨S100000x32, .f32⟩ : BufTy).Contents (Elt F) → (⟨S100000x32, .f32⟩ : BufTy).Contents (Elt F)),
    nullary main_cst_6 (constant S_ .f32 0x3C23D70A#32),
    TRef.nullary main_call2.cst (constant S_ .f32 0x00000000#32),
    TRef.unary main_call2.cst main_call2.v0 (broadcastInDim S100000x32 ![] bcast_S_S100000x32),
    TRef.binary (.of main_v54) main_call2.v0 main_call2.v1 (cmpf .oge),
    TRef.unary (.of main_cst_6) main_call2.v2 id,
    TRef.unary main_call2.v2 main_call2.v3 (broadcastInDim S100000x32 ![] bcast_S_S100000x32),
    TRef.binary main_call2.v3 (.of main_v54) main_call2.v4 mulf,
    TRef.ternary main_call2.v1 (.of main_v54) main_call2.v4 main_call2.call0.v0 select,
    TRef.binary (.of main_v55) (.of main_v55) main_call3.v0 mulf,
    TRef.nullary main_call3.cst (constant S_ .f32 0x00000000#32),
    TRef.binary main_call3.v0 main_call3.cst main_call3.v1 (fun x v => Host.reduceAdd x v reducesTo_S100000x32_S100000_d1 h_S_),
    TRef.unary main_call3.v1 main_call3.v2 (broadcastInDim S100000x1 ![0] bcast_S100000_S100000x1_0),
    TRef.unary main_call3.v2 main_call3.v3 Host.sqrt,
    nullary main_cst_7 (constant S_ .f32 0x2B8CBCCC#32),
    unary main_cst_7 main_v57 (broadcastInDim S100000x1 ![] bcast_S_S100000x1 : (⟨S_, .f32⟩ : BufTy).Contents (Elt F) → (⟨S100000x1, .f32⟩ : BufTy).Contents (Elt F)),
    binary main_v56 main_v57 main_v58 (maximumf : (⟨S100000x1, .f32⟩ : BufTy).Contents (Elt F) → (⟨S100000x1, .f32⟩ : BufTy).Contents (Elt F) → (⟨S100000x1, .f32⟩ : BufTy).Contents (Elt F)),
    unary main_v58 main_v59 (broadcastInDim S100000x32 ![0, 1] bcast_S100000x1_S100000x32_0_1 : (⟨S100000x1, .f32⟩ : BufTy).Contents (Elt F) → (⟨S100000x32, .f32⟩ : BufTy).Contents (Elt F)),
    binary main_v55 main_v59 main_v60 (Host.divf : (⟨S100000x32, .f32⟩ : BufTy).Contents (Elt F) → (⟨S100000x32, .f32⟩ : BufTy).Contents (Elt F) → (⟨S100000x32, .f32⟩ : BufTy).Contents (Elt F)) ]

/-- %61: the three tables joined along the columns. -/
abbrev ops5 : List (HloOp τ sig (Elt F)) :=
  [ nary ![main_v0, main_v30, main_v60] main_v61 (fun u => concatenate S100000x160 1 [⟨S100000x64, u 0⟩, ⟨S100000x64, u 1⟩, ⟨S100000x32, u 2⟩] concatenates_S100000x64_S100000x64_S100000x32_S100000x160_d1) ]

/-- %c_8 … %68: the user rows (the wrapped index, the row gather). -/
abbrev ops6 : List (HloOp τ sig (Elt F)) :=
  [ nullary main_c_8 (constantI S_ 32 0#32),
    unary main_c_8 main_v62 (broadcastInDim S4096 ![] bcast_S_S4096 : (⟨S_, .i32⟩ : BufTy).Contents (Elt F) → (⟨S4096, .i32⟩ : BufTy).Contents (Elt F)),
    binary main_arg13 main_v62 main_v63 (cmpi .slt : (⟨S4096, .i32⟩ : BufTy).Contents (Elt F) → (⟨S4096, .i32⟩ : BufTy).Contents (Elt F) → (⟨S4096, .i1⟩ : BufTy).Contents (Elt F)),
    nullary main_c_9 (constantI S_ 32 100000#32),
    unary main_c_9 main_v64 (broadcastInDim S4096 ![] bcast_S_S4096 : (⟨S_, .i32⟩ : BufTy).Contents (Elt F) → (⟨S4096, .i32⟩ : BufTy).Contents (Elt F)),
    binary main_arg13 main_v64 main_v65 (addi : (⟨S4096, .i32⟩ : BufTy).Contents (Elt F) → (⟨S4096, .i32⟩ : BufTy).Contents (Elt F) → (⟨S4096, .i32⟩ : BufTy).Contents (Elt F)),
    ternary main_v63 main_v65 main_arg13 main_v66 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v66 main_v67 (broadcastInDim S4096x1 ![0] bcast_S4096_S4096x1_0 : (⟨S4096, .i32⟩ : BufTy).Contents (Elt F) → (⟨S4096x1, .i32⟩ : BufTy).Contents (Elt F)),
    binary main_v61 main_v67 main_v68 ((fun x i => Host.gather gather_S100000x160_S4096x1_S4096x160_1_0_n_n_0_1_1160 x i) : (⟨S100000x160, .f32⟩ : BufTy).Contents (Elt F) → (⟨S4096x1, .i32⟩ : BufTy).Contents (Elt F) → (⟨S4096x160, .f32⟩ : BufTy).Contents (Elt F)) ]

/-- %c_10 … %77: the item rows (the index moved past the user rows, wrapped, the row gather). -/
abbrev ops7 : List (HloOp τ sig (Elt F)) :=
  [ nullary main_c_10 (constantI S_ 32 30000#32),
    unary main_c_10 main_v69 (broadcastInDim S4096 ![] bcast_S_S4096 : (⟨S_, .i32⟩ : BufTy).Contents (Elt F) → (⟨S4096, .i32⟩ : BufTy).Contents (Elt F)),
    binary main_v69 main_arg14 main_v70 (addi : (⟨S4096, .i32⟩ : BufTy).Contents (Elt F) → (⟨S4096, .i32⟩ : BufTy).Contents (Elt F) → (⟨S4096, .i32⟩ : BufTy).Contents (Elt F)),
    nullary main_c_11 (constantI S_ 32 0#32),
    unary main_c_11 main_v71 (broadcastInDim S4096 ![] bcast_S_S4096 : (⟨S_, .i32⟩ : BufTy).Contents (Elt F) → (⟨S4096, .i32⟩ : BufTy).Contents (Elt F)),
    binary main_v70 main_v71 main_v72 (cmpi .slt : (⟨S4096, .i32⟩ : BufTy).Contents (Elt F) → (⟨S4096, .i32⟩ : BufTy).Contents (Elt F) → (⟨S4096, .i1⟩ : BufTy).Contents (Elt F)),
    nullary main_c_12 (constantI S_ 32 100000#32),
    unary main_c_12 main_v73 (broadcastInDim S4096 ![] bcast_S_S4096 : (⟨S_, .i32⟩ : BufTy).Contents (Elt F) → (⟨S4096, .i32⟩ : BufTy).Contents (Elt F)),
    binary main_v70 main_v73 main_v74 (addi : (⟨S4096, .i32⟩ : BufTy).Contents (Elt F) → (⟨S4096, .i32⟩ : BufTy).Contents (Elt F) → (⟨S4096, .i32⟩ : BufTy).Contents (Elt F)),
    ternary main_v72 main_v74 main_v70 main_v75 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v75 main_v76 (broadcastInDim S4096x1 ![0] bcast_S4096_S4096x1_0 : (⟨S4096, .i32⟩ : BufTy).Contents (Elt F) → (⟨S4096x1, .i32⟩ : BufTy).Contents (Elt F)),
    binary main_v61 main_v76 main_v77 ((fun x i => Host.gather gather_S100000x160_S4096x1_S4096x160_1_0_n_n_0_1_1160 x i) : (⟨S100000x160, .f32⟩ : BufTy).Contents (Elt F) → (⟨S4096x1, .i32⟩ : BufTy).Contents (Elt F) → (⟨S4096x160, .f32⟩ : BufTy).Contents (Elt F)) ]

/-- %78, %cst_13, %79: the row-wise inner product. -/
abbrev ops8 : List (HloOp τ sig (Elt F)) :=
  [ binary main_v68 main_v77 main_v78 (mulf : (⟨S4096x160, .f32⟩ : BufTy).Contents (Elt F) → (⟨S4096x160, .f32⟩ : BufTy).Contents (Elt F) → (⟨S4096x160, .f32⟩ : BufTy).Contents (Elt F)),
    nullary main_cst_13 (constant S_ .f32 0x00000000#32),
    binary main_v78 main_cst_13 main_v79 ((fun x v => Host.reduceAdd x v reducesTo_S4096x160_S4096_d1 h_S_) : (⟨S4096x160, .f32⟩ : BufTy).Contents (Elt F) → (⟨S_, .f32⟩ : BufTy).Contents (Elt F) → (⟨S4096, .f32⟩ : BufTy).Contents (Elt F)) ]

/-- @main's operations, in order. -/
abbrev ops : List (HloOp τ sig (Elt F)) :=
  ops0 ++ (ops1 ++ (ops2 ++ (ops3 ++ (ops4 ++ (ops5 ++ (ops6 ++ (ops7 ++ ops8)))))))

-- a hundred and sixteen binds re-associated: the rewrite under the chain recurses once per statement
set_option maxRecDepth 4096 in
set_option maxHeartbeats 4000000 in
/-- @main is that straight line: the two windows and the functions' definitions unfolded at their calls, both sides
    are one chain of steps once sequencing is re-associated. -/
theorem main_eq (c : Dev nD) : main (F := F) c = seq ops := by
  simp only [main, main_part0, main_part1, fn_leaky_relu.body, fn_where.body, fn_norm.body, fn_leaky_relu_0.body,
    fn_where_1.body, fn_norm_2.body, ops, ops0, ops1, ops2, ops3, ops4, ops5, ops6, ops7, ops8, List.cons_append,
    List.nil_append, seq, bind_assoc, pure_bind]

/-! ## Lists in a row -/

/-- The contents after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A property of every element of two lists holds of every element of the two in a row. -/
theorem forall_app {α : Type} {p : α → Prop} {l₁ l₂ : List α} (h₁ : l₁.Forall p) (h₂ : l₂.Forall p) : (l₁ ++ l₂).Forall p :=
  List.forall_iff_forall_mem.2 fun a ha =>
    (List.mem_append.1 ha).elim (List.forall_iff_forall_mem.1 h₁ a) (List.forall_iff_forall_mem.1 h₂ a)

/-- A single buffer among a list of references, as sets of device buffers. -/
theorem single_sub_of_mem {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-- Two lines that write inside two lists of references, in a row, write inside the two lists in a row. -/
theorem writes_app {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  forall_app
    (List.forall_iff_forall_mem.2 fun op hop => (List.forall_iff_forall_mem.1 h₁ op hop).trans fun b hb =>
      List.mem_toFinset.2 (by rw [List.map_append]; exact List.mem_append_left _ (List.mem_toFinset.1 hb)))
    (List.forall_iff_forall_mem.2 fun op hop => (List.forall_iff_forall_mem.1 h₂ op hop).trans fun b hb =>
      List.mem_toFinset.2 (by rw [List.map_append]; exact List.mem_append_right _ (List.mem_toFinset.1 hb)))

/-! ## What each stretch touches and writes -/

/-- The buffers stretch `ops0` writes, one per operation, in order. -/
abbrev ops0_W : List (Ref sig .tc) :=
  [main_v0]
theorem ops0_sub : (ops0 : List (HloOp τ sig (Elt F))).Forall fun op => op.bufs ⊆ tcRefs τ sig :=
  binary_bufs_sub ..
theorem ops0_fresh : (ops0 : List (HloOp τ sig (Elt F))).Forall fun op => op.fresh = ∅ :=
  rfl
theorem ops0_writes : (ops0 : List (HloOp τ sig (Elt F))).Forall fun op => op.writes ⊆ (ops0_W.map (Proc.devRef (τ := τ) .tc)).toFinset :=
  single_sub_of_mem (by decide)
/-- A buffer stretch `ops0` does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

/-- The buffers stretch `ops1` writes, one per operation, in order. -/
abbrev ops1_W : List (Ref sig .tc) :=
  [main_c, main_v1, main_v2, main_c_0, main_v3, main_v4, main_v5, main_v6, main_v7, main_v8, main_v9, main_v10,
   main_cst, main_v11, main_v12, main_v13]
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl⟩
theorem ops1_writes : (ops1 : List (HloOp τ sig (Elt F))).Forall fun op => op.writes ⊆ (ops1_W.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A buffer stretch `ops1` does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

/-- The buffers stretch `ops2` writes, one per operation, in order. -/
abbrev ops2_W : List (Ref sig .tc) :=
  [main_v14, main_v15, main_v16, main_v17, main_v18, main_v19, main_v20, main_v21, main_v22, main_v23, main_v24, main_cst_1,
   main_call0_cst, main_call0_v0, main_call0_v1, main_call0_v2, main_call0_v3, main_call0_v4, main_v25, main_call1_v0, main_call1_cst, main_call1_v1, main_call1_v2, main_v26,
   main_cst_2, main_v27, main_v28, main_v29, main_v30]
theorem ops2_sub : (ops2 : List (HloOp τ sig (Elt F))).Forall fun op => op.bufs ⊆ tcRefs τ sig :=
  ⟨binary_bufs_sub .., binary_bufs_sub .., unary_bufs_sub .., unary_bufs_sub .., binary_bufs_sub .., binary_bufs_sub ..,
    binary_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_writes : (ops2 : List (HloOp τ sig (Elt F))).Forall fun op => op.writes ⊆ (ops2_W.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide)⟩
/-- A buffer stretch `ops2` does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

/-- The buffers stretch `ops3` writes, one per operation, in order. -/
abbrev ops3_W : List (Ref sig .tc) :=
  [main_c_3, main_v31, main_v32, main_c_4, main_v33, main_v34, main_v35, main_v36, main_v37, main_v38, main_v39, main_v40,
   main_cst_5, main_v41, main_v42, main_v43]
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl⟩
theorem ops3_writes : (ops3 : List (HloOp τ sig (Elt F))).Forall fun op => op.writes ⊆ (ops3_W.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A buffer stretch `ops3` does not write keeps its contents through it. -/
theorem ops3_keep (V : Valuation τ sig (Elt F)) (r : Ref sig .tc) (h : r ∉ ops3_W) :
    after ops3 V (Proc.devRef .tc r) = V (Proc.devRef .tc r) :=
  after_of_writes_sub ops3 V ops3_writes h

/-- The buffers stretch `ops4` writes, one per operation, in order. -/
abbrev ops4_W : List (Ref sig .tc) :=
  [main_v44, main_v45, main_v46, main_v47, main_v48, main_v49, main_v50, main_v51, main_v52, main_v53, main_v54, main_cst_6,
   main_call2_cst, main_call2_v0, main_call2_v1, main_call2_v2, main_call2_v3, main_call2_v4, main_v55, main_call3_v0, main_call3_cst, main_call3_v1, main_call3_v2, main_v56,
   main_cst_7, main_v57, main_v58, main_v59, main_v60]
theorem ops4_sub : (ops4 : List (HloOp τ sig (Elt F))).Forall fun op => op.bufs ⊆ tcRefs τ sig :=
  ⟨binary_bufs_sub .., binary_bufs_sub .., unary_bufs_sub .., unary_bufs_sub .., binary_bufs_sub .., binary_bufs_sub ..,
    binary_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..⟩
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem ops4_writes : (ops4 : List (HloOp τ sig (Elt F))).Forall fun op => op.writes ⊆ (ops4_W.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide)⟩
/-- A buffer stretch `ops4` does not write keeps its contents through it. -/
theorem ops4_keep (V : Valuation τ sig (Elt F)) (r : Ref sig .tc) (h : r ∉ ops4_W) :
    after ops4 V (Proc.devRef .tc r) = V (Proc.devRef .tc r) :=
  after_of_writes_sub ops4 V ops4_writes h

/-- The buffers stretch `ops5` writes, one per operation, in order. -/
abbrev ops5_W : List (Ref sig .tc) :=
  [main_v61]
theorem ops5_sub : (ops5 : List (HloOp τ sig (Elt F))).Forall fun op => op.bufs ⊆ tcRefs τ sig :=
  nary_bufs_sub ..
theorem ops5_fresh : (ops5 : List (HloOp τ sig (Elt F))).Forall fun op => op.fresh = ∅ :=
  rfl
theorem ops5_writes : (ops5 : List (HloOp τ sig (Elt F))).Forall fun op => op.writes ⊆ (ops5_W.map (Proc.devRef (τ := τ) .tc)).toFinset :=
  single_sub_of_mem (by decide)
/-- A buffer stretch `ops5` does not write keeps its contents through it. -/
theorem ops5_keep (V : Valuation τ sig (Elt F)) (r : Ref sig .tc) (h : r ∉ ops5_W) :
    after ops5 V (Proc.devRef .tc r) = V (Proc.devRef .tc r) :=
  after_of_writes_sub ops5 V ops5_writes h

/-- The buffers stretch `ops6` writes, one per operation, in order. -/
abbrev ops6_W : List (Ref sig .tc) :=
  [main_c_8, main_v62, main_v63, main_c_9, main_v64, main_v65, main_v66, main_v67, main_v68]
theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩
theorem ops6_fresh : (ops6 : List (HloOp τ sig (Elt F))).Forall fun op => op.fresh = ∅ :=
  ⟨rfl, rfl, rfl, rfl, rfl, rfl, rfl, rfl, rfl⟩
theorem ops6_writes : (ops6 : List (HloOp τ sig (Elt F))).Forall fun op => op.writes ⊆ (ops6_W.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide)⟩
/-- A buffer stretch `ops6` does not write keeps its contents through it. -/
theorem ops6_keep (V : Valuation τ sig (Elt F)) (r : Ref sig .tc) (h : r ∉ ops6_W) :
    after ops6 V (Proc.devRef .tc r) = V (Proc.devRef .tc r) :=
  after_of_writes_sub ops6 V ops6_writes h

/-- The buffers stretch `ops7` writes, one per operation, in order. -/
abbrev ops7_W : List (Ref sig .tc) :=
  [main_c_10, main_v69, main_v70, main_c_11, main_v71, main_v72, main_c_12, main_v73, main_v74, main_v75, main_v76, main_v77]
theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩
theorem ops7_fresh : (ops7 : List (HloOp τ sig (Elt F))).Forall fun op => op.fresh = ∅ :=
  ⟨rfl, rfl, rfl, rfl, rfl, rfl, rfl, rfl, rfl, rfl, rfl, rfl⟩
theorem ops7_writes : (ops7 : List (HloOp τ sig (Elt F))).Forall fun op => op.writes ⊆ (ops7_W.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide)⟩
/-- A buffer stretch `ops7` does not write keeps its contents through it. -/
theorem ops7_keep (V : Valuation τ sig (Elt F)) (r : Ref sig .tc) (h : r ∉ ops7_W) :
    after ops7 V (Proc.devRef .tc r) = V (Proc.devRef .tc r) :=
  after_of_writes_sub ops7 V ops7_writes h

/-- The buffers stretch `ops8` writes, one per operation, in order. -/
abbrev ops8_W : List (Ref sig .tc) :=
  [main_v78, main_cst_13, main_v79]
theorem ops8_sub : (ops8 : List (HloOp τ sig (Elt F))).Forall fun op => op.bufs ⊆ tcRefs τ sig :=
  ⟨binary_bufs_sub .., nullary_bufs_sub .., binary_bufs_sub ..⟩
theorem ops8_fresh : (ops8 : List (HloOp τ sig (Elt F))).Forall fun op => op.fresh = ∅ :=
  ⟨rfl, rfl, rfl⟩
theorem ops8_writes : (ops8 : List (HloOp τ sig (Elt F))).Forall fun op => op.writes ⊆ (ops8_W.map (Proc.devRef (τ := τ) .tc)).toFinset :=
  ⟨single_sub_of_mem (by decide), single_sub_of_mem (by decide), single_sub_of_mem (by decide)⟩
/-- A buffer stretch `ops8` does not write keeps its contents through it. -/
theorem ops8_keep (V : Valuation τ sig (Elt F)) (r : Ref sig .tc) (h : r ∉ ops8_W) :
    after ops8 V (Proc.devRef .tc r) = V (Proc.devRef .tc r) :=
  after_of_writes_sub ops8 V ops8_writes h

/-! ## The whole line -/

/-- Every buffer @main writes: the stretches' lists in a row. -/
abbrev ops_W : List (Ref sig .tc) :=
  ops0_W ++ (ops1_W ++ (ops2_W ++ (ops3_W ++ (ops4_W ++ (ops5_W ++ (ops6_W ++ (ops7_W ++ ops8_W)))))))

theorem ops_sub : (ops : List (HloOp τ sig (Elt F))).Forall fun op => op.bufs ⊆ tcRefs τ sig :=
  forall_app ops0_sub (forall_app ops1_sub (forall_app ops2_sub (forall_app ops3_sub (forall_app ops4_sub
    (forall_app ops5_sub (forall_app ops6_sub (forall_app ops7_sub ops8_sub)))))))

theorem ops_fresh : ∀ op ∈ (ops : List (HloOp τ sig (Elt F))), op.fresh = ∅ :=
  List.forall_iff_forall_mem.1
    (forall_app ops0_fresh (forall_app ops1_fresh (forall_app ops2_fresh (forall_app ops3_fresh (forall_app ops4_fresh
      (forall_app ops5_fresh (forall_app ops6_fresh (forall_app ops7_fresh ops8_fresh))))))))

theorem ops_writes : (ops : List (HloOp τ sig (Elt F))).Forall fun op => op.writes ⊆ (ops_W.map (Proc.devRef (τ := τ) .tc)).toFinset :=
  writes_app ops0_writes (writes_app ops1_writes (writes_app ops2_writes (writes_app ops3_writes (writes_app ops4_writes
    (writes_app ops5_writes (writes_app ops6_writes (writes_app ops7_writes ops8_writes)))))))

/-- A buffer @main does not write — an argument — keeps its contents through the whole line. -/
theorem ops_keep (V : Valuation τ sig (Elt F)) (r : Ref sig .tc) (h : r ∉ ops_W) :
    after ops V (Proc.devRef .tc r) = V (Proc.devRef .tc r) :=
  after_of_writes_sub ops V ops_writes h

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.Ref.Stages.lean ====
/-
  The reference computation as named stages, each the composition of the reference program's own host operations:
  the node table `cat0`, the weighted neighbour sum `msg` (a row gather at the wrapped edge index, scaled by the edge
  weight, summed into the destination rows), a graph layer `layer64` / `layer32` (two linear maps of the sum and the
  product of a node's features with its neighbour sum, a leaky rectifier, division of each row by its Euclidean norm
  floored at 1e-12), the joined table `cat3`, the scored rows `rows` and the row-wise inner product `score`.
-/
import proofs.«415617_j89146341196446_1_alg».proof.ReferenceIdeal

noncomputable section

namespace Cert.ReferenceIdeal.Hand

open Cert.ReferenceIdeal
open Idealize.ShloMosaic Idealize.SL.Sem

variable {F : FTy → Type} [FloatOps F] [Facts]
open Facts₀ Facts

/-- The node table: the user rows on top of the entity rows. -/
def cat0 (u : FVec F S30000x64 .f32) (e : FVec F S70000x64 .f32) : FVec F S100000x64 .f32 :=
  concatenate S100000x64 0 [⟨S30000x64, u⟩, ⟨S70000x64, e⟩] concatenates_S30000x64_S70000x64_S100000x64_d0

/-- An edge index with a negative value wrapped once by the table's height. -/
def nidxE (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

/-- The weighted neighbour sum: row `col e` of `feats` times `vals e`, added into row `row e`, over all edges. -/
def msg (feats : FVec F S100000x64 .f32) (row col : IVec S1600000 32) (vals : FVec F S1600000 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (Host.gather gather_S100000x64_S1600000x1_S1600000x64_1_0_n_n_0_1_164 feats
            (broadcastInDim S1600000x1 ![0] bcast_S1600000_S1600000x1_0 (nidxE col)))
      (broadcastInDim S1600000x64 ![0, 1] bcast_S1600000x1_S1600000x64_0_1
        (broadcastInDim S1600000x1 ![0] bcast_S1600000_S1600000x1_0 vals)))

/-- The rectified pre-activation of the 64-wide layer. -/
def act64 (feats hn : FVec F S100000x64 .f32) (W1 : FVec F S64x64 .f32) (b1 : FVec F S64 .f32) (W2 : FVec F S64x64 .f32)
    (b2 : FVec F S64 .f32) : FVec F S100000x64 .f32 :=
  let pre : FVec F S100000x64 .f32 :=
    addf (addf (Host.dotGeneral dot_S100000x64_S64x64_S100000x64_1_0_0_1_n_n none (addf feats hn) W1)
            (broadcastInDim S100000x64 ![0, 1] bcast_S1x64_S100000x64_0_1 (broadcastInDim S1x64 ![1] bcast_S64_S1x64_1 b1)))
         (addf (Host.dotGeneral dot_S100000x64_S64x64_S100000x64_1_0_0_1_n_n none (mulf feats hn) W2)
            (broadcastInDim S100000x64 ![0, 1] bcast_S1x64_S100000x64_0_1 (broadcastInDim S1x64 ![1] bcast_S64_S1x64_1 b2)))
  select (cmpf .oge pre (broadcastInDim S100000x64 ![] bcast_S_S100000x64 (constant S_ .f32 0x00000000#32))) pre
    (mulf (broadcastInDim S100000x64 ![] bcast_S_S100000x64 (id (constant S_ .f32 0x3C23D70A#32))) pre)

/-- The 64-wide graph layer: the rectified pre-activation, each row divided by its norm floored at 1e-12. -/
def layer64 (feats hn : FVec F S100000x64 .f32) (W1 : FVec F S64x64 .f32) (b1 : FVec F S64 .f32) (W2 : FVec F S64x64 .f32)
    (b2 : FVec F S64 .f32) : FVec F S100000x64 .f32 :=
  let h : FVec F S100000x64 .f32 := act64 feats hn W1 b1 W2 b2
  Host.divf h (broadcastInDim S100000x64 ![0, 1] bcast_S100000x1_S100000x64_0_1
    (maximumf (Host.sqrt (broadcastInDim S100000x1 ![0] bcast_S100000_S100000x1_0
        (Host.reduceAdd (mulf h h) (constant S_ .f32 0x00000000#32) reducesTo_S100000x64_S100000_d1 h_S_)))
      (broadcastInDim S100000x1 ![] bcast_S_S100000x1 (constant S_ .f32 0x2B8CBCCC#32))))

/-- The rectified pre-activation of the 32-wide layer. -/
def act32 (feats hn : FVec F S100000x64 .f32) (W1 : FVec F S64x32 .f32) (b1 : FVec F S32 .f32) (W2 : FVec F S64x32 .f32)
    (b2 : FVec F S32 .f32) : FVec F S100000x32 .f32 :=
  let pre : FVec F S100000x32 .f32 :=
    addf (addf (Host.dotGeneral dot_S100000x64_S64x32_S100000x32_1_0_0_1_n_n none (addf feats hn) W1)
            (broadcastInDim S100000x32 ![0, 1] bcast_S1x32_S100000x32_0_1 (broadcastInDim S1x32 ![1] bcast_S32_S1x32_1 b1)))
         (addf (Host.dotGeneral dot_S100000x64_S64x32_S100000x32_1_0_0_1_n_n none (mulf feats hn) W2)
            (broadcastInDim S100000x32 ![0, 1] bcast_S1x32_S100000x32_0_1 (broadcastInDim S1x32 ![1] bcast_S32_S1x32_1 b2)))
  select (cmpf .oge pre (broadcastInDim S100000x32 ![] bcast_S_S100000x32 (constant S_ .f32 0x00000000#32))) pre
    (mulf (broadcastInDim S100000x32 ![] bcast_S_S100000x32 (id (constant S_ .f32 0x3C23D70A#32))) pre)

/-- The 32-wide graph layer. -/
def layer32 (feats hn : FVec F S100000x64 .f32) (W1 : FVec F S64x32 .f32) (b1 : FVec F S32 .f32) (W2 : FVec F S64x32 .f32)
    (b2 : FVec F S32 .f32) : FVec F S100000x32 .f32 :=
  let h : FVec F S100000x32 .f32 := act32 feats hn W1 b1 W2 b2
  Host.divf h (broadcastInDim S100000x32 ![0, 1] bcast_S100000x1_S100000x32_0_1
    (maximumf (Host.sqrt (broadcastInDim S100000x1 ![0] bcast_S100000_S100000x1_0
        (Host.reduceAdd (mulf h h) (constant S_ .f32 0x00000000#32) reducesTo_S100000x32_S100000_d1 h_S_)))
      (broadcastInDim S100000x1 ![] bcast_S_S100000x1 (constant S_ .f32 0x2B8CBCCC#32))))

/-- The three tables side by side: 64 + 64 + 32 columns. -/
def cat3 (a0 a1 : FVec F S100000x64 .f32) (a2 : FVec F S100000x32 .f32) : FVec F S100000x160 .f32 :=
  concatenate S100000x160 1 [⟨S100000x64, a0⟩, ⟨S100000x64, a1⟩, ⟨S100000x32, a2⟩] concatenates_S100000x64_S100000x64_S100000x32_S100000x160_d1

/-- A scored index with a negative value wrapped once by the table's height. -/
def nidxB (i : IVec S4096 32) : IVec S4096 32 :=
  select (cmpi .slt i (broadcastInDim S4096 ![] bcast_S_S4096 (constantI S_ 32 0#32)))
    (addi i (broadcastInDim S4096 ![] bcast_S_S4096 (constantI S_ 32 100000#32))) i

/-- The rows of the joined table at the scored indices. -/
def rows (fin : FVec F S100000x160 .f32) (i : IVec S4096 32) : FVec F S4096x160 .f32 :=
  Host.gather gather_S100000x160_S4096x1_S4096x160_1_0_n_n_0_1_1160 fin (broadcastInDim S4096x1 ![0] bcast_S4096_S4096x1_0 (nidxB i))

/-- The item index moved past the user rows. -/
def itemIdx (j : IVec S4096 32) : IVec S4096 32 :=
  addi (broadcastInDim S4096 ![] bcast_S_S4096 (constantI S_ 32 30000#32)) j

/-- The row-wise inner product. -/
def score (u i : FVec F S4096x160 .f32) : FVec F S4096 .f32 :=
  Host.reduceAdd (mulf u i) (constant S_ .f32 0x00000000#32) reducesTo_S4096x160_S4096_d1 h_S_

/-- The reference's result as a function of its fifteen argument arrays. -/
def result (x0 x1 : IVec S1600000 32) (x2 : FVec F S1600000 .f32) (x3 : FVec F S30000x64 .f32) (x4 : FVec F S70000x64 .f32)
    (x5 : FVec F S64x64 .f32) (x6 : FVec F S64 .f32) (x7 : FVec F S64x64 .f32) (x8 : FVec F S64 .f32) (x9 : FVec F S64x32 .f32)
    (x10 : FVec F S32 .f32) (x11 : FVec F S64x32 .f32) (x12 : FVec F S32 .f32) (x13 x14 : IVec S4096 32) : FVec F S4096 .f32 :=
  let a0 := cat0 x3 x4
  let a1 := layer64 a0 (msg a0 x0 x1 x2) x5 x6 x7 x8
  let a2 := layer32 a1 (msg a1 x0 x1 x2) x9 x10 x11 x12
  let fin := cat3 a0 a1 a2
  score (rows fin x13) (rows fin (itemIdx x14))

end Cert.ReferenceIdeal.Hand

end
-- ==== Proof.Ref.Run.lean ====
/-
  The reference program's run. Each stretch of its operations leaves its result buffer at the corresponding stage of
  the computation applied to the contents of the buffers the stretch reads, and every buffer it does not write as it
  was; chained through the nine stretches, the last result buffer ends at the whole computation of the fifteen
  argument arrays, and the arguments end unchanged.
-/
import proofs.«415617_j89146341196446_1_alg».proof.Proof.Ref.Ops
import proofs.«415617_j89146341196446_1_alg».proof.Proof.Ref.Stages

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-! ## Each stretch's result -/

/-- The node table from the two embedding arrays. -/
theorem after_ops0 (V : Valuation τ sig (Elt F)) :
    after ops0 V (Proc.devRef .tc main_v0)
      = cat0 (V (Proc.devRef .tc main_arg3)) (V (Proc.devRef .tc main_arg4)) := by
  simp only [ops0]
  after_results_simp
  rfl

/-- The first neighbour sum from the node table and the edge arrays. -/
theorem after_ops1 (V : Valuation τ sig (Elt F)) :
    after ops1 V (Proc.devRef .tc main_v13)
      = msg (V (Proc.devRef .tc main_v0)) (V (Proc.devRef .tc main_arg0)) (V (Proc.devRef .tc main_arg1)) (V (Proc.devRef .tc main_arg2)) := by
  simp only [ops1]
  after_results_simp
  rfl

/-- The first layer from the node table, its neighbour sum and the layer's weights. -/
theorem after_ops2 (V : Valuation τ sig (Elt F)) :
    after ops2 V (Proc.devRef .tc main_v30)
      = layer64 (V (Proc.devRef .tc main_v0)) (V (Proc.devRef .tc main_v13)) (V (Proc.devRef .tc main_arg5)) (V (Proc.devRef .tc main_arg6)) (V (Proc.devRef .tc main_arg7)) (V (Proc.devRef .tc main_arg8)) := by
  simp only [ops2]
  after_results_simp
  rfl

/-- The second neighbour sum from the first layer's output and the edge arrays. -/
theorem after_ops3 (V : Valuation τ sig (Elt F)) :
    after ops3 V (Proc.devRef .tc main_v43)
      = msg (V (Proc.devRef .tc main_v30)) (V (Proc.devRef .tc main_arg0)) (V (Proc.devRef .tc main_arg1)) (V (Proc.devRef .tc main_arg2)) := by
  simp only [ops3]
  after_results_simp
  rfl

/-- The second layer. -/
theorem after_ops4 (V : Valuation τ sig (Elt F)) :
    after ops4 V (Proc.devRef .tc main_v60)
      = layer32 (V (Proc.devRef .tc main_v30)) (V (Proc.devRef .tc main_v43)) (V (Proc.devRef .tc main_arg9)) (V (Proc.devRef .tc main_arg10)) (V (Proc.devRef .tc main_arg11)) (V (Proc.devRef .tc main_arg12)) := by
  simp only [ops4]
  after_results_simp
  rfl

/-- The joined table from the node table and the two layers' outputs. -/
theorem after_ops5 (V : Valuation τ sig (Elt F)) :
    after ops5 V (Proc.devRef .tc main_v61)
      = cat3 (V (Proc.devRef .tc main_v0)) (V (Proc.devRef .tc main_v30)) (V (Proc.devRef .tc main_v60)) := by
  simp only [ops5]
  after_results
  rfl

/-- The user rows of the joined table. -/
theorem after_ops6 (V : Valuation τ sig (Elt F)) :
    after ops6 V (Proc.devRef .tc main_v68)
      = rows (V (Proc.devRef .tc main_v61)) (V (Proc.devRef .tc main_arg13)) := by
  simp only [ops6]
  after_results_simp
  rfl

/-- The item rows of the joined table. -/
theorem after_ops7 (V : Valuation τ sig (Elt F)) :
    after ops7 V (Proc.devRef .tc main_v77)
      = rows (V (Proc.devRef .tc main_v61)) (itemIdx (V (Proc.devRef .tc main_arg14))) := by
  simp only [ops7]
  after_results_simp
  rfl

/-- The scores from the two row blocks. -/
theorem after_ops8 (V : Valuation τ sig (Elt F)) :
    after ops8 V (Proc.devRef .tc main_v79)
      = score (V (Proc.devRef .tc main_v68)) (V (Proc.devRef .tc main_v77)) := by
  simp only [ops8]
  after_results_simp
  rfl

/-! ## The whole line -/

/-- The last result buffer after the whole line is the reference computation of the fifteen argument arrays: read
    back stretch by stretch from the last, each stretch's result by its lemma above and every buffer it only passes
    on (an earlier stage's result still to be read, an argument) by the fact that the stretch does not write it. -/
theorem after_ops_result (V : Valuation τ sig (Elt F)) :
    after ops V (Proc.devRef .tc main_v79)
      = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [ops, after_app]
  -- the inner product of the two row blocks
  rw [after_ops8]
  -- the item rows; the user rows pass
  rw [after_ops7, ops7_keep _ main_v68 (by decide)]
  -- the user rows; the joined table and the item index pass
  rw [after_ops6, ops6_keep _ main_v61 (by decide), ops6_keep _ main_arg14 (by decide)]
  -- the joined table
  rw [after_ops5, ops5_keep _ main_arg13 (by decide), ops5_keep _ main_arg14 (by decide)]
  -- the second layer
  rw [after_ops4, ops4_keep _ main_v0 (by decide), ops4_keep _ main_v30 (by decide), ops4_keep _ main_arg13 (by decide), ops4_keep _ main_arg14 (by decide)]
  -- its neighbour sum
  rw [after_ops3, ops3_keep _ main_v0 (by decide), ops3_keep _ main_v30 (by decide), ops3_keep _ main_arg9 (by decide), ops3_keep _ main_arg10 (by decide), ops3_keep _ main_arg11 (by decide), ops3_keep _ main_arg12 (by decide), ops3_keep _ main_arg13 (by decide), ops3_keep _ main_arg14 (by decide)]
  -- the first layer
  rw [after_ops2, ops2_keep _ main_v0 (by decide), ops2_keep _ main_arg0 (by decide), ops2_keep _ main_arg1 (by decide), ops2_keep _ main_arg2 (by decide), ops2_keep _ main_arg9 (by decide), ops2_keep _ main_arg10 (by decide), ops2_keep _ main_arg11 (by decide), ops2_keep _ main_arg12 (by decide), ops2_keep _ main_arg13 (by decide), ops2_keep _ main_arg14 (by decide)]
  -- its neighbour sum
  rw [after_ops1, ops1_keep _ main_v0 (by decide), ops1_keep _ main_arg0 (by decide), ops1_keep _ main_arg1 (by decide), ops1_keep _ main_arg2 (by decide), ops1_keep _ main_arg5 (by decide), ops1_keep _ main_arg6 (by decide), ops1_keep _ main_arg7 (by decide), ops1_keep _ main_arg8 (by decide), ops1_keep _ main_arg9 (by decide), ops1_keep _ main_arg10 (by decide), ops1_keep _ main_arg11 (by decide), ops1_keep _ main_arg12 (by decide), ops1_keep _ main_arg13 (by decide), ops1_keep _ main_arg14 (by decide)]
  -- the node table
  rw [after_ops0, ops0_keep _ main_arg0 (by decide), ops0_keep _ main_arg1 (by decide), ops0_keep _ main_arg2 (by decide), ops0_keep _ main_arg5 (by decide), ops0_keep _ main_arg6 (by decide), ops0_keep _ main_arg7 (by decide), ops0_keep _ main_arg8 (by decide), ops0_keep _ main_arg9 (by decide), ops0_keep _ main_arg10 (by decide), ops0_keep _ main_arg11 (by decide), ops0_keep _ main_arg12 (by decide), ops0_keep _ main_arg13 (by decide), ops0_keep _ main_arg14 (by decide)]
  rfl

/-- On every device, for any float values, from any memory with zero counters: every weakly fair execution of @main
    terminates with the result buffer at the reference computation of the launch contents of the fifteen argument
    buffers, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v79)
          = result (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono
    (fun _ h c => ⟨(h c main_v79).trans (after_ops_result _),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide))⟩)
    (run_seq scopedRefs_eq scopedSems_eq defs main (fun _ => ops) main_eq (fun _ => ops_sub) m ρ (fun _ => ops_fresh))

end Cert.ReferenceIdeal.Hand

end
-- ==== Proof.KI.Take.lean ====
/-
  The row lookup (take, at its default out-of-range mode) of the idealized kernel program, read at indices that are in range.

  The program normalises an index i to i + 100000 where i is negative (read signed) and to i itself elsewhere, lays
  the normalised indices out as a column, tests every entry of the column against 0 ≤ · ≤ 99999, reduces the test
  with "and" along the column's axis of extent one, gathers the table's rows at the column, and keeps the gathered
  row where the reduced test is 1 and a row of the constant 0x7FC00000 elsewhere.

  Where every index already lies in [0, 100000): no index is negative, so the normalised index is the index; both
  comparisons hold at every entry of the column, so the reduced test is 1 at every row (an "and" of ones from one
  is one); and the selection keeps the gathered row everywhere. The whole take is then the gather alone.

  The last statement is the same range fact for the item ids: an id in [-30000, 70000) plus 30000 does not wrap in
  32 bits and lies in [0, 100000).
-/
import proofs.«415617_j89146341196446_1_alg».proof.KernelIdeal
import proofs.«415617_j89146341196446_1_alg».proof.Proof.Gen.KernelIdeal
import Idealize.ShloMosaic.Lib.Affine
import Idealize.ShloMosaic.PureOps.Reduce

noncomputable section

namespace Cert.KernelIdeal.Hand

open Cert.KernelIdeal Cert.KernelIdeal.Facts₀
open Idealize.ShloMosaic

/-! ## Three general facts: an "and" of ones, a selection on ones, two signed range tests -/

/-- A left fold by "and" from 1 over bits that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l (fun n hn => h n (List.mem_cons_of_mem _ hn))

/-- A reduction by "and", from an initial value that is 1, of an array of ones is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ (fun n _ => hx n)

/-- A selection whose condition is 1 everywhere is its first branch. -/
theorem select_of_all_one {s : Shape} {α : Type} (c : IVec s 1) (a b : s.Idx → α) (hc : ∀ j, c j = 1#1) :
    select c a b = a := by
  funext j
  show Scalar.select (c j) (a j) (b j) = a j
  rw [hc j]
  exact if_pos rfl

/-- A word in [0, 100000), read signed, passes both tests 0 ≤ · and · ≤ 99999. -/
theorem in_range_tests (w : BitVec 32) (h0 : 0 ≤ w.toInt) (h1 : w.toInt < 100000) :
    IntOp.andi (IntOp.cmpi .sge w 0#32) (IntOp.cmpi .sle w 99999#32) = 1#1 := by
  rw [IntOp.andi_eq_one, IntOp.cmpi_sge, IntOp.cmpi_sle, show (0#32 : BitVec 32).toInt = 0 from by decide,
    show (99999#32 : BitVec 32).toInt = 99999 from by decide]
  omega

/-- The index normalisation (i + k where i < 0, else i) at a word that is not negative: the word itself. -/
theorem normalise_of_nonneg (w k : BitVec 32) (h0 : 0 ≤ w.toInt) :
    Scalar.select (IntOp.cmpi .slt w 0#32) (IntOp.addi w k) w = w := by
  have hc : ¬ IntOp.cmpi .slt w 0#32 = 1#1 := by
    rw [IntOp.cmpi_slt, show (0#32 : BitVec 32).toInt = 0 from by decide]; omega
  exact if_neg hc

section
variable {F : FTy → Type} [FloatOps F] [Cert.KernelIdeal.Facts]

/-! ## The take over the 1600000 edge columns, from the [100000, 64] table -/

/-- The normalised index: i + 100000 where i < 0, else i. -/
def nidxE (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

/-- The take's result as one term of the table and the indices. -/
def takeE (x : FVec F S100000x64 .f32) (i : IVec S1600000 32) : FVec F S1600000x64 .f32 :=
  select
    (broadcastInDim S1600000x64 ![0] bcast_S1600000_S1600000x64_0
      ((fun x v => Host.reduce IntOp.andi x v reducesTo_S1600000x1_S1600000_d1 h_S_)
        (andi
          (cmpi .sge (broadcastInDim S1600000x1 ![0] bcast_S1600000_S1600000x1_0 (nidxE i))
            (broadcastInDim S1600000x1 ![] bcast_S_S1600000x1 (constantI S_ 32 0#32)))
          (cmpi .sle (broadcastInDim S1600000x1 ![0] bcast_S1600000_S1600000x1_0 (nidxE i))
            (broadcastInDim S1600000x1 ![0, 1] bcast_S1x1_S1600000x1_0_1
              (broadcastInDim S1x1 ![1] bcast_S1_S1x1_1 (constantI S1 32 99999#32)))))
        (constantI S_ 1 1#1)))
    ((fun x i => Host.gather gather_S100000x64_S1600000x1_S1600000x64_1_0_n_n_0_1_164 x i) x
      (broadcastInDim S1600000x1 ![0] bcast_S1600000_S1600000x1_0 (nidxE i)))
    (broadcastInDim S1600000x64 ![] bcast_S_S1600000x64 (constant (F := F) S_ .f32 0x7FC00000#32))

/-- An index that is not negative is its own normalisation. -/
theorem nidxE_apply (i : IVec S1600000 32) (e : S1600000.Idx) (h0 : 0 ≤ (i e).toInt) : nidxE i e = i e :=
  normalise_of_nonneg (i e) 100000#32 h0

/-- At indices in [0, 100000) the take is the gather at the column of normalised indices. -/
theorem takeE_eq (x : FVec F S100000x64 .f32) (i : IVec S1600000 32)
    (hi : ∀ e, 0 ≤ (i e).toInt ∧ (i e).toInt < 100000) :
    takeE x i = Host.gather gather_S100000x64_S1600000x1_S1600000x64_1_0_n_n_0_1_164 x
      (broadcastInDim S1600000x1 ![0] bcast_S1600000_S1600000x1_0 (nidxE i)) := by
  unfold takeE
  refine select_of_all_one _ _ _ (fun j => ?_)
  refine reduce_andi_of_all _ _ _ _ rfl (fun q => ?_) _
  -- entry q of the column is the normalised index at q's row, which is the index there
  have hq : ∀ r : S1600000.Idx, IntOp.andi (IntOp.cmpi .sge (nidxE i r) 0#32) (IntOp.cmpi .sle (nidxE i r) 99999#32) = 1#1 :=
    fun r => by rw [nidxE_apply i r (hi r).1]; exact in_range_tests _ (hi r).1 (hi r).2
  exact hq _

/-! ## The takes over the 4096 batch ids, from the [100000, 160] table -/

/-- The normalised index: i + 100000 where i < 0, else i. -/
def nidxB (i : IVec S4096 32) : IVec S4096 32 :=
  select (cmpi .slt i (broadcastInDim S4096 ![] bcast_S_S4096 (constantI S_ 32 0#32)))
    (addi i (broadcastInDim S4096 ![] bcast_S_S4096 (constantI S_ 32 100000#32))) i

/-- The take's result as one term of the table and the indices (the two batch takes print the same term). -/
def takeB (x : FVec F S100000x160 .f32) (i : IVec S4096 32) : FVec F S4096x160 .f32 :=
  select
    (broadcastInDim S4096x160 ![0] bcast_S4096_S4096x160_0
      ((fun x v => Host.reduce IntOp.andi x v reducesTo_S4096x1_S4096_d1 h_S_)
        (andi
          (cmpi .sge (broadcastInDim S4096x1 ![0] bcast_S4096_S4096x1_0 (nidxB i))
            (broadcastInDim S4096x1 ![] bcast_S_S4096x1 (constantI S_ 32 0#32)))
          (cmpi .sle (broadcastInDim S4096x1 ![0] bcast_S4096_S4096x1_0 (nidxB i))
            (broadcastInDim S4096x1 ![0, 1] bcast_S1x1_S4096x1_0_1
              (broadcastInDim S1x1 ![1] bcast_S1_S1x1_1 (constantI S1 32 99999#32)))))
        (constantI S_ 1 1#1)))
    ((fun x i => Host.gather gather_S100000x160_S4096x1_S4096x160_1_0_n_n_0_1_1160 x i) x
      (broadcastInDim S4096x1 ![0] bcast_S4096_S4096x1_0 (nidxB i)))
    (broadcastInDim S4096x160 ![] bcast_S_S4096x160 (constant (F := F) S_ .f32 0x7FC00000#32))

/-- An index that is not negative is its own normalisation. -/
theorem nidxB_apply (i : IVec S4096 32) (b : S4096.Idx) (h0 : 0 ≤ (i b).toInt) : nidxB i b = i b :=
  normalise_of_nonneg (i b) 100000#32 h0

/-- At indices in [0, 100000) the take is the gather at the column of normalised indices. -/
theorem takeB_eq (x : FVec F S100000x160 .f32) (i : IVec S4096 32)
    (hi : ∀ b, 0 ≤ (i b).toInt ∧ (i b).toInt < 100000) :
    takeB x i = Host.gather gather_S100000x160_S4096x1_S4096x160_1_0_n_n_0_1_1160 x
      (broadcastInDim S4096x1 ![0] bcast_S4096_S4096x1_0 (nidxB i)) := by
  unfold takeB
  refine select_of_all_one _ _ _ (fun j => ?_)
  refine reduce_andi_of_all _ _ _ _ rfl (fun q => ?_) _
  have hq : ∀ r : S4096.Idx, IntOp.andi (IntOp.cmpi .sge (nidxB i r) 0#32) (IntOp.cmpi .sle (nidxB i r) 99999#32) = 1#1 :=
    fun r => by rw [nidxB_apply i r (hi r).1]; exact in_range_tests _ (hi r).1 (hi r).2
  exact hq _

/-! ## The item ids, offset by 30000 -/

/-- An item id in [-30000, 70000) plus 30000 is a row of the 100000-row table: the 32-bit sum does not wrap. -/
theorem item_idx_range (j : IVec S4096 32) (hj : ∀ b, -30000 ≤ (j b).toInt ∧ (j b).toInt < 70000) :
    ∀ b, 0 ≤ ((addi (broadcastInDim S4096 ![] bcast_S_S4096 (constantI S_ 32 30000#32)) j) b).toInt
      ∧ ((addi (broadcastInDim S4096 ![] bcast_S_S4096 (constantI S_ 32 30000#32)) j) b).toInt < 100000 := by
  intro b
  have e : ((addi (broadcastInDim S4096 ![] bcast_S_S4096 (constantI S_ 32 30000#32)) j) b).toInt = 30000 + (j b).toInt := by
    show ((30000#32 : BitVec 32) + j b).toInt = _
    rw [BitVec.toInt_add, show (30000#32 : BitVec 32).toInt = 30000 from by decide]
    exact Int.bmod_eq_of_le (by have := hj b; omega) (by have := hj b; omega)
  rw [e]
  have := hj b
  omega

end

end Cert.KernelIdeal.Hand

end
-- ==== Proof.KI.Stages.lean ====
/-
  The kernel program's host computation as named stages, each the composition of the program's own host operations:
  the node table `cat0`, the weighted neighbour sum `msgK` (the taken row at the edge's column index, scaled by the edge
  weight, summed into the destination rows), the joined table `cat3` and the item index moved past the user rows.
-/
import proofs.«415617_j89146341196446_1_alg».proof.KernelIdeal
import proofs.«415617_j89146341196446_1_alg».proof.Proof.KI.Take

noncomputable section

namespace Cert.KernelIdeal.Hand

open Cert.KernelIdeal Cert.KernelIdeal.Facts₀
open Idealize.ShloMosaic

variable {F : FTy → Type} [FloatOps F] [Cert.KernelIdeal.Facts]

/-- The node table: the user rows on top of the entity rows. -/
def cat0 (u : FVec F S30000x64 .f32) (e : FVec F S70000x64 .f32) : FVec F S100000x64 .f32 :=
  concatenate S100000x64 0 [⟨S30000x64, u⟩, ⟨S70000x64, e⟩] concatenates_S30000x64_S70000x64_S100000x64_d0

/-- The weighted neighbour sum: the taken row `col e` of `feats` times `vals e`, added into row `row e`, over all edges. -/
def msgK (feats : FVec F S100000x64 .f32) (row col : IVec S1600000 32) (vals : FVec F S1600000 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (takeE feats col)
      (broadcastInDim S1600000x64 ![0, 1] bcast_S1600000x1_S1600000x64_0_1
        (broadcastInDim S1600000x1 ![0] bcast_S1600000_S1600000x1_0 vals)))

/-- The three tables side by side: 64 + 64 + 32 columns. -/
def cat3 (a0 a1 : FVec F S100000x64 .f32) (a2 : FVec F S100000x32 .f32) : FVec F S100000x160 .f32 :=
  concatenate S100000x160 1 [⟨S100000x64, a0⟩, ⟨S100000x64, a1⟩, ⟨S100000x32, a2⟩] concatenates_S100000x64_S100000x64_S100000x32_S100000x160_d1

/-- The item index moved past the user rows. -/
def itemIdx (j : IVec S4096 32) : IVec S4096 32 :=
  addi (broadcastInDim S4096 ![] bcast_S_S4096 (constantI S_ 32 30000#32)) j

end Cert.KernelIdeal.Hand

end
-- ==== Proof.KI.Host.lean ====
/-
  What the kernel program's host stretches leave in the buffers its three pipelines read, as functions of the argument
  arrays and of what the earlier pipelines left: the node table, the weighted neighbour sums, the biases as one-row
  matrices, the joined table, the scored rows and the result vector. Each stretch is read from the contents it is
  entered at, held as one variable, so that only that stretch's operations are ever unfolded.
-/
import proofs.«415617_j89146341196446_1_alg».proof.Proof.Gen.KernelIdeal.Regions
import proofs.«415617_j89146341196446_1_alg».proof.Proof.KI.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (outs : Gen.Outs (F := F))

/-! ## Typed references

A host operation printed inside a module-local function carries its operands to and from its buffers through a
transport along the buffer's type, which is the identity. -/

/-- Contents carried to a typed reference's buffer and back are unchanged. -/
theorem ofBuf_toBuf {T : BufTy} (x : StableHlo.TRef sig T) (v : T.Contents (Elt F)) : x.ofBuf (x.toBuf v) = v := by
  obtain ⟨r, hr, _, _⟩ := x
  cases hr
  rfl

/-! ## One stretch at a time, from any contents `W` -/

theorem s0_v0 (W : Valuation τ sig (Elt F)) :
    StableHlo.after hostOps0 W (Proc.devRef .tc main_v0) = cat0 (W (Proc.devRef .tc main_arg3)) (W (Proc.devRef .tc main_arg4)) := by
  after_results; rfl

set_option maxHeartbeats 4000000 in
theorem s0_1_v1 (W : Valuation τ sig (Elt F)) :
    StableHlo.after hostOps0_1 W (Proc.devRef .tc main_v1) = takeE (W (Proc.devRef .tc main_v0)) (W (Proc.devRef .tc main_arg1)) := by
  after_results_simp
  simp only [ofBuf_toBuf]
  have e1 : ∀ (h1) (h2) (h3), (TRef.of (T := ⟨S1600000, .i32⟩) main_arg1 h1 h2 h3).ofBuf (W (Proc.devRef .tc main_arg1)) = W (Proc.devRef .tc main_arg1) :=
    fun _ _ _ => rfl
  have e0 : ∀ (h1) (h2) (h3), (TRef.of (T := ⟨S100000x64, .f32⟩) main_v0 h1 h2 h3).ofBuf (W (Proc.devRef .tc main_v0)) = W (Proc.devRef .tc main_v0) :=
    fun _ _ _ => rfl
  have eo : ∀ (h1) (h2) (h3) (v : (⟨S1600000x64, .f32⟩ : BufTy).Contents (Elt F)), (TRef.of (T := ⟨S1600000x64, .f32⟩) main_v1 h1 h2 h3).toBuf v = v :=
    fun _ _ _ _ => rfl
  simp only [e1, e0]
  rw [eo]
  unfold takeE nidxE
  rfl

theorem s0_2_v7 (W : Valuation τ sig (Elt F)) :
    StableHlo.after hostOps0_2 W (Proc.devRef .tc main_v7)
      = Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (W (Proc.devRef .tc main_arg0)))
          (mulf (W (Proc.devRef .tc main_v1))
            (broadcastInDim S1600000x64 ![0, 1] bcast_S1600000x1_S1600000x64_0_1
              (broadcastInDim S1600000x1 ![0] bcast_S1600000_S1600000x1_0 (W (Proc.devRef .tc main_arg2))))) := by
  after_results

theorem s0_2_v8 (W : Valuation τ sig (Elt F)) :
    StableHlo.after hostOps0_2 W (Proc.devRef .tc main_v8) = shapeCast S1x64 (W (Proc.devRef .tc main_arg6)) shapeCasts_S64_S1x64 := by
  after_results; rfl

theorem s0_2_v9 (W : Valuation τ sig (Elt F)) :
    StableHlo.after hostOps0_2 W (Proc.devRef .tc main_v9) = shapeCast S1x64 (W (Proc.devRef .tc main_arg8)) shapeCasts_S64_S1x64 := by
  after_results; rfl

set_option maxHeartbeats 4000000 in
theorem s1_v11 (W : Valuation τ sig (Elt F)) :
    StableHlo.after hostOps1 W (Proc.devRef .tc main_v11) = takeE (W (Proc.devRef .tc main_v10)) (W (Proc.devRef .tc main_arg1)) := by
  after_results_simp
  simp only [ofBuf_toBuf]
  have e1 : ∀ (h1) (h2) (h3), (TRef.of (T := ⟨S1600000, .i32⟩) main_arg1 h1 h2 h3).ofBuf (W (Proc.devRef .tc main_arg1)) = W (Proc.devRef .tc main_arg1) :=
    fun _ _ _ => rfl
  have e0 : ∀ (h1) (h2) (h3), (TRef.of (T := ⟨S100000x64, .f32⟩) main_v10 h1 h2 h3).ofBuf (W (Proc.devRef .tc main_v10)) = W (Proc.devRef .tc main_v10) :=
    fun _ _ _ => rfl
  have eo : ∀ (h1) (h2) (h3) (v : (⟨S1600000x64, .f32⟩ : BufTy).Contents (Elt F)), (TRef.of (T := ⟨S1600000x64, .f32⟩) main_v11 h1 h2 h3).toBuf v = v :=
    fun _ _ _ _ => rfl
  simp only [e1, e0]
  rw [eo]
  unfold takeE nidxE
  rfl

theorem s1_1_v17 (W : Valuation τ sig (Elt F)) :
    StableHlo.after hostOps1_1 W (Proc.devRef .tc main_v17)
      = Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (W (Proc.devRef .tc main_arg0)))
          (mulf (W (Proc.devRef .tc main_v11))
            (broadcastInDim S1600000x64 ![0, 1] bcast_S1600000x1_S1600000x64_0_1
              (broadcastInDim S1600000x1 ![0] bcast_S1600000_S1600000x1_0 (W (Proc.devRef .tc main_arg2))))) := by
  after_results

theorem s1_1_v18 (W : Valuation τ sig (Elt F)) :
    StableHlo.after hostOps1_1 W (Proc.devRef .tc main_v18) = shapeCast S1x32 (W (Proc.devRef .tc main_arg10)) shapeCasts_S32_S1x32 := by
  after_results; rfl

theorem s1_1_v19 (W : Valuation τ sig (Elt F)) :
    StableHlo.after hostOps1_1 W (Proc.devRef .tc main_v19) = shapeCast S1x32 (W (Proc.devRef .tc main_arg12)) shapeCasts_S32_S1x32 := by
  after_results; rfl

theorem s2_v21 (W : Valuation τ sig (Elt F)) :
    StableHlo.after hostOps2 W (Proc.devRef .tc main_v21)
      = cat3 (W (Proc.devRef .tc main_v0)) (W (Proc.devRef .tc main_v10)) (W (Proc.devRef .tc main_v20)) := by
  after_results; rfl

set_option maxHeartbeats 4000000 in
theorem s2_1_v22 (W : Valuation τ sig (Elt F)) :
    StableHlo.after hostOps2_1 W (Proc.devRef .tc main_v22) = takeB (W (Proc.devRef .tc main_v21)) (W (Proc.devRef .tc main_arg13)) := by
  after_results_simp
  simp only [ofBuf_toBuf]
  have e1 : ∀ (h1) (h2) (h3), (TRef.of (T := ⟨S4096, .i32⟩) main_arg13 h1 h2 h3).ofBuf (W (Proc.devRef .tc main_arg13)) = W (Proc.devRef .tc main_arg13) :=
    fun _ _ _ => rfl
  have e0 : ∀ (h1) (h2) (h3), (TRef.of (T := ⟨S100000x160, .f32⟩) main_v21 h1 h2 h3).ofBuf (W (Proc.devRef .tc main_v21)) = W (Proc.devRef .tc main_v21) :=
    fun _ _ _ => rfl
  have eo : ∀ (h1) (h2) (h3) (v : (⟨S4096x160, .f32⟩ : BufTy).Contents (Elt F)), (TRef.of (T := ⟨S4096x160, .f32⟩) main_v22 h1 h2 h3).toBuf v = v :=
    fun _ _ _ _ => rfl
  simp only [e1, e0]
  rw [eo]
  unfold takeB nidxB
  rfl

theorem s2_2_v24 (W : Valuation τ sig (Elt F)) :
    StableHlo.after hostOps2_2 W (Proc.devRef .tc main_v24) = itemIdx (W (Proc.devRef .tc main_arg14)) := by
  after_results; rfl

set_option maxHeartbeats 4000000 in
theorem s2_3_v25 (W : Valuation τ sig (Elt F)) :
    StableHlo.after hostOps2_3 W (Proc.devRef .tc main_v25) = takeB (W (Proc.devRef .tc main_v21)) (W (Proc.devRef .tc main_v24)) := by
  after_results_simp
  simp only [ofBuf_toBuf]
  have e1 : ∀ (h1) (h2) (h3), (TRef.of (T := ⟨S4096, .i32⟩) main_v24 h1 h2 h3).ofBuf (W (Proc.devRef .tc main_v24)) = W (Proc.devRef .tc main_v24) :=
    fun _ _ _ => rfl
  have e0 : ∀ (h1) (h2) (h3), (TRef.of (T := ⟨S100000x160, .f32⟩) main_v21 h1 h2 h3).ofBuf (W (Proc.devRef .tc main_v21)) = W (Proc.devRef .tc main_v21) :=
    fun _ _ _ => rfl
  have eo : ∀ (h1) (h2) (h3) (v : (⟨S4096x160, .f32⟩ : BufTy).Contents (Elt F)), (TRef.of (T := ⟨S4096x160, .f32⟩) main_v25 h1 h2 h3).toBuf v = v :=
    fun _ _ _ _ => rfl
  simp only [e1, e0]
  rw [eo]
  unfold takeB nidxB
  rfl

theorem s3_v27 (W : Valuation τ sig (Elt F)) :
    StableHlo.after hostOps3 W (Proc.devRef .tc main_v27) = shapeCast S4096 (W (Proc.devRef .tc main_v26)) shapeCasts_S4096x1_S4096 := by
  after_results; rfl

end Cert.KernelIdeal.Hand

end
-- ==== Proof.Bridge.Shared.lean ====
/-
  The stages the two programs share are one function.

  Both programs build the node table by stacking the user rows on the entity rows, form the weighted neighbour sum
  (the table's row at an edge's column index, scaled by the edge's weight, added into the edge's destination row),
  join three tables side by side, move an item index past the user rows, and look rows of the joined table up. Each
  program names its own copies of the shapes, of the dimension records of its gathers and scatter, and of the side
  conditions its operations take; the copies of a shape are the same shape, the copies of a record have the same
  fields, and a side condition is a proposition, of which any two proofs are equal. So wherever the two programs
  apply the same operations to the same operands the two stages are equal outright.

  They differ in one place: the kernel program's row lookup tests every index against the table's height and keeps
  a constant row where the test fails, and the reference's is the bare gather. At indices in [0, 100000) the test
  holds everywhere and the lookup is the gather.
-/
import proofs.«415617_j89146341196446_1_alg».proof.Proof.KI.Stages
import proofs.«415617_j89146341196446_1_alg».proof.Proof.Ref.Stages
import proofs.«415617_j89146341196446_1_alg».proof.Proof.Gen.KernelIdeal
import proofs.«415617_j89146341196446_1_alg».proof.Proof.Gen.ReferenceIdeal

noncomputable section

namespace Cert.Hand.Bridge

open Idealize.ShloMosaic

/-! ## The dimension records: the same fields -/

theorem gatherE_eq :
    Cert.KernelIdeal.gather_S100000x64_S1600000x1_S1600000x64_1_0_n_n_0_1_164
      = Cert.ReferenceIdeal.gather_S100000x64_S1600000x1_S1600000x64_1_0_n_n_0_1_164 := rfl

theorem scatterE_eq :
    Cert.KernelIdeal.scatter_S100000x64_S1600000x1_S1600000x64_1_0_0_1
      = Cert.ReferenceIdeal.scatter_S100000x64_S1600000x1_S1600000x64_1_0_0_1 := rfl

theorem gatherB_eq :
    Cert.KernelIdeal.gather_S100000x160_S4096x1_S4096x160_1_0_n_n_0_1_1160
      = Cert.ReferenceIdeal.gather_S100000x160_S4096x1_S4096x160_1_0_n_n_0_1_1160 := rfl

/-! ## The index normalisations: the same term -/

theorem nidxE_eq (i : IVec Cert.KernelIdeal.S1600000 32) :
    Cert.KernelIdeal.Hand.nidxE i = Cert.ReferenceIdeal.Hand.nidxE i := rfl

theorem nidxB_eq (i : IVec Cert.KernelIdeal.S4096 32) :
    Cert.KernelIdeal.Hand.nidxB i = Cert.ReferenceIdeal.Hand.nidxB i := rfl

section
variable {F : FTy → Type} [FloatOps F]

/-! ## The stages -/

/-- The node table. -/
theorem cat0_eq (u : FVec F Cert.KernelIdeal.S30000x64 .f32) (e : FVec F Cert.KernelIdeal.S70000x64 .f32) :
    Cert.KernelIdeal.Hand.cat0 u e = Cert.ReferenceIdeal.Hand.cat0 u e := rfl

/-- The three tables side by side. -/
theorem cat3_eq (a0 a1 : FVec F Cert.KernelIdeal.S100000x64 .f32) (a2 : FVec F Cert.KernelIdeal.S100000x32 .f32) :
    Cert.KernelIdeal.Hand.cat3 a0 a1 a2 = Cert.ReferenceIdeal.Hand.cat3 a0 a1 a2 := rfl

/-- The item index moved past the user rows. -/
theorem itemIdx_eq (j : IVec Cert.KernelIdeal.S4096 32) :
    Cert.KernelIdeal.Hand.itemIdx j = Cert.ReferenceIdeal.Hand.itemIdx j := rfl

/-- The weighted neighbour sum, at column indices in range: the kernel program's tested lookup is the gather, and
    the rest is the same operations on the same operands. -/
theorem msg_eq (feats : FVec F Cert.KernelIdeal.S100000x64 .f32) (row col : IVec Cert.KernelIdeal.S1600000 32)
    (vals : FVec F Cert.KernelIdeal.S1600000 .f32) (hcol : ∀ e, 0 ≤ (col e).toInt ∧ (col e).toInt < 100000) :
    Cert.KernelIdeal.Hand.msgK feats row col vals = Cert.ReferenceIdeal.Hand.msg feats row col vals := by
  unfold Cert.KernelIdeal.Hand.msgK Cert.ReferenceIdeal.Hand.msg
  rw [Cert.KernelIdeal.Hand.takeE_eq feats col hcol, gatherE_eq, scatterE_eq, nidxE_eq]

/-- The rows of the joined table, at indices in range. -/
theorem rows_eq (fin : FVec F Cert.KernelIdeal.S100000x160 .f32) (i : IVec Cert.KernelIdeal.S4096 32)
    (hi : ∀ b, 0 ≤ (i b).toInt ∧ (i b).toInt < 100000) :
    Cert.KernelIdeal.Hand.takeB fin i = Cert.ReferenceIdeal.Hand.rows fin i := by
  rw [Cert.KernelIdeal.Hand.takeB_eq fin i hi]
  unfold Cert.ReferenceIdeal.Hand.rows
  rw [gatherB_eq, nidxB_eq]

end

end Cert.Hand.Bridge

end
-- ==== Proof.KI.Final0.lean ====
/-
  Region 0 of the idealized kernel program, from blocks to whole arrays. The grid has 20 points; at point t the two
  row-tiled input windows (the features and the neighbour sums) hold rows 5000·t … 5000·t + 4999 of their [100000,64]
  arrays, the four parameter windows (two weight matrices, two bias rows) hold their whole arrays at every point, and
  the output window's block is rows 5000·t … 5000·t + 4999 of the result. So a row-tile entry (p, k) is the array entry
  (5000·t + p, k) and a parameter block entry is the parameter's entry; and if the body's payload on the six blocks at
  point t, read at (p, q), is G at (5000·t + p, q) for one whole-array function G, then what point t writes back is
  block t of G, the twenty blocks tile the result (row r lies in the block of point r / 5000), and the result array
  ends holding G.
-/
import proofs.«415617_j89146341196446_1_alg».proof.Proof.KI.Half0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The offsets of the whole-buffer rectangles are zero on both axes. -/
theorem origin0 : (![0, 0] : Fin 2 → Nat) = fun _ => 0 := funext fun a => by fin_cases a <;> rfl

/-- The seven index maps, decided over the 20 grid points: the row-tiled windows' block index at point t is (t, 0),
    the parameter windows' is (0, 0). -/
theorem tile_index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of tile t is a row of the array: 5000·t + p < 100000. -/
theorem row_lt0 (t : Fin cfg0.N) (p : Fin 5000) : 5000 * t.val + p.val < 100000 := by
  have h1 := t.isLt
  have h2 : cfg0.N = 20 := N_0
  have h3 := p.isLt
  omega

/-- The features' block at point t, entry (p, k), is entry (5000·t + p, k) of the array. -/
theorem blk0_0 (c : Dev nD) (t : Fin cfg0.N) (p : Fin 5000) (k : Fin 64) :
    iblk0 V c 0 t (ix2 p k) = V c main_v0 (ix2 ⟨5000 * t.val + p.val, row_lt0 t p⟩ k) := by
  obtain ⟨e0, e1, -⟩ := tile_index0 t
  unfold iblk0
  rw [View.read_apply]
  show V c main_v0 _ = V c main_v0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- The neighbour sums' block at point t, entry (p, k), is entry (5000·t + p, k) of the array. -/
theorem blk0_1 (c : Dev nD) (t : Fin cfg0.N) (p : Fin 5000) (k : Fin 64) :
    iblk0 V c 1 t (ix2 p k) = V c main_v7 (ix2 ⟨5000 * t.val + p.val, row_lt0 t p⟩ k) := by
  obtain ⟨-, -, e0, e1, -⟩ := tile_index0 t
  unfold iblk0
  rw [View.read_apply]
  show V c main_v7 _ = V c main_v7 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- The first weight matrix's block at every point is the whole matrix. -/
theorem blk0_2 (c : Dev nD) (t : Fin cfg0.N) (k : Fin 64) (q : Fin 64) :
    iblk0 V c 2 t (ix2 k q) = V c main_arg5 (ix2 k q) := by
  obtain ⟨-, -, -, -, e0, e1, -⟩ := tile_index0 t
  unfold iblk0
  rw [View.read_apply]
  show V c main_arg5 _ = V c main_arg5 _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The first bias row's block at every point is the whole row. -/
theorem blk0_3 (c : Dev nD) (t : Fin cfg0.N) (z : Fin 1) (q : Fin 64) :
    iblk0 V c 3 t (ix2 z q) = V c main_v8 (ix2 z q) := by
  obtain ⟨-, -, -, -, -, -, e0, e1, -⟩ := tile_index0 t
  unfold iblk0
  rw [View.read_apply]
  show V c main_v8 _ = V c main_v8 _
  congr 1
  funext a
  apply Fin.ext
  match a with
  | ⟨0, _⟩ => show win0_3.index t (0 : Fin 2) * 1 + 1 * z.val = z.val; rw [e0]; omega
  | ⟨1, _⟩ => show win0_3.index t (1 : Fin 2) * 64 + 1 * q.val = q.val; rw [e1]; omega

/-- The second weight matrix's block at every point is the whole matrix. -/
theorem blk0_4 (c : Dev nD) (t : Fin cfg0.N) (k : Fin 64) (q : Fin 64) :
    iblk0 V c 4 t (ix2 k q) = V c main_arg7 (ix2 k q) := by
  obtain ⟨-, -, -, -, -, -, -, -, e0, e1, -⟩ := tile_index0 t
  unfold iblk0
  rw [View.read_apply]
  show V c main_arg7 _ = V c main_arg7 _
  congr 1
  funext a
  apply Fin.ext
  match a with
  | ⟨0, _⟩ => show win0_4.index t (0 : Fin 2) * 64 + 1 * k.val = k.val; rw [e0]; omega
  | ⟨1, _⟩ => show win0_4.index t (1 : Fin 2) * 64 + 1 * q.val = q.val; rw [e1]; omega

/-- The second bias row's block at every point is the whole row. -/
theorem blk0_5 (c : Dev nD) (t : Fin cfg0.N) (z : Fin 1) (q : Fin 64) :
    iblk0 V c 5 t (ix2 z q) = V c main_v9 (ix2 z q) := by
  obtain ⟨-, -, -, -, -, -, -, -, -, -, e0, e1, -⟩ := tile_index0 t
  unfold iblk0
  rw [View.read_apply]
  show V c main_v9 _ = V c main_v9 _
  congr 1
  funext a
  apply Fin.ext
  match a with
  | ⟨0, _⟩ => show win0_5.index t (0 : Fin 2) * 1 + 1 * z.val = z.val; rw [e0]; omega
  | ⟨1, _⟩ => show win0_5.index t (1 : Fin 2) * 64 + 1 * q.val = q.val; rw [e1]; omega

/-- What point t writes back is block t of G, when the payload on the blocks at t is G on the tile's rows. -/
theorem flushed0_eq (c : Dev nD) (G : Vec F S100000x64 .f32)
    (hG : ∀ (t : Fin cfg0.N) (p : Fin 5000) (q : Fin 64),
      k0_pay1 (iblk0 V c 0 t) (iblk0 V c 1 t) (iblk0 V c 2 t) (iblk0 V c 4 t) (iblk0 V c 3 t) (iblk0 V c 5 t) (ix2 p q)
        = G (ix2 ⟨5000 * t.val + p.val, row_lt0 t p⟩ q))
    (t : Fin cfg0.N) :
    (dat0 V c).flushed 6 t = ((cfg0.win 6).blk t).view.read (Elt F) G := by
  show (cfg0.win 6).cut (grid0.coords t) ((dat0 V c).after 6 t) = _
  rw [after0_6]
  unfold out0_6
  rw [View.canon_unit_zero origin0]
  simp only [View.ld_unit_zero (S := S5000x64) origin0, View.ld_unit_zero (S := S64x64) origin0, View.ld_unit_zero (S := S1x64) origin0]
  obtain ⟨-, -, -, -, -, -, -, -, -, -, -, -, e0, e1⟩ := tile_index0 t
  funext y
  obtain ⟨p, q, rfl⟩ : ∃ (p : Fin 5000) (q : Fin 64), y = ix2 p q := ⟨y 0, y 1, eq_ix2 y⟩
  show k0_pay1 (iblk0 V c 0 t) (iblk0 V c 1 t) (iblk0 V c 2 t) (iblk0 V c 4 t) (iblk0 V c 3 t) (iblk0 V c 5 t) (ix2 p q)
    = G (((cfg0.win 6).blk t).view.emb (ix2 p q))
  rw [hG t p q]
  congr 1
  funext a
  apply Fin.ext
  match a with
  | ⟨0, _⟩ => show 5000 * t.val + p.val = win0_6.index t (0 : Fin 2) * 5000 + 1 * p.val; rw [e0]; omega
  | ⟨1, _⟩ => show q.val = win0_6.index t (1 : Fin 2) * 64 + 1 * q.val; rw [e1]; omega

/-- An index of the result array lies in point t's block iff each coordinate lies in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v10).slice (win0_6.rect t)).set ↔ _
  rw [View.set_slice_whole, Rect.mem_set_unit]
  exact Iff.rfl

/-- The blocks tile the result: row r lies in the block of point r / 5000, and every point writes back. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := tile_index0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0]; omega
  | ⟨1, _⟩ => show win0_6.index t (1 : Fin 2) * 64 ≤ (i 1).val ∧ (i 1).val < win0_6.index t (1 : Fin 2) * 64 + 64; rw [e1]; omega

/-- The result array after the region is G, when the payload on the blocks at every point t is G on that tile's rows. -/
theorem final0_of (c : Dev nD) (G : Vec F S100000x64 .f32)
    (hG : ∀ (t : Fin cfg0.N) (p : Fin 5000) (q : Fin 64),
      k0_pay1 (iblk0 V c 0 t) (iblk0 V c 1 t) (iblk0 V c 2 t) (iblk0 V c 4 t) (iblk0 V c 3 t) (iblk0 V c 5 t) (ix2 p q)
        = G (ix2 ⟨5000 * t.val + p.val, row_lt0 t p⟩ q)) :
    (dat0 V c).arrAt 6 cfg0.N = G :=
  (dat0 V c).arrAt_eq_of_cover 6 G (fun t _ => flushed0_eq V c G hG t) cover0

end Cert.KernelIdeal.Hand

end
-- ==== Proof.LayerSpec.lean ====
/-
  One row of a graph layer, on the extended reals.

  A node's features x and its neighbour sum hn (64 entries each) go through two linear maps: the sum x + hn through W1 and
  the entrywise product x * hn through W2, each with a bias. The result is rectified with a leak (slope the single
  precision number nearest 0.01) and the rectified row is divided by its Euclidean norm, floored at the single precision
  number nearest 1e-12. Every operation is the extended reals' own: + and *, the order, the square root and the division
  of the ideal float values (junk values at their corners included), so that a program's arithmetic read at one entry can
  be compared with these definitions term by term.

  The rectifier is written with the test 0 ≤ a. A program may test 0 < a instead: the two differ only at a = 0, where the
  leaky branch is slope * 0 = 0 as well, so they are one function (`act_strict_eq`).
-/
import Idealize.ShloMosaic.PureOps.Ideal
import Idealize.ShloMosaic.PureOps.Ideal.Laws
import Idealize.ShloMosaic.Lib.ValueIdx

noncomputable section

open scoped BigOperators

namespace Cert.Hand.LayerSpec

open Idealize.ShloMosaic

/-- The leak's slope: the extended real the single precision word 0x3C23D70A denotes (about 0.01). -/
def slope : EReal := Ideal.ofBits .f32 0x3C23D70A#32

/-- The norm's floor: the extended real the single precision word 0x2B8CBCCC denotes (about 1e-12). -/
def normFloor : EReal := Ideal.ofBits .f32 0x2B8CBCCC#32

/-- The leaky rectifier: the identity on 0 ≤ a, multiplication by the slope below. -/
def leaky (a : EReal) : EReal := if 0 ≤ a then a else slope * a

/-- The same with the strict test. -/
def leakyStrict (a : EReal) : EReal := if 0 < a then a else slope * a

/-- The strict and the weak test give one function: they part only at a = 0, and slope * 0 = 0. -/
theorem act_strict_eq (a : EReal) : leakyStrict a = leaky a := by
  unfold leakyStrict leaky
  by_cases h : 0 < a
  · rw [if_pos h, if_pos h.le]
  · by_cases h0 : 0 ≤ a
    · obtain rfl : a = 0 := le_antisymm (not_lt.mp h) h0
      rw [if_neg h, if_pos h0, mul_zero]
    · rw [if_neg h, if_neg h0]

/-- A select on the comparison "a ≥ 0" between a and slope * a, as a program's element reads it at the ideal float values
    (the zero a single precision zero word), is the leaky rectifier. -/
theorem select_oge_eq_leaky (a : EReal) :
    Scalar.select (FloatOps.cmpf (F := Ideal) (φ := .f32) .oge a (Ideal.ofBits .f32 0x00000000#32)) a
        (Ideal.ofBits .f32 0x3C23D70A#32 * a) = leaky a := by
  rw [Ideal.cmpf_def, Ideal.ofBits_zero_f32]
  unfold Ideal.cmp Scalar.select leaky slope
  by_cases h : (0 : EReal) ≤ a
  · simp [h]
  · simp [h]

/-- The same select on the strict comparison "a > 0" is the strict rectifier … -/
theorem select_ogt_eq_leakyStrict (a : EReal) :
    Scalar.select (FloatOps.cmpf (F := Ideal) (φ := .f32) .ogt a (Ideal.ofBits .f32 0x00000000#32)) a
        (Ideal.ofBits .f32 0x3C23D70A#32 * a) = leakyStrict a := by
  rw [Ideal.cmpf_def, Ideal.ofBits_zero_f32]
  unfold Ideal.cmp Scalar.select leakyStrict slope
  by_cases h : (0 : EReal) < a
  · simp [h]
  · simp [h]

/-- … hence the leaky rectifier too. -/
theorem select_ogt_eq_leaky (a : EReal) :
    Scalar.select (FloatOps.cmpf (F := Ideal) (φ := .f32) .ogt a (Ideal.ofBits .f32 0x00000000#32)) a
        (Ideal.ofBits .f32 0x3C23D70A#32 * a) = leaky a :=
  (select_ogt_eq_leakyStrict a).trans (act_strict_eq a)

section Row
variable {D : ℕ}

/-- The pre-activation at output entry q: (x + hn) · W1[:, q] + b1[q] + (x * hn) · W2[:, q] + b2[q]. -/
def pre (x hn : Fin 64 → EReal) (W1 W2 : Fin 64 → Fin D → EReal) (b1 b2 : Fin D → EReal) (q : Fin D) : EReal :=
  ((∑ k, (x k + hn k) * W1 k q) + b1 q) + ((∑ k, (x k * hn k) * W2 k q) + b2 q)

/-- The rectified pre-activation. -/
def act (x hn : Fin 64 → EReal) (W1 W2 : Fin 64 → Fin D → EReal) (b1 b2 : Fin D → EReal) (q : Fin D) : EReal :=
  leaky (pre x hn W1 W2 b1 b2 q)

/-- The row's norm, floored: max (√(∑ q', act q' ²)) floor. -/
def rowNorm (x hn : Fin 64 → EReal) (W1 W2 : Fin 64 → Fin D → EReal) (b1 b2 : Fin D → EReal) : EReal :=
  max (Ideal.sqrt (∑ q' : Fin D, act x hn W1 W2 b1 b2 q' * act x hn W1 W2 b1 b2 q')) normFloor

/-- One entry of the layer's output row: the rectified pre-activation divided by the row's floored norm. -/
def rowLayer (x hn : Fin 64 → EReal) (W1 W2 : Fin 64 → Fin D → EReal) (b1 b2 : Fin D → EReal) (q : Fin D) : EReal :=
  Ideal.div (act x hn W1 W2 b1 b2 q) (rowNorm x hn W1 W2 b1 b2)

end Row

end Cert.Hand.LayerSpec

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.KI.LayerPay.lean ====
/-
  The vector unit's layer arithmetic on one tile of 5000 rows, read at one entry.

  The tile's result is one pure term: two products of the tile's rows with the weight matrices (of the sum and of the
  entrywise product of the features with the neighbour sums), each plus a bias row broadcast over the rows; a leaky
  rectifier with a strict test; and a division of each row by its Euclidean norm, computed as a lane sum of squares kept
  as a column, its square root, a floor, and a broadcast back over the lanes. The term is cut here into these three
  stages; each stage is read at entry (p, q), and the three readings compose to the row function of
  `Cert.Hand.LayerSpec`: entry (p, q) depends only on row p of the features and the neighbour sums.
-/
import proofs.«415617_j89146341196446_1_alg».proof.Proof.Gen.KernelIdeal.Skeleton
import proofs.«415617_j89146341196446_1_alg».proof.Proof.LayerSpec
import proofs.«415617_j89146341196446_1_alg».proof.Proof.LibPlainDot
import Idealize.ShloMosaic.Lib.ValueLayout

noncomputable section

open scoped BigOperators

namespace Cert.KernelIdeal.Hand

open Cert.KernelIdeal
open Idealize.ShloMosaic Idealize.ShloMosaic.ValueIdx
open Cert.Hand

variable [Facts]
open Facts₀ Facts

/-! ## Two layout readings at coordinates: a column made of a vector, and a column broadcast over the lanes -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The 64-wide layer -/

/-- Stage one: the pre-activation of the whole tile. -/
def kpre64 (v0 v2 : Vec Ideal S5000x64 .f32) (v6 v8 : Vec Ideal S64x64 .f32) (v12 v18 : Vec Ideal S1x64 .f32) :
    FVec Ideal S5000x64 .f32 :=
  addf
    (addf
      (matmul dot_S5000x64_S64x64_S5000x64_1_0_0_1_n_n none
        (truncf .bf16 (addf (shapeCast S5000x64 v0 shapeCasts_S5000x64_S5000x64) (shapeCast S5000x64 v2 shapeCasts_S5000x64_S5000x64))
          bitsLt_bf16_f32)
        (truncf .bf16 v6 bitsLt_bf16_f32) (constant S5000x64 .f32 0x00000000#32))
      (broadcastTo S5000x64 (shapeCast S1x64 v12 shapeCasts_S1x64_S1x64) broadcasts_S1x64_S5000x64))
    (addf
      (matmul dot_S5000x64_S64x64_S5000x64_1_0_0_1_n_n none
        (truncf .bf16 (mulf (shapeCast S5000x64 v0 shapeCasts_S5000x64_S5000x64) (shapeCast S5000x64 v2 shapeCasts_S5000x64_S5000x64))
          bitsLt_bf16_f32)
        (truncf .bf16 v8 bitsLt_bf16_f32) (constant S5000x64 .f32 0x00000000#32))
      (broadcastTo S5000x64 (shapeCast S1x64 v18 shapeCasts_S1x64_S1x64) broadcasts_S1x64_S5000x64))

/-- Stage two: the leaky rectifier with the strict test, on the whole tile. -/
def kact64 (x : FVec Ideal S5000x64 .f32) : FVec Ideal S5000x64 .f32 :=
  select (cmpf .ogt x (broadcast S5000x64 (Scalar.ofBits .f32 0x00000000#32))) x
    (mulf (broadcast S5000x64 (Scalar.ofBits .f32 0x3C23D70A#32)) x)

/-- Stage three: each row divided by its floored Euclidean norm. -/
def knorm64 (h : FVec Ideal S5000x64 .f32) : FVec Ideal S5000x64 .f32 :=
  divf h
    (broadcastTo S5000x64
      (maximumf
        (sqrt (shapeCast S5000x1
          (multiReduction .add [1] S5000 (mulf h h) 0x00000000#32 reduces_S5000x64_S5000 (.inl rfl) rfl)
          shapeCasts_S5000_S5000x1))
        (broadcast S5000x1 (Scalar.ofBits .f32 0x2B8CBCCC#32)))
      broadcasts_S5000x1_S5000x64)

/-- The tile's term is the three stages composed. -/
theorem k0_pay1_eq_stages (v0 v2 : Vec Ideal S5000x64 .f32) (v6 v8 : Vec Ideal S64x64 .f32) (v12 v18 : Vec Ideal S1x64 .f32) :
    Gen.k0_pay1 (F := Ideal) v0 v2 v6 v8 v12 v18 = knorm64 (kact64 (kpre64 v0 v2 v6 v8 v12 v18)) := rfl

/-- Stage one at (p, q): the row function's pre-activation of row p. The two products are sums over the 64 features
    (the narrowing of the operands is the identity on extended reals); each bias row is read at its one row. -/
theorem kpre64_apply (v0 v2 : Vec Ideal S5000x64 .f32) (v6 v8 : Vec Ideal S64x64 .f32) (v12 v18 : Vec Ideal S1x64 .f32)
    (p : Fin 5000) (q : Fin 64) :
    kpre64 v0 v2 v6 v8 v12 v18 (ix2 p q)
      = LayerSpec.pre (fun k => v0 (ix2 p k)) (fun k => v2 (ix2 p k)) (fun k q' => v6 (ix2 k q')) (fun k q' => v8 (ix2 k q'))
          (fun q' => v12 (ix2 0 q')) (fun q' => v18 (ix2 0 q')) q := by
  unfold kpre64 LayerSpec.pre
  rw [shapeCast_self v0, shapeCast_self v2, shapeCast_self v12, shapeCast_self v18]
  refine congrArg₂ (· + ·) (congrArg₂ (· + ·) ?_ ?_) (congrArg₂ (· + ·) ?_ ?_)
  · exact LibPlainDot.matmul_zero_apply dot_S5000x64_S64x64_S5000x64_1_0_0_1_n_n_wf none _ _ p q
  · exact broadcastTo_1b_ab_apply v12 _ p q
  · exact LibPlainDot.matmul_zero_apply dot_S5000x64_S64x64_S5000x64_1_0_0_1_n_n_wf none _ _ p q
  · exact broadcastTo_1b_ab_apply v18 _ p q

/-- Stage two at an entry: the leaky rectifier (the strict test and the weak one are one function). -/
theorem kact64_apply (x : FVec Ideal S5000x64 .f32) (j : S5000x64.Idx) : kact64 x j = LayerSpec.leaky (x j) :=
  LayerSpec.select_ogt_eq_leaky (x j)

/-- The lane sum's inserted index: row p with lane k put back is (p, k). -/
theorem lift64_ix (p : Fin 5000) (k : Fin 64) : reduces_S5000x64_S5000.lift (ix1 p) k = ix2 p k :=
  funext fun a => Fin.ext (by match a with | ⟨0, _⟩ => rfl | ⟨1, _⟩ => rfl)

/-- Stage three at (p, q): the entry divided by the floored norm of row p. The lane sum of the squares is kept as a
    column, rooted, floored, and read back at every lane of the row. -/
theorem knorm64_apply (h : FVec Ideal S5000x64 .f32) (p : Fin 5000) (q : Fin 64) :
    knorm64 h (ix2 p q)
      = Ideal.div (h (ix2 p q)) (max (Ideal.sqrt (∑ k : Fin 64, h (ix2 p k) * h (ix2 p k))) LayerSpec.normFloor) := by
  unfold knorm64
  refine congrArg (Ideal.div (h (ix2 p q))) ?_
  refine (broadcastTo_a1_ab_apply _ _ p q).trans ?_
  refine congrArg (fun t => max (Ideal.sqrt t) LayerSpec.normFloor) ?_
  refine (shapeCast_a_a1_apply _ _ p 0).trans ?_
  refine (Ideal.multiReduction_add_single (mulf h h) 0x00000000#32 reduces_S5000x64_S5000 (.inl rfl) rfl (ix1 p)).trans ?_
  exact Finset.sum_congr rfl fun k _ => congrArg (fun i => h i * h i) (lift64_ix p k)

/-- THE 64-WIDE TILE AT (p, q): the row function of row p of the features and the neighbour sums. -/
theorem k0_pay1_apply (v0 v2 : Vec Ideal S5000x64 .f32) (v6 v8 : Vec Ideal S64x64 .f32) (v12 v18 : Vec Ideal S1x64 .f32)
    (p : Fin 5000) (q : Fin 64) :
    Gen.k0_pay1 (F := Ideal) v0 v2 v6 v8 v12 v18 (ix2 p q)
      = LayerSpec.rowLayer (fun k => v0 (ix2 p k)) (fun k => v2 (ix2 p k)) (fun k q' => v6 (ix2 k q')) (fun k q' => v8 (ix2 k q'))
          (fun q' => v12 (ix2 0 q')) (fun q' => v18 (ix2 0 q')) q := by
  rw [k0_pay1_eq_stages, knorm64_apply]
  unfold LayerSpec.rowLayer LayerSpec.rowNorm LayerSpec.act
  simp only [kact64_apply, kpre64_apply]

/-! ## The 32-wide layer -/

/-- Stage one: the pre-activation of the whole tile. -/
def kpre32 (v0 v2 : Vec Ideal S5000x64 .f32) (v6 v8 : Vec Ideal S64x32 .f32) (v12 v18 : Vec Ideal S1x32 .f32) :
    FVec Ideal S5000x32 .f32 :=
  addf
    (addf
      (matmul dot_S5000x64_S64x32_S5000x32_1_0_0_1_n_n none
        (truncf .bf16 (addf (shapeCast S5000x64 v0 shapeCasts_S5000x64_S5000x64) (shapeCast S5000x64 v2 shapeCasts_S5000x64_S5000x64))
          bitsLt_bf16_f32)
        (truncf .bf16 v6 bitsLt_bf16_f32) (constant S5000x32 .f32 0x00000000#32))
      (broadcastTo S5000x32 (shapeCast S1x32 v12 shapeCasts_S1x32_S1x32) broadcasts_S1x32_S5000x32))
    (addf
      (matmul dot_S5000x64_S64x32_S5000x32_1_0_0_1_n_n none
        (truncf .bf16 (mulf (shapeCast S5000x64 v0 shapeCasts_S5000x64_S5000x64) (shapeCast S5000x64 v2 shapeCasts_S5000x64_S5000x64))
          bitsLt_bf16_f32)
        (truncf .bf16 v8 bitsLt_bf16_f32) (constant S5000x32 .f32 0x00000000#32))
      (broadcastTo S5000x32 (shapeCast S1x32 v18 shapeCasts_S1x32_S1x32) broadcasts_S1x32_S5000x32))

/-- Stage two: the leaky rectifier with the strict test, on the whole tile. -/
def kact32 (x : FVec Ideal S5000x32 .f32) : FVec Ideal S5000x32 .f32 :=
  select (cmpf .ogt x (broadcast S5000x32 (Scalar.ofBits .f32 0x00000000#32))) x
    (mulf (broadcast S5000x32 (Scalar.ofBits .f32 0x3C23D70A#32)) x)

/-- Stage three: each row divided by its floored Euclidean norm. -/
def knorm32 (h : FVec Ideal S5000x32 .f32) : FVec Ideal S5000x32 .f32 :=
  divf h
    (broadcastTo S5000x32
      (maximumf
        (sqrt (shapeCast S5000x1
          (multiReduction .add [1] S5000 (mulf h h) 0x00000000#32 reduces_S5000x32_S5000 (.inl rfl) rfl)
          shapeCasts_S5000_S5000x1))
        (broadcast S5000x1 (Scalar.ofBits .f32 0x2B8CBCCC#32)))
      broadcasts_S5000x1_S5000x32)

/-- The tile's term is the three stages composed. -/
theorem k1_pay1_eq_stages (v0 v2 : Vec Ideal S5000x64 .f32) (v6 v8 : Vec Ideal S64x32 .f32) (v12 v18 : Vec Ideal S1x32 .f32) :
    Gen.k1_pay1 (F := Ideal) v0 v2 v6 v8 v12 v18 = knorm32 (kact32 (kpre32 v0 v2 v6 v8 v12 v18)) := rfl

/-- Stage one at (p, q): the row function's pre-activation of row p. The two products are sums over the 64 features
    (the narrowing of the operands is the identity on extended reals); each bias row is read at its one row. -/
theorem kpre32_apply (v0 v2 : Vec Ideal S5000x64 .f32) (v6 v8 : Vec Ideal S64x32 .f32) (v12 v18 : Vec Ideal S1x32 .f32)
    (p : Fin 5000) (q : Fin 32) :
    kpre32 v0 v2 v6 v8 v12 v18 (ix2 p q)
      = LayerSpec.pre (fun k => v0 (ix2 p k)) (fun k => v2 (ix2 p k)) (fun k q' => v6 (ix2 k q')) (fun k q' => v8 (ix2 k q'))
          (fun q' => v12 (ix2 0 q')) (fun q' => v18 (ix2 0 q')) q := by
  unfold kpre32 LayerSpec.pre
  rw [shapeCast_self v0, shapeCast_self v2, shapeCast_self v12, shapeCast_self v18]
  refine congrArg₂ (· + ·) (congrArg₂ (· + ·) ?_ ?_) (congrArg₂ (· + ·) ?_ ?_)
  · exact LibPlainDot.matmul_zero_apply dot_S5000x64_S64x32_S5000x32_1_0_0_1_n_n_wf none _ _ p q
  · exact broadcastTo_1b_ab_apply v12 _ p q
  · exact LibPlainDot.matmul_zero_apply dot_S5000x64_S64x32_S5000x32_1_0_0_1_n_n_wf none _ _ p q
  · exact broadcastTo_1b_ab_apply v18 _ p q

/-- Stage two at an entry: the leaky rectifier (the strict test and the weak one are one function). -/
theorem kact32_apply (x : FVec Ideal S5000x32 .f32) (j : S5000x32.Idx) : kact32 x j = LayerSpec.leaky (x j) :=
  LayerSpec.select_ogt_eq_leaky (x j)

/-- The lane sum's inserted index: row p with lane k put back is (p, k). -/
theorem lift32_ix (p : Fin 5000) (k : Fin 32) : reduces_S5000x32_S5000.lift (ix1 p) k = ix2 p k :=
  funext fun a => Fin.ext (by match a with | ⟨0, _⟩ => rfl | ⟨1, _⟩ => rfl)

/-- Stage three at (p, q): the entry divided by the floored norm of row p. The lane sum of the squares is kept as a
    column, rooted, floored, and read back at every lane of the row. -/
theorem knorm32_apply (h : FVec Ideal S5000x32 .f32) (p : Fin 5000) (q : Fin 32) :
    knorm32 h (ix2 p q)
      = Ideal.div (h (ix2 p q)) (max (Ideal.sqrt (∑ k : Fin 32, h (ix2 p k) * h (ix2 p k))) LayerSpec.normFloor) := by
  unfold knorm32
  refine congrArg (Ideal.div (h (ix2 p q))) ?_
  refine (broadcastTo_a1_ab_apply _ _ p q).trans ?_
  refine congrArg (fun t => max (Ideal.sqrt t) LayerSpec.normFloor) ?_
  refine (shapeCast_a_a1_apply _ _ p 0).trans ?_
  refine (Ideal.multiReduction_add_single (mulf h h) 0x00000000#32 reduces_S5000x32_S5000 (.inl rfl) rfl (ix1 p)).trans ?_
  exact Finset.sum_congr rfl fun k _ => congrArg (fun i => h i * h i) (lift32_ix p k)

/-- THE 32-WIDE TILE AT (p, q): the row function of row p of the features and the neighbour sums. -/
theorem k1_pay1_apply (v0 v2 : Vec Ideal S5000x64 .f32) (v6 v8 : Vec Ideal S64x32 .f32) (v12 v18 : Vec Ideal S1x32 .f32)
    (p : Fin 5000) (q : Fin 32) :
    Gen.k1_pay1 (F := Ideal) v0 v2 v6 v8 v12 v18 (ix2 p q)
      = LayerSpec.rowLayer (fun k => v0 (ix2 p k)) (fun k => v2 (ix2 p k)) (fun k q' => v6 (ix2 k q')) (fun k q' => v8 (ix2 k q'))
          (fun q' => v12 (ix2 0 q')) (fun q' => v18 (ix2 0 q')) q := by
  rw [k1_pay1_eq_stages, knorm32_apply]
  unfold LayerSpec.rowLayer LayerSpec.rowNorm LayerSpec.act
  simp only [kact32_apply, kpre32_apply]

end Cert.KernelIdeal.Hand

end
-- ==== Proof.Ref.LayerRef.lean ====
/-
  The reference's graph layer read at one entry.

  The layer is the host's own operations composed: two products of the node table with the weight matrices (of the sum
  and of the entrywise product of the features with the neighbour sums), each plus a bias vector made a row and laid over
  all rows; a leaky rectifier with the test ≥ 0; and a division of each row by its Euclidean norm, computed as a row sum of
  squares from the zero literal, kept as a column, its square root, a floor, and the column laid over the row's entries.
  Each stage is read at entry (r, q), and the readings compose to the row function of `Cert.Hand.LayerSpec`: entry
  (r, q) depends only on row r of the features and the neighbour sums.
-/
import proofs.«415617_j89146341196446_1_alg».proof.Proof.Ref.Stages
import proofs.«415617_j89146341196446_1_alg».proof.Proof.LayerSpec
import proofs.«415617_j89146341196446_1_alg».proof.Proof.LibPlainDot
import Idealize.ShloMosaic.Lib.ValueLayout

noncomputable section

open scoped BigOperators

namespace Cert.ReferenceIdeal.Hand

open Cert.ReferenceIdeal
open Idealize.ShloMosaic Idealize.ShloMosaic.ValueIdx
open Cert.Hand

variable [Facts]
open Facts₀ Facts

/-! ## Four readings of a broadcast along named axes, at coordinates -/

section Layout
variable {α : Type}

/-- A `[b]` array laid along axis 1 of `[1, b]` reads, at `(u, c)`, the operand at `c`. -/
theorem bcast_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` array laid over `[a, b]` reads, at `(p, c)`, the operand's one row at `c`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- An `[a]` array laid along axis 0 of `[a, 1]` reads, at `(p, u)`, the operand at `p`. -/
theorem bcast_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` array laid over `[a, b]` reads, at `(p, c)`, the operand's one column at `p`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The host's pointwise operations at an index, at the ideal float values (definitional) -/

section Pointwise
variable {s : Shape} {φ : FTy}

/-- The host's quotient at an index is the ideal division of the elements. -/
theorem hostDivf_apply (a b : FVec Ideal s φ) (i : s.Idx) : Host.divf a b i = Ideal.div (a i) (b i) := rfl

/-- The host's square root at an index is the ideal square root of the element. -/
theorem hostSqrt_apply (a : FVec Ideal s φ) (i : s.Idx) : Host.sqrt a i = Ideal.sqrt (a i) := rfl

/-- A scalar constant laid over any shape reads the extended real its word denotes. -/
theorem bcast_const_apply (h : (⟨0, ![]⟩ : Shape).BroadcastsInDim s (![] : Fin 0 → Fin s.rank)) (b : BitVec 32) (i : s.Idx) :
    broadcastInDim s ![] h (constant (F := Ideal) ⟨0, ![]⟩ .f32 b) i = Ideal.ofBits .f32 b := rfl

end Pointwise

/-! ## The 64-wide layer -/

/-- The pre-activation of the whole table: the term the rectifier of `act64` is applied to. -/
def rpre64 (feats hn : FVec Ideal S100000x64 .f32) (W1 : FVec Ideal S64x64 .f32) (b1 : FVec Ideal S64 .f32)
    (W2 : FVec Ideal S64x64 .f32) (b2 : FVec Ideal S64 .f32) : FVec Ideal S100000x64 .f32 :=
  addf (addf (Host.dotGeneral dot_S100000x64_S64x64_S100000x64_1_0_0_1_n_n none (addf feats hn) W1)
          (broadcastInDim S100000x64 ![0, 1] bcast_S1x64_S100000x64_0_1 (broadcastInDim S1x64 ![1] bcast_S64_S1x64_1 b1)))
       (addf (Host.dotGeneral dot_S100000x64_S64x64_S100000x64_1_0_0_1_n_n none (mulf feats hn) W2)
          (broadcastInDim S100000x64 ![0, 1] bcast_S1x64_S100000x64_0_1 (broadcastInDim S1x64 ![1] bcast_S64_S1x64_1 b2)))

/-- The division of each row of a table by its floored Euclidean norm: the term `layer64` applies to `act64`. -/
def rnorm64 (h : FVec Ideal S100000x64 .f32) : FVec Ideal S100000x64 .f32 :=
  Host.divf h (broadcastInDim S100000x64 ![0, 1] bcast_S100000x1_S100000x64_0_1
    (maximumf (Host.sqrt (broadcastInDim S100000x1 ![0] bcast_S100000_S100000x1_0
        (Host.reduceAdd (mulf h h) (constant S_ .f32 0x00000000#32) reducesTo_S100000x64_S100000_d1 h_S_)))
      (broadcastInDim S100000x1 ![] bcast_S_S100000x1 (constant S_ .f32 0x2B8CBCCC#32))))

/-- The layer is the norm division of the rectified pre-activation. -/
theorem layer64_eq_stages (feats hn : FVec Ideal S100000x64 .f32) (W1 : FVec Ideal S64x64 .f32) (b1 : FVec Ideal S64 .f32)
    (W2 : FVec Ideal S64x64 .f32) (b2 : FVec Ideal S64 .f32) :
    layer64 (F := Ideal) feats hn W1 b1 W2 b2 = rnorm64 (act64 (F := Ideal) feats hn W1 b1 W2 b2) := rfl

/-- The pre-activation at (r, q): the row function's pre-activation of row r. The two products are sums over the 64
    features; each bias vector, made a row and laid over the table's rows, is read at q. -/
theorem rpre64_apply (feats hn : FVec Ideal S100000x64 .f32) (W1 : FVec Ideal S64x64 .f32) (b1 : FVec Ideal S64 .f32)
    (W2 : FVec Ideal S64x64 .f32) (b2 : FVec Ideal S64 .f32) (r : Fin 100000) (q : Fin 64) :
    rpre64 feats hn W1 b1 W2 b2 (ix2 r q)
      = LayerSpec.pre (fun k => feats (ix2 r k)) (fun k => hn (ix2 r k)) (fun k q' => W1 (ix2 k q')) (fun k q' => W2 (ix2 k q'))
          (fun q' => b1 (ix1 q')) (fun q' => b2 (ix1 q')) q := by
  unfold rpre64 LayerSpec.pre
  refine congrArg₂ (· + ·) (congrArg₂ (· + ·) ?_ ?_) (congrArg₂ (· + ·) ?_ ?_)
  · exact LibPlainDot.dotGeneral_apply dot_S100000x64_S64x64_S100000x64_1_0_0_1_n_n_wf none .single _ _ r q
  · exact (bcast_1b_ab_apply _ _ r q).trans (bcast_b_1b_apply b1 _ 0 q)
  · exact LibPlainDot.dotGeneral_apply dot_S100000x64_S64x64_S100000x64_1_0_0_1_n_n_wf none .single _ _ r q
  · exact (bcast_1b_ab_apply _ _ r q).trans (bcast_b_1b_apply b2 _ 0 q)

/-- The rectified pre-activation at (r, q). -/
theorem act64_apply (feats hn : FVec Ideal S100000x64 .f32) (W1 : FVec Ideal S64x64 .f32) (b1 : FVec Ideal S64 .f32)
    (W2 : FVec Ideal S64x64 .f32) (b2 : FVec Ideal S64 .f32) (r : Fin 100000) (q : Fin 64) :
    act64 (F := Ideal) feats hn W1 b1 W2 b2 (ix2 r q)
      = LayerSpec.act (fun k => feats (ix2 r k)) (fun k => hn (ix2 r k)) (fun k q' => W1 (ix2 k q')) (fun k q' => W2 (ix2 k q'))
          (fun q' => b1 (ix1 q')) (fun q' => b2 (ix1 q')) q :=
  (LayerSpec.select_oge_eq_leaky (rpre64 feats hn W1 b1 W2 b2 (ix2 r q))).trans
    (congrArg LayerSpec.leaky (rpre64_apply feats hn W1 b1 W2 b2 r q))

/-- The shape fact of the row sum in the form that names the inserted index. -/
theorem reduces64 : S100000x64.Reduces [1] S100000 :=
  ⟨reducesTo_S100000x64_S100000_d1.1, Nat.one_pos, reducesTo_S100000x64_S100000_d1.2⟩

/-- The row sum's inserted index: row r with column k put back is (r, k). -/
theorem rlift64_ix (r : Fin 100000) (k : Fin 64) : reduces64.lift (ix1 r) k = ix2 r k :=
  funext fun a => Fin.ext (by match a with | ⟨0, _⟩ => rfl | ⟨1, _⟩ => rfl)

/-- The norm division at (r, q): the entry divided by the floored norm of row r. The row sum starts from the zero
    literal, which adds nothing. -/
theorem rnorm64_apply (h : FVec Ideal S100000x64 .f32) (r : Fin 100000) (q : Fin 64) :
    rnorm64 h (ix2 r q)
      = Ideal.div (h (ix2 r q)) (max (Ideal.sqrt (∑ k : Fin 64, h (ix2 r k) * h (ix2 r k))) LayerSpec.normFloor) := by
  unfold rnorm64
  refine (hostDivf_apply _ _ _).trans (congrArg (Ideal.div (h (ix2 r q))) ?_)
  refine (bcast_a1_ab_apply _ _ r q).trans ?_
  refine (maximumf_apply _ _ _).trans (congrArg₂ max ?_ (bcast_const_apply _ _ _))
  refine (hostSqrt_apply _ _).trans (congrArg Ideal.sqrt ?_)
  refine (bcast_a_a1_apply _ _ r 0).trans ?_
  refine (Ideal.hostReduceAdd_single reducesTo_S100000x64_S100000_d1 reduces64 (mulf h h) (Ideal.ofBits .f32 0x00000000#32) (ix1 r)).trans ?_
  rw [Ideal.ofBits_zero_f32, zero_add]
  exact Finset.sum_congr rfl fun k _ => congrArg (fun i => h i * h i) (rlift64_ix r k)

/-- THE 64-WIDE LAYER AT (r, q): the row function of row r of the features and the neighbour sums. -/
theorem layer64_apply (feats hn : FVec Ideal S100000x64 .f32) (W1 : FVec Ideal S64x64 .f32) (b1 : FVec Ideal S64 .f32)
    (W2 : FVec Ideal S64x64 .f32) (b2 : FVec Ideal S64 .f32) (r : Fin 100000) (q : Fin 64) :
    layer64 (F := Ideal) feats hn W1 b1 W2 b2 (ix2 r q)
      = LayerSpec.rowLayer (fun k => feats (ix2 r k)) (fun k => hn (ix2 r k)) (fun k q' => W1 (ix2 k q')) (fun k q' => W2 (ix2 k q'))
          (fun q' => b1 (ix1 q')) (fun q' => b2 (ix1 q')) q := by
  rw [layer64_eq_stages, rnorm64_apply]
  unfold LayerSpec.rowLayer LayerSpec.rowNorm
  simp only [act64_apply]

/-! ## The 32-wide layer -/

/-- The pre-activation of the whole table: the term the rectifier of `act32` is applied to. -/
def rpre32 (feats hn : FVec Ideal S100000x64 .f32) (W1 : FVec Ideal S64x32 .f32) (b1 : FVec Ideal S32 .f32)
    (W2 : FVec Ideal S64x32 .f32) (b2 : FVec Ideal S32 .f32) : FVec Ideal S100000x32 .f32 :=
  addf (addf (Host.dotGeneral dot_S100000x64_S64x32_S100000x32_1_0_0_1_n_n none (addf feats hn) W1)
          (broadcastInDim S100000x32 ![0, 1] bcast_S1x32_S100000x32_0_1 (broadcastInDim S1x32 ![1] bcast_S32_S1x32_1 b1)))
       (addf (Host.dotGeneral dot_S100000x64_S64x32_S100000x32_1_0_0_1_n_n none (mulf feats hn) W2)
          (broadcastInDim S100000x32 ![0, 1] bcast_S1x32_S100000x32_0_1 (broadcastInDim S1x32 ![1] bcast_S32_S1x32_1 b2)))

/-- The division of each row of a table by its floored Euclidean norm: the term `layer32` applies to `act32`. -/
def rnorm32 (h : FVec Ideal S100000x32 .f32) : FVec Ideal S100000x32 .f32 :=
  Host.divf h (broadcastInDim S100000x32 ![0, 1] bcast_S100000x1_S100000x32_0_1
    (maximumf (Host.sqrt (broadcastInDim S100000x1 ![0] bcast_S100000_S100000x1_0
        (Host.reduceAdd (mulf h h) (constant S_ .f32 0x00000000#32) reducesTo_S100000x32_S100000_d1 h_S_)))
      (broadcastInDim S100000x1 ![] bcast_S_S100000x1 (constant S_ .f32 0x2B8CBCCC#32))))

/-- The layer is the norm division of the rectified pre-activation. -/
theorem layer32_eq_stages (feats hn : FVec Ideal S100000x64 .f32) (W1 : FVec Ideal S64x32 .f32) (b1 : FVec Ideal S32 .f32)
    (W2 : FVec Ideal S64x32 .f32) (b2 : FVec Ideal S32 .f32) :
    layer32 (F := Ideal) feats hn W1 b1 W2 b2 = rnorm32 (act32 (F := Ideal) feats hn W1 b1 W2 b2) := rfl

/-- The pre-activation at (r, q): the row function's pre-activation of row r. The two products are sums over the 64
    features; each bias vector, made a row and laid over the table's rows, is read at q. -/
theorem rpre32_apply (feats hn : FVec Ideal S100000x64 .f32) (W1 : FVec Ideal S64x32 .f32) (b1 : FVec Ideal S32 .f32)
    (W2 : FVec Ideal S64x32 .f32) (b2 : FVec Ideal S32 .f32) (r : Fin 100000) (q : Fin 32) :
    rpre32 feats hn W1 b1 W2 b2 (ix2 r q)
      = LayerSpec.pre (fun k => feats (ix2 r k)) (fun k => hn (ix2 r k)) (fun k q' => W1 (ix2 k q')) (fun k q' => W2 (ix2 k q'))
          (fun q' => b1 (ix1 q')) (fun q' => b2 (ix1 q')) q := by
  unfold rpre32 LayerSpec.pre
  refine congrArg₂ (· + ·) (congrArg₂ (· + ·) ?_ ?_) (congrArg₂ (· + ·) ?_ ?_)
  · exact LibPlainDot.dotGeneral_apply dot_S100000x64_S64x32_S100000x32_1_0_0_1_n_n_wf none .single _ _ r q
  · exact (bcast_1b_ab_apply _ _ r q).trans (bcast_b_1b_apply b1 _ 0 q)
  · exact LibPlainDot.dotGeneral_apply dot_S100000x64_S64x32_S100000x32_1_0_0_1_n_n_wf none .single _ _ r q
  · exact (bcast_1b_ab_apply _ _ r q).trans (bcast_b_1b_apply b2 _ 0 q)

/-- The rectified pre-activation at (r, q). -/
theorem act32_apply (feats hn : FVec Ideal S100000x64 .f32) (W1 : FVec Ideal S64x32 .f32) (b1 : FVec Ideal S32 .f32)
    (W2 : FVec Ideal S64x32 .f32) (b2 : FVec Ideal S32 .f32) (r : Fin 100000) (q : Fin 32) :
    act32 (F := Ideal) feats hn W1 b1 W2 b2 (ix2 r q)
      = LayerSpec.act (fun k => feats (ix2 r k)) (fun k => hn (ix2 r k)) (fun k q' => W1 (ix2 k q')) (fun k q' => W2 (ix2 k q'))
          (fun q' => b1 (ix1 q')) (fun q' => b2 (ix1 q')) q :=
  (LayerSpec.select_oge_eq_leaky (rpre32 feats hn W1 b1 W2 b2 (ix2 r q))).trans
    (congrArg LayerSpec.leaky (rpre32_apply feats hn W1 b1 W2 b2 r q))

/-- The shape fact of the row sum in the form that names the inserted index. -/
theorem reduces32 : S100000x32.Reduces [1] S100000 :=
  ⟨reducesTo_S100000x32_S100000_d1.1, Nat.one_pos, reducesTo_S100000x32_S100000_d1.2⟩

/-- The row sum's inserted index: row r with column k put back is (r, k). -/
theorem rlift32_ix (r : Fin 100000) (k : Fin 32) : reduces32.lift (ix1 r) k = ix2 r k :=
  funext fun a => Fin.ext (by match a with | ⟨0, _⟩ => rfl | ⟨1, _⟩ => rfl)

/-- The norm division at (r, q): the entry divided by the floored norm of row r. The row sum starts from the zero
    literal, which adds nothing. -/
theorem rnorm32_apply (h : FVec Ideal S100000x32 .f32) (r : Fin 100000) (q : Fin 32) :
    rnorm32 h (ix2 r q)
      = Ideal.div (h (ix2 r q)) (max (Ideal.sqrt (∑ k : Fin 32, h (ix2 r k) * h (ix2 r k))) LayerSpec.normFloor) := by
  unfold rnorm32
  refine (hostDivf_apply _ _ _).trans (congrArg (Ideal.div (h (ix2 r q))) ?_)
  refine (bcast_a1_ab_apply _ _ r q).trans ?_
  refine (maximumf_apply _ _ _).trans (congrArg₂ max ?_ (bcast_const_apply _ _ _))
  refine (hostSqrt_apply _ _).trans (congrArg Ideal.sqrt ?_)
  refine (bcast_a_a1_apply _ _ r 0).trans ?_
  refine (Ideal.hostReduceAdd_single reducesTo_S100000x32_S100000_d1 reduces32 (mulf h h) (Ideal.ofBits .f32 0x00000000#32) (ix1 r)).trans ?_
  rw [Ideal.ofBits_zero_f32, zero_add]
  exact Finset.sum_congr rfl fun k _ => congrArg (fun i => h i * h i) (rlift32_ix r k)

/-- THE 32-WIDE LAYER AT (r, q): the row function of row r of the features and the neighbour sums. -/
theorem layer32_apply (feats hn : FVec Ideal S100000x64 .f32) (W1 : FVec Ideal S64x32 .f32) (b1 : FVec Ideal S32 .f32)
    (W2 : FVec Ideal S64x32 .f32) (b2 : FVec Ideal S32 .f32) (r : Fin 100000) (q : Fin 32) :
    layer32 (F := Ideal) feats hn W1 b1 W2 b2 (ix2 r q)
      = LayerSpec.rowLayer (fun k => feats (ix2 r k)) (fun k => hn (ix2 r k)) (fun k q' => W1 (ix2 k q')) (fun k q' => W2 (ix2 k q'))
          (fun q' => b1 (ix1 q')) (fun q' => b2 (ix1 q')) q := by
  rw [layer32_eq_stages, rnorm32_apply]
  unfold LayerSpec.rowLayer LayerSpec.rowNorm
  simp only [act32_apply]

end Cert.ReferenceIdeal.Hand

end
-- ==== Proof.Bridge.LayerCongr.lean ====
/-
  The layer's row function depends on its six arguments only through their values: two argument lists that agree entry
  by entry give the same output entry. (Used to replace, inside the row function, a program's blocks by the arrays they
  are read from.)
-/
import proofs.«415617_j89146341196446_1_alg».proof.Proof.LayerSpec

noncomputable section

namespace Cert.Hand.Bridge

open Cert.Hand

/-- Entrywise equal arguments give equal entries of the layer's output row. -/
theorem rowLayer_congr {D : ℕ} {x x' hn hn' : Fin 64 → EReal} {W1 W1' W2 W2' : Fin 64 → Fin D → EReal}
    {b1 b1' b2 b2' : Fin D → EReal}
    (hx : ∀ k, x k = x' k) (hh : ∀ k, hn k = hn' k) (hW1 : ∀ k q, W1 k q = W1' k q) (hW2 : ∀ k q, W2 k q = W2' k q)
    (hb1 : ∀ q, b1 q = b1' q) (hb2 : ∀ q, b2 q = b2' q) (q : Fin D) :
    LayerSpec.rowLayer x hn W1 W2 b1 b2 q = LayerSpec.rowLayer x' hn' W1' W2' b1' b2' q := by
  obtain rfl : x = x' := funext hx
  obtain rfl : hn = hn' := funext hh
  obtain rfl : W1 = W1' := funext fun k => funext (hW1 k)
  obtain rfl : W2 = W2' := funext fun k => funext (hW2 k)
  obtain rfl : b1 = b1' := funext hb1
  obtain rfl : b2 = b2' := funext hb2
  rfl

end Cert.Hand.Bridge

end
-- ==== Proof.Bridge.LayerVal0.lean ====
/-
  The first graph layer's result array, as the idealized kernel program leaves it, is the reference's 64-wide layer of
  the arrays the region reads.

  The region's output array is assembled from twenty row tiles. On tile t the body's value at (p, q) is the layer's row
  function of row p of the tile's blocks; the two row-tiled blocks are rows 5000·t … of the features and of the neighbour
  sums, the weight blocks are the whole weight matrices, and each bias block is the bias vector made a one-row matrix, so
  its entry (0, q) is the vector's entry q. The reference's layer at (5000·t + p, q) is the same row function of the same
  rows. Hence the assembled array is the reference's layer.
-/
import proofs.«415617_j89146341196446_1_alg».proof.Proof.KI.Final0
import proofs.«415617_j89146341196446_1_alg».proof.Proof.KI.LayerPay
import proofs.«415617_j89146341196446_1_alg».proof.Proof.Ref.LayerRef
import proofs.«415617_j89146341196446_1_alg».proof.Proof.Gen.KernelIdeal
import proofs.«415617_j89146341196446_1_alg».proof.Proof.Gen.ReferenceIdeal
import proofs.«415617_j89146341196446_1_alg».proof.Proof.Bridge.LayerCongr
import Idealize.ShloMosaic.Lib.ValueLayout

set_option maxRecDepth 16384

noncomputable section

namespace Cert.Hand.Bridge

open Idealize.ShloMosaic Idealize.ShloMosaic.TcCoe Idealize.ShloMosaic.ValueIdx Idealize.SL.Sem

/-- THE 64-WIDE LAYER'S ARRAY: when the region's six input arrays hold the features, the neighbour sums, the two weight
    matrices and the two bias vectors made rows, its output array ends holding the reference's layer of them. -/
theorem layer64_value
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD)
    (feats hn : FVec Ideal Cert.KernelIdeal.S100000x64 .f32) (W1 W2 : FVec Ideal Cert.KernelIdeal.S64x64 .f32)
    (b1 b2 : FVec Ideal Cert.KernelIdeal.S64 .f32)
    (h0 : V c Cert.KernelIdeal.main_v0 = feats) (h1 : V c Cert.KernelIdeal.main_v7 = hn)
    (h2 : V c Cert.KernelIdeal.main_arg5 = W1)
    (h3 : V c Cert.KernelIdeal.main_v8 = shapeCast Cert.KernelIdeal.S1x64 b1 Cert.KernelIdeal.Gen.shapeCasts_S64_S1x64)
    (h4 : V c Cert.KernelIdeal.main_arg7 = W2)
    (h5 : V c Cert.KernelIdeal.main_v9 = shapeCast Cert.KernelIdeal.S1x64 b2 Cert.KernelIdeal.Gen.shapeCasts_S64_S1x64) :
    (Cert.KernelIdeal.Hand.dat0 V c).arrAt 6 Cert.KernelIdeal.cfg0.N
      = Cert.ReferenceIdeal.Hand.layer64 feats hn W1 b1 W2 b2 := by
  refine Cert.KernelIdeal.Hand.final0_of V c (Cert.ReferenceIdeal.Hand.layer64 feats hn W1 b1 W2 b2) fun t p q => ?_
  refine (Cert.KernelIdeal.Hand.k0_pay1_apply _ _ _ _ _ _ p q).trans ?_
  refine Eq.trans ?_ (Cert.ReferenceIdeal.Hand.layer64_apply feats hn W1 b1 W2 b2
    ⟨5000 * t.val + p.val, Cert.KernelIdeal.Hand.row_lt0 t p⟩ q).symm
  refine rowLayer_congr (fun k => ?_) (fun k => ?_) (fun k q' => ?_) (fun k q' => ?_) (fun q' => ?_) (fun q' => ?_) q
  · exact (Cert.KernelIdeal.Hand.blk0_0 V c t p k).trans (congrFun h0 _)
  · exact (Cert.KernelIdeal.Hand.blk0_1 V c t p k).trans (congrFun h1 _)
  · exact (Cert.KernelIdeal.Hand.blk0_2 V c t k q').trans (congrFun h2 _)
  · exact (Cert.KernelIdeal.Hand.blk0_4 V c t k q').trans (congrFun h4 _)
  · exact (Cert.KernelIdeal.Hand.blk0_3 V c t 0 q').trans ((congrFun h3 _).trans (shapeCast_a_1a_apply b1 _ 0 q'))
  · exact (Cert.KernelIdeal.Hand.blk0_5 V c t 0 q').trans ((congrFun h5 _).trans (shapeCast_a_1a_apply b2 _ 0 q'))

end Cert.Hand.Bridge

end
-- ==== Proof.KI.Final1.lean ====
/-
  Region 1 of the idealized kernel program, from blocks to whole arrays. The grid has 20 points; at point t the two
  row-tiled input windows (the features and the neighbour sums) hold rows 5000·t … 5000·t + 4999 of their [100000,64]
  arrays, the four parameter windows (two weight matrices, two bias rows) hold their whole arrays at every point, and
  the output window's block is rows 5000·t … 5000·t + 4999 of the result. So a row-tile entry (p, k) is the array entry
  (5000·t + p, k) and a parameter block entry is the parameter's entry; and if the body's payload on the six blocks at
  point t, read at (p, q), is G at (5000·t + p, q) for one whole-array function G, then what point t writes back is
  block t of G, the twenty blocks tile the result (row r lies in the block of point r / 5000), and the result array
  ends holding G.
-/
import proofs.«415617_j89146341196446_1_alg».proof.Proof.KI.Half1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The offsets of the whole-buffer rectangles are zero on both axes. -/
theorem origin1 : (![0, 0] : Fin 2 → Nat) = fun _ => 0 := funext fun a => by fin_cases a <;> rfl

/-- The seven index maps, decided over the 20 grid points: the row-tiled windows' block index at point t is (t, 0),
    the parameter windows' is (0, 0). -/
theorem tile_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of tile t is a row of the array: 5000·t + p < 100000. -/
theorem row_lt1 (t : Fin cfg1.N) (p : Fin 5000) : 5000 * t.val + p.val < 100000 := by
  have h1 := t.isLt
  have h2 : cfg1.N = 20 := N_1
  have h3 := p.isLt
  omega

/-- The features' block at point t, entry (p, k), is entry (5000·t + p, k) of the array. -/
theorem blk1_0 (c : Dev nD) (t : Fin cfg1.N) (p : Fin 5000) (k : Fin 64) :
    iblk1 V c 0 t (ix2 p k) = V c main_v10 (ix2 ⟨5000 * t.val + p.val, row_lt1 t p⟩ k) := by
  obtain ⟨e0, e1, -⟩ := tile_index1 t
  unfold iblk1
  rw [View.read_apply]
  show V c main_v10 _ = V c main_v10 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- The neighbour sums' block at point t, entry (p, k), is entry (5000·t + p, k) of the array. -/
theorem blk1_1 (c : Dev nD) (t : Fin cfg1.N) (p : Fin 5000) (k : Fin 64) :
    iblk1 V c 1 t (ix2 p k) = V c main_v17 (ix2 ⟨5000 * t.val + p.val, row_lt1 t p⟩ k) := by
  obtain ⟨-, -, e0, e1, -⟩ := tile_index1 t
  unfold iblk1
  rw [View.read_apply]
  show V c main_v17 _ = V c main_v17 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

/-- The first weight matrix's block at every point is the whole matrix. -/
theorem blk1_2 (c : Dev nD) (t : Fin cfg1.N) (k : Fin 64) (q : Fin 32) :
    iblk1 V c 2 t (ix2 k q) = V c main_arg9 (ix2 k q) := by
  obtain ⟨-, -, -, -, e0, e1, -⟩ := tile_index1 t
  unfold iblk1
  rw [View.read_apply]
  show V c main_arg9 _ = V c main_arg9 _
  congr 1
  funext a
  apply Fin.ext
  match a with
  | ⟨0, _⟩ => show win1_2.index t (0 : Fin 2) * 64 + 1 * k.val = k.val; rw [e0]; omega
  | ⟨1, _⟩ => show win1_2.index t (1 : Fin 2) * 32 + 1 * q.val = q.val; rw [e1]; omega

/-- The first bias row's block at every point is the whole row. -/
theorem blk1_3 (c : Dev nD) (t : Fin cfg1.N) (z : Fin 1) (q : Fin 32) :
    iblk1 V c 3 t (ix2 z q) = V c main_v18 (ix2 z q) := by
  obtain ⟨-, -, -, -, -, -, e0, e1, -⟩ := tile_index1 t
  unfold iblk1
  rw [View.read_apply]
  show V c main_v18 _ = V c main_v18 _
  congr 1
  funext a
  apply Fin.ext
  match a with
  | ⟨0, _⟩ => show win1_3.index t (0 : Fin 2) * 1 + 1 * z.val = z.val; rw [e0]; omega
  | ⟨1, _⟩ => show win1_3.index t (1 : Fin 2) * 32 + 1 * q.val = q.val; rw [e1]; omega

/-- The second weight matrix's block at every point is the whole matrix. -/
theorem blk1_4 (c : Dev nD) (t : Fin cfg1.N) (k : Fin 64) (q : Fin 32) :
    iblk1 V c 4 t (ix2 k q) = V c main_arg11 (ix2 k q) := by
  obtain ⟨-, -, -, -, -, -, -, -, e0, e1, -⟩ := tile_index1 t
  unfold iblk1
  rw [View.read_apply]
  show V c main_arg11 _ = V c main_arg11 _
  congr 1
  funext a
  apply Fin.ext
  match a with
  | ⟨0, _⟩ => show win1_4.index t (0 : Fin 2) * 64 + 1 * k.val = k.val; rw [e0]; omega
  | ⟨1, _⟩ => show win1_4.index t (1 : Fin 2) * 32 + 1 * q.val = q.val; rw [e1]; omega

/-- The second bias row's block at every point is the whole row. -/
theorem blk1_5 (c : Dev nD) (t : Fin cfg1.N) (z : Fin 1) (q : Fin 32) :
    iblk1 V c 5 t (ix2 z q) = V c main_v19 (ix2 z q) := by
  obtain ⟨-, -, -, -, -, -, -, -, -, -, e0, e1, -⟩ := tile_index1 t
  unfold iblk1
  rw [View.read_apply]
  show V c main_v19 _ = V c main_v19 _
  congr 1
  funext a
  apply Fin.ext
  match a with
  | ⟨0, _⟩ => show win1_5.index t (0 : Fin 2) * 1 + 1 * z.val = z.val; rw [e0]; omega
  | ⟨1, _⟩ => show win1_5.index t (1 : Fin 2) * 32 + 1 * q.val = q.val; rw [e1]; omega

/-- What point t writes back is block t of G, when the payload on the blocks at t is G on the tile's rows. -/
theorem flushed1_eq (c : Dev nD) (G : Vec F S100000x32 .f32)
    (hG : ∀ (t : Fin cfg1.N) (p : Fin 5000) (q : Fin 32),
      k1_pay1 (iblk1 V c 0 t) (iblk1 V c 1 t) (iblk1 V c 2 t) (iblk1 V c 4 t) (iblk1 V c 3 t) (iblk1 V c 5 t) (ix2 p q)
        = G (ix2 ⟨5000 * t.val + p.val, row_lt1 t p⟩ q))
    (t : Fin cfg1.N) :
    (dat1 V c).flushed 6 t = ((cfg1.win 6).blk t).view.read (Elt F) G := by
  show (cfg1.win 6).cut (grid1.coords t) ((dat1 V c).after 6 t) = _
  rw [after1_6]
  unfold out1_6
  rw [View.canon_unit_zero origin1]
  simp only [View.ld_unit_zero (S := S5000x64) origin1, View.ld_unit_zero (S := S64x32) origin1, View.ld_unit_zero (S := S1x32) origin1]
  obtain ⟨-, -, -, -, -, -, -, -, -, -, -, -, e0, e1⟩ := tile_index1 t
  funext y
  obtain ⟨p, q, rfl⟩ : ∃ (p : Fin 5000) (q : Fin 32), y = ix2 p q := ⟨y 0, y 1, eq_ix2 y⟩
  show k1_pay1 (iblk1 V c 0 t) (iblk1 V c 1 t) (iblk1 V c 2 t) (iblk1 V c 4 t) (iblk1 V c 3 t) (iblk1 V c 5 t) (ix2 p q)
    = G (((cfg1.win 6).blk t).view.emb (ix2 p q))
  rw [hG t p q]
  congr 1
  funext a
  apply Fin.ext
  match a with
  | ⟨0, _⟩ => show 5000 * t.val + p.val = win1_6.index t (0 : Fin 2) * 5000 + 1 * p.val; rw [e0]; omega
  | ⟨1, _⟩ => show q.val = win1_6.index t (1 : Fin 2) * 32 + 1 * q.val; rw [e1]; omega

/-- An index of the result array lies in point t's block iff each coordinate lies in the block's range on its axis. -/
theorem mem_blk1 (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v20).slice (win1_6.rect t)).set ↔ _
  rw [View.set_slice_whole, Rect.mem_set_unit]
  exact Iff.rfl

/-- The blocks tile the result: row r lies in the block of point r / 5000, and every point writes back. -/
theorem cover1 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := tile_index1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e0]; omega
  | ⟨1, _⟩ => show win1_6.index t (1 : Fin 2) * 32 ≤ (i 1).val ∧ (i 1).val < win1_6.index t (1 : Fin 2) * 32 + 32; rw [e1]; omega

/-- The result array after the region is G, when the payload on the blocks at every point t is G on that tile's rows. -/
theorem final1_of (c : Dev nD) (G : Vec F S100000x32 .f32)
    (hG : ∀ (t : Fin cfg1.N) (p : Fin 5000) (q : Fin 32),
      k1_pay1 (iblk1 V c 0 t) (iblk1 V c 1 t) (iblk1 V c 2 t) (iblk1 V c 4 t) (iblk1 V c 3 t) (iblk1 V c 5 t) (ix2 p q)
        = G (ix2 ⟨5000 * t.val + p.val, row_lt1 t p⟩ q)) :
    (dat1 V c).arrAt 6 cfg1.N = G :=
  (dat1 V c).arrAt_eq_of_cover 6 G (fun t _ => flushed1_eq V c G hG t) cover1

end Cert.KernelIdeal.Hand

end
-- ==== Proof.Bridge.LayerVal1.lean ====
/-
  The second graph layer's result array, as the idealized kernel program leaves it, is the reference's 32-wide layer of
  the arrays the region reads.

  The region's output array is assembled from twenty row tiles. On tile t the body's value at (p, q) is the layer's row
  function of row p of the tile's blocks; the two row-tiled blocks are rows 5000·t … of the features and of the neighbour
  sums, the weight blocks are the whole weight matrices, and each bias block is the bias vector made a one-row matrix, so
  its entry (0, q) is the vector's entry q. The reference's layer at (5000·t + p, q) is the same row function of the same
  rows. Hence the assembled array is the reference's layer.
-/
import proofs.«415617_j89146341196446_1_alg».proof.Proof.KI.Final1
import proofs.«415617_j89146341196446_1_alg».proof.Proof.KI.LayerPay
import proofs.«415617_j89146341196446_1_alg».proof.Proof.Ref.LayerRef
import proofs.«415617_j89146341196446_1_alg».proof.Proof.Gen.KernelIdeal
import proofs.«415617_j89146341196446_1_alg».proof.Proof.Gen.ReferenceIdeal
import proofs.«415617_j89146341196446_1_alg».proof.Proof.Bridge.LayerCongr
import Idealize.ShloMosaic.Lib.ValueLayout

set_option maxRecDepth 16384

noncomputable section

namespace Cert.Hand.Bridge

open Idealize.ShloMosaic Idealize.ShloMosaic.TcCoe Idealize.ShloMosaic.ValueIdx Idealize.SL.Sem

/-- THE 32-WIDE LAYER'S ARRAY: when the region's six input arrays hold the features, the neighbour sums, the two weight
    matrices and the two bias vectors made rows, its output array ends holding the reference's layer of them. -/
theorem layer32_value
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD)
    (feats hn : FVec Ideal Cert.KernelIdeal.S100000x64 .f32) (W1 W2 : FVec Ideal Cert.KernelIdeal.S64x32 .f32)
    (b1 b2 : FVec Ideal Cert.KernelIdeal.S32 .f32)
    (h0 : V c Cert.KernelIdeal.main_v10 = feats) (h1 : V c Cert.KernelIdeal.main_v17 = hn)
    (h2 : V c Cert.KernelIdeal.main_arg9 = W1)
    (h3 : V c Cert.KernelIdeal.main_v18 = shapeCast Cert.KernelIdeal.S1x32 b1 Cert.KernelIdeal.Gen.shapeCasts_S32_S1x32)
    (h4 : V c Cert.KernelIdeal.main_arg11 = W2)
    (h5 : V c Cert.KernelIdeal.main_v19 = shapeCast Cert.KernelIdeal.S1x32 b2 Cert.KernelIdeal.Gen.shapeCasts_S32_S1x32) :
    (Cert.KernelIdeal.Hand.dat1 V c).arrAt 6 Cert.KernelIdeal.cfg1.N
      = Cert.ReferenceIdeal.Hand.layer32 feats hn W1 b1 W2 b2 := by
  refine Cert.KernelIdeal.Hand.final1_of V c (Cert.ReferenceIdeal.Hand.layer32 feats hn W1 b1 W2 b2) fun t p q => ?_
  refine (Cert.KernelIdeal.Hand.k1_pay1_apply _ _ _ _ _ _ p q).trans ?_
  refine Eq.trans ?_ (Cert.ReferenceIdeal.Hand.layer32_apply feats hn W1 b1 W2 b2
    ⟨5000 * t.val + p.val, Cert.KernelIdeal.Hand.row_lt1 t p⟩ q).symm
  refine rowLayer_congr (fun k => ?_) (fun k => ?_) (fun k q' => ?_) (fun k q' => ?_) (fun q' => ?_) (fun q' => ?_) q
  · exact (Cert.KernelIdeal.Hand.blk1_0 V c t p k).trans (congrFun h0 _)
  · exact (Cert.KernelIdeal.Hand.blk1_1 V c t p k).trans (congrFun h1 _)
  · exact (Cert.KernelIdeal.Hand.blk1_2 V c t k q').trans (congrFun h2 _)
  · exact (Cert.KernelIdeal.Hand.blk1_4 V c t k q').trans (congrFun h4 _)
  · exact (Cert.KernelIdeal.Hand.blk1_3 V c t 0 q').trans ((congrFun h3 _).trans (shapeCast_a_1a_apply b1 _ 0 q'))
  · exact (Cert.KernelIdeal.Hand.blk1_5 V c t 0 q').trans ((congrFun h5 _).trans (shapeCast_a_1a_apply b2 _ 0 q'))

end Cert.Hand.Bridge

end
-- ==== Proof.KI.Final2.lean ====
/-
  Region 2 of the idealized kernel program, from blocks to whole arrays. The grid has 4 points; at point t each of
  the two input windows holds rows 1024·t … 1024·t + 1023 of its [4096,160] array (all 160 columns), and the output
  window's block is rows 1024·t … 1024·t + 1023 of the [4096,1] result. So a block entry (p, j) is the array entry
  (1024·t + p, j); and if the body's payload on the two blocks at point t, read at (p, z), is G at (1024·t + p, z) for
  one whole-array function G, then what point t writes back is block t of G, the four blocks tile the result (row r
  lies in the block of point r / 1024), and the result array ends holding G.
-/
import proofs.«415617_j89146341196446_1_alg».proof.Proof.KI.Half2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The offsets of the whole-buffer rectangles are zero on both axes. -/
theorem origin2 : (![0, 0] : Fin 2 → Nat) = fun _ => 0 := funext fun a => by fin_cases a <;> rfl

/-- The three index maps, decided over the 4 grid points: each window's block index at point t is (t, 0). -/
theorem tile_index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of tile t is a row of the array: 1024·t + p < 4096. -/
theorem row_lt2 (t : Fin cfg2.N) (p : Fin 1024) : 1024 * t.val + p.val < 4096 := by
  have h1 := t.isLt
  have h2 : cfg2.N = 4 := N_2
  have h3 := p.isLt
  omega

/-- Input window 0's block at point t, entry (p, j), is entry (1024·t + p, j) of its array. -/
theorem blk2_0 (c : Dev nD) (t : Fin cfg2.N) (p : Fin 1024) (j : Fin 160) :
    iblk2 V c 0 t (ix2 p j) = V c main_v22 (ix2 ⟨1024 * t.val + p.val, row_lt2 t p⟩ j) := by
  obtain ⟨e0, e1, -⟩ := tile_index2 t
  unfold iblk2
  rw [View.read_apply]
  show V c main_v22 _ = V c main_v22 _
  congr 1
  funext a
  apply Fin.ext
  match a with
  | ⟨0, _⟩ => show win2_0.index t (0 : Fin 2) * 1024 + 1 * p.val = 1024 * t.val + p.val; rw [e0]; omega
  | ⟨1, _⟩ => show win2_0.index t (1 : Fin 2) * 160 + 1 * j.val = j.val; rw [e1]; omega

/-- Input window 1's block at point t, entry (p, j), is entry (1024·t + p, j) of its array. -/
theorem blk2_1 (c : Dev nD) (t : Fin cfg2.N) (p : Fin 1024) (j : Fin 160) :
    iblk2 V c 1 t (ix2 p j) = V c main_v25 (ix2 ⟨1024 * t.val + p.val, row_lt2 t p⟩ j) := by
  obtain ⟨-, -, e2, e3, -⟩ := tile_index2 t
  unfold iblk2
  rw [View.read_apply]
  show V c main_v25 _ = V c main_v25 _
  congr 1
  funext a
  apply Fin.ext
  match a with
  | ⟨0, _⟩ => show win2_1.index t (0 : Fin 2) * 1024 + 1 * p.val = 1024 * t.val + p.val; rw [e2]; omega
  | ⟨1, _⟩ => show win2_1.index t (1 : Fin 2) * 160 + 1 * j.val = j.val; rw [e3]; omega

/-- What point t writes back is block t of G, when the payload on the blocks at t is G on the tile's rows. -/
theorem flushed2_eq (c : Dev nD) (G : Vec F S4096x1 .f32)
    (hG : ∀ (t : Fin cfg2.N) (p : Fin 1024) (z : Fin 1),
      k2_pay1 (iblk2 V c 0 t) (iblk2 V c 1 t) (ix2 p z) = G (ix2 ⟨1024 * t.val + p.val, row_lt2 t p⟩ z))
    (t : Fin cfg2.N) :
    (dat2 V c).flushed 2 t = ((cfg2.win 2).blk t).view.read (Elt F) G := by
  show (cfg2.win 2).cut (grid2.coords t) ((dat2 V c).after 2 t) = _
  rw [after2_2]
  unfold out2_2
  rw [View.canon_unit_zero origin2]
  simp only [View.ld_unit_zero (S := S1024x160) origin2]
  obtain ⟨-, -, -, -, e4, e5⟩ := tile_index2 t
  funext y
  obtain ⟨p, z, rfl⟩ : ∃ (p : Fin 1024) (z : Fin 1), y = ix2 p z := ⟨y 0, y 1, eq_ix2 y⟩
  show k2_pay1 (iblk2 V c 0 t) (iblk2 V c 1 t) (ix2 p z) = G (((cfg2.win 2).blk t).view.emb (ix2 p z))
  rw [hG t p z]
  congr 1
  funext a
  apply Fin.ext
  match a with
  | ⟨0, _⟩ => show 1024 * t.val + p.val = win2_2.index t (0 : Fin 2) * 1024 + 1 * p.val; rw [e4]; omega
  | ⟨1, _⟩ => show z.val = win2_2.index t (1 : Fin 2) * 1 + 1 * z.val; rw [e5]; omega

/-- An index of the result array lies in point t's block iff each coordinate lies in the block's range on its axis. -/
theorem mem_blk2 (t : Fin cfg2.N) (i : S4096x1.Idx) :
    i ∈ ((cfg2.win 2).blk t).view.set ↔ ∀ a : Fin 2, win2_2.index t a * S1024x1.size a ≤ (i a).val ∧ (i a).val < win2_2.index t a * S1024x1.size a + S1024x1.size a := by
  show i ∈ ((View.whole main_v26).slice (win2_2.rect t)).set ↔ _
  rw [View.set_slice_whole, Rect.mem_set_unit]
  exact Iff.rfl

/-- The blocks tile the result: row r lies in the block of point r / 1024, and every point writes back. -/
theorem cover2 (i : S4096x1.Idx) : ∃ t : Fin cfg2.N, (cfg2.win 2).flush t = true ∧ i ∈ ((cfg2.win 2).blk t).view.set := by
  have hi0 : (i 0).val < 4096 := (i 0).isLt
  have hi1 : (i 1).val < 1 := (i 1).isLt
  have hN : cfg2.N = 4 := N_2
  obtain ⟨t, ht⟩ : ∃ t : Fin cfg2.N, t.val = (i 0).val / 1024 := ⟨⟨(i 0).val / 1024, by rw [hN]; omega⟩, rfl⟩
  obtain ⟨-, -, -, -, e4, e5⟩ := tile_index2 t
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; rw [e4]; omega
  | ⟨1, _⟩ => show win2_2.index t (1 : Fin 2) * 1 ≤ (i 1).val ∧ (i 1).val < win2_2.index t (1 : Fin 2) * 1 + 1; rw [e5]; omega

/-- The result array after the region is G, when the payload on the blocks at every point t is G on that tile's rows. -/
theorem final2_of (c : Dev nD) (G : Vec F S4096x1 .f32)
    (hG : ∀ (t : Fin cfg2.N) (p : Fin 1024) (z : Fin 1),
      k2_pay1 (iblk2 V c 0 t) (iblk2 V c 1 t) (ix2 p z) = G (ix2 ⟨1024 * t.val + p.val, row_lt2 t p⟩ z)) :
    (dat2 V c).arrAt 2 cfg2.N = G :=
  (dat2 V c).arrAt_eq_of_cover 2 G (fun t _ => flushed2_eq V c G hG t) cover2

end Cert.KernelIdeal.Hand

end
-- ==== Proof.Bridge.ScoreVal.lean ====
/-
  The scores' value at the ideal float values.

  The third pipeline runs over 4 tiles of 1024 scored pairs; on a tile its body multiplies the two blocks of rows
  entrywise, sums each row over its 160 lanes from the zero word, and keeps the sums as a column. The reference
  multiplies the two [4096, 160] arrays of rows entrywise and sums each row over its 160 columns from the zero literal.
  At an entry both are the sum over k of u[r, k] * i[r, k] (the reference's with a leading 0 +): the blocks of the
  pipeline tile the rows, so the result array is the column of the reference's scores, and read as a vector it is the
  reference's scores.
-/
import proofs.«415617_j89146341196446_1_alg».proof.Proof.KI.Final2
import proofs.«415617_j89146341196446_1_alg».proof.Proof.Ref.Stages
import proofs.«415617_j89146341196446_1_alg».proof.Proof.Gen.KernelIdeal
import proofs.«415617_j89146341196446_1_alg».proof.Proof.Gen.ReferenceIdeal
import Idealize.ShloMosaic.PureOps.Ideal.Laws
import Idealize.ShloMosaic.Lib.ValueLayout

set_option maxRecDepth 16384

noncomputable section

open scoped BigOperators

namespace Cert.Hand.Bridge

open Cert.KernelIdeal
open Idealize.ShloMosaic Idealize.ShloMosaic.TcCoe Idealize.SL.Sem
open Idealize.ShloMosaic.ValueIdx

/-! ## Two layout readings at coordinates: a vector made a column, and a column read as a vector -/

section Layout
variable {α : Type}

/-- An `[a]` array cast to `[a, 1]` reads, at `(i, u)`, the operand at `i`, whatever the unit coordinate `u`. -/
theorem shapeCast_vec_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_col_vec_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-! ## The body's payload on a tile, at an entry -/

/-- The lane sum's inserted index: row p with lane k put back is (p, k). -/
theorem liftTile_ix (h : S1024x160.Reduces [1] S1024) (p : Fin 1024) (k : Fin 160) : h.lift (ix1 p) k = ix2 p k :=
  funext fun a => Fin.ext (by match a with | ⟨0, _⟩ => rfl | ⟨1, _⟩ => rfl)

/-- The payload at (p, z): the inner product of row p of the two blocks. -/
theorem k2_pay1_apply (v0 v2 : Vec Ideal S1024x160 .f32) (p : Fin 1024) (z : Fin 1) :
    Gen.k2_pay1 (F := Ideal) v0 v2 (ix2 p z) = ∑ k : Fin 160, v0 (ix2 p k) * v2 (ix2 p k) := by
  unfold Gen.k2_pay1
  rw [shapeCast_self v0, shapeCast_self v2]
  refine (shapeCast_vec_col_apply _ _ p z).trans ?_
  refine (Ideal.multiReduction_add_single (mulf v0 v2) 0x00000000#32 _ (.inl rfl) rfl (ix1 p)).trans ?_
  exact Finset.sum_congr rfl fun k _ => congrArg (fun i => v0 i * v2 i) (liftTile_ix _ p k)

/-! ## The reference's score, at an entry -/

/-- The shape fact of the reference's row sum in the form that names the inserted index. -/
theorem reducesScore : Cert.ReferenceIdeal.S4096x160.Reduces [1] Cert.ReferenceIdeal.S4096 := by decide

/-- The row sum's inserted index: row b with column k put back is (b, k). -/
theorem liftScore_ix (b : Fin 4096) (k : Fin 160) : reducesScore.lift (ix1 b) k = ix2 b k :=
  funext fun a => Fin.ext (by match a with | ⟨0, _⟩ => rfl | ⟨1, _⟩ => rfl)

/-- The reference's score at b: the inner product of row b of the two arrays (the sum starts from the zero literal,
    which adds nothing). -/
theorem score_apply (U I : FVec Ideal Cert.ReferenceIdeal.S4096x160 .f32) (b : Fin 4096) :
    Cert.ReferenceIdeal.Hand.score (F := Ideal) U I (ix1 b) = ∑ k : Fin 160, U (ix2 b k) * I (ix2 b k) := by
  unfold Cert.ReferenceIdeal.Hand.score
  refine (Ideal.hostReduceAdd_single _ reducesScore (mulf U I) (Ideal.ofBits .f32 0x00000000#32) (ix1 b)).trans ?_
  rw [Ideal.ofBits_zero_f32, zero_add]
  exact Finset.sum_congr rfl fun k _ => congrArg (fun i => U i * I i) (liftScore_ix b k)

/-! ## The result array -/

/-- The reference's scores as a [4096, 1] column. -/
def scoreCol (U I : FVec Ideal Cert.ReferenceIdeal.S4096x160 .f32) : Vec Ideal S4096x1 .f32 :=
  fun j => Cert.ReferenceIdeal.Hand.score (F := Ideal) U I (ix1 ⟨(j 0).val, idx2_lt0 j⟩)

/-- THE SCORES' VALUE: when the two arrays of rows the third pipeline reads are U and I, its result array, read as a
    vector, is the reference's scores of U and I. -/
theorem score_value (V : (c : Dev nD) → (b : Ref sig .tc) → Buf (Elt Ideal) ((c : Thread nD τ).loc b)) (c : Dev nD)
    (U I : FVec Ideal S4096x160 .f32) (hU : V c main_v22 = U) (hI : V c main_v25 = I) :
    shapeCast S4096 ((Cert.KernelIdeal.Hand.dat2 V c).arrAt 2 cfg2.N) Gen.shapeCasts_S4096x1_S4096
      = Cert.ReferenceIdeal.Hand.score (F := Ideal) U I := by
  have hfin : (Cert.KernelIdeal.Hand.dat2 V c).arrAt 2 cfg2.N = scoreCol U I :=
    Cert.KernelIdeal.Hand.final2_of V c (scoreCol U I) fun t p z => by
      refine (k2_pay1_apply _ _ p z).trans ?_
      refine Eq.trans ?_ (score_apply U I ⟨1024 * t.val + p.val, Cert.KernelIdeal.Hand.row_lt2 t p⟩).symm
      exact Finset.sum_congr rfl fun k _ => by
        rw [Cert.KernelIdeal.Hand.blk2_0 V c t p k, Cert.KernelIdeal.Hand.blk2_1 V c t p k, hU, hI]
  rw [hfin]
  funext j
  obtain ⟨b, rfl⟩ : ∃ b : Fin 4096, j = ix1 b := ⟨j 0, eq_ix1 j⟩
  exact shapeCast_col_vec_apply (scoreCol U I) _ b

end Cert.Hand.Bridge

end
-- ==== Proof.Bridge.Value.lean ====
/-
  The idealized kernel program's result is the reference's result function of the same argument arrays, given that the
  edge column indices and the scored indices are in range: stage by stage, what each host stretch and each pipeline
  leaves is the reference's stage of what the stages before left.
-/
import proofs.«415617_j89146341196446_1_alg».proof.Proof.KI.Host
import proofs.«415617_j89146341196446_1_alg».proof.Proof.KI.Outs
import proofs.«415617_j89146341196446_1_alg».proof.Proof.Bridge.Shared
import proofs.«415617_j89146341196446_1_alg».proof.Proof.Bridge.LayerVal0
import proofs.«415617_j89146341196446_1_alg».proof.Proof.Bridge.LayerVal1
import proofs.«415617_j89146341196446_1_alg».proof.Proof.Bridge.ScoreVal

set_option maxRecDepth 16384

noncomputable section

namespace Cert.Hand.Bridge

open Idealize.ShloMosaic Idealize.ShloMosaic.TcCoe Idealize.ShloMosaic.StableHlo
open Idealize.SL Idealize.SL.Sem
open Cert.KernelIdeal
open Cert.KernelIdeal.Gen (V0 V1 V2 V3 V4 V5 V6 V7 V8 V9 V10 V11 V12 V13 V1_of V2_of V3_of V4_of V5_of V6_of V7_of V8_of V9_of V10_of V11_of
  hostOps0 hostOps0_1 hostOps0_2 hostOps1 hostOps1_1 hostOps2 hostOps2_1 hostOps2_2 hostOps2_3 hostOps3
  hostOps0_W hostOps0_1_W hostOps0_2_W hostOps1_W hostOps1_1_W hostOps2_W hostOps2_1_W hostOps2_2_W hostOps2_3_W)
open Cert.KernelIdeal.Hand (outs outs_4 outs_7 outs_12 s0_v0 s0_1_v1 s0_2_v7 s0_2_v8 s0_2_v9 s1_v11 s1_1_v17 s1_1_v18 s1_1_v19 s2_v21 s2_1_v22
  s2_2_v24 s2_3_v25 s3_v27)

variable (m : (ℓ : Loc nD τ sig) → Buf (Elt Ideal) ℓ) (c : Dev nD)

/-! ## The reference's stages of the launch contents -/

/-- The node table. -/
def A0 : FVec Ideal S100000x64 .f32 :=
  Cert.ReferenceIdeal.Hand.cat0 (m ((c : Thread nD τ).loc main_arg3)) (m ((c : Thread nD τ).loc main_arg4))
/-- The neighbour sums of the node table. -/
def M0 : FVec Ideal S100000x64 .f32 :=
  Cert.ReferenceIdeal.Hand.msg (A0 m c) (m ((c : Thread nD τ).loc main_arg0)) (m ((c : Thread nD τ).loc main_arg1)) (m ((c : Thread nD τ).loc main_arg2))
/-- The first layer's table. -/
def A1 : FVec Ideal S100000x64 .f32 :=
  Cert.ReferenceIdeal.Hand.layer64 (A0 m c) (M0 m c) (m ((c : Thread nD τ).loc main_arg5)) (m ((c : Thread nD τ).loc main_arg6))
    (m ((c : Thread nD τ).loc main_arg7)) (m ((c : Thread nD τ).loc main_arg8))
/-- The neighbour sums of the first layer's table. -/
def M1 : FVec Ideal S100000x64 .f32 :=
  Cert.ReferenceIdeal.Hand.msg (A1 m c) (m ((c : Thread nD τ).loc main_arg0)) (m ((c : Thread nD τ).loc main_arg1)) (m ((c : Thread nD τ).loc main_arg2))
/-- The second layer's table. -/
def A2 : FVec Ideal S100000x32 .f32 :=
  Cert.ReferenceIdeal.Hand.layer32 (A1 m c) (M1 m c) (m ((c : Thread nD τ).loc main_arg9)) (m ((c : Thread nD τ).loc main_arg10))
    (m ((c : Thread nD τ).loc main_arg11)) (m ((c : Thread nD τ).loc main_arg12))
/-- The joined table. -/
def FIN : FVec Ideal S100000x160 .f32 := Cert.ReferenceIdeal.Hand.cat3 (A0 m c) (A1 m c) (A2 m c)
/-- The scored user rows and item rows. -/
def UU : FVec Ideal S4096x160 .f32 := Cert.ReferenceIdeal.Hand.rows (FIN m c) (m ((c : Thread nD τ).loc main_arg13))
def II : FVec Ideal S4096x160 .f32 :=
  Cert.ReferenceIdeal.Hand.rows (FIN m c) (Cert.ReferenceIdeal.Hand.itemIdx (m ((c : Thread nD τ).loc main_arg14)))

/-- The reference's result is the inner product of those rows. -/
theorem result_eq :
    Cert.ReferenceIdeal.Hand.result (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14))
    = Cert.ReferenceIdeal.Hand.score (UU m c) (II m c) := rfl

/-! ## Buffers nothing has written yet hold their launch contents -/

theorem keep1 (r : Ref sig .tc) (h1 : r ∉ hostOps0_W) : V1 m c r = m ((c : Thread nD τ).loc r) := V1_of m c r h1
theorem keep2 (r : Ref sig .tc) (h2 : r ∉ hostOps0_1_W) (h1 : r ∉ hostOps0_W) : V2 m c r = m ((c : Thread nD τ).loc r) :=
  (V2_of m c r h2).trans (keep1 m c r h1)
theorem keep3 (r : Ref sig .tc) (h3 : r ∉ hostOps0_2_W) (h2 : r ∉ hostOps0_1_W) (h1 : r ∉ hostOps0_W) :
    V3 m c r = m ((c : Thread nD τ).loc r) := (V3_of m c r h3).trans (keep2 m c r h2 h1)
theorem keep4 (r : Ref sig .tc) (h4 : r ∉ ([main_v10] : List (Ref sig .tc))) (h3 : r ∉ hostOps0_2_W) (h2 : r ∉ hostOps0_1_W) (h1 : r ∉ hostOps0_W) :
    V4 m (outs m) c r = m ((c : Thread nD τ).loc r) := (V4_of m (outs m) c r h4).trans (keep3 m c r h3 h2 h1)
theorem keep5 (r : Ref sig .tc) (h5 : r ∉ hostOps1_W) (h4 : r ∉ ([main_v10] : List (Ref sig .tc))) (h3 : r ∉ hostOps0_2_W) (h2 : r ∉ hostOps0_1_W)
    (h1 : r ∉ hostOps0_W) : V5 m (outs m) c r = m ((c : Thread nD τ).loc r) := (V5_of m (outs m) c r h5).trans (keep4 m c r h4 h3 h2 h1)
theorem keep6 (r : Ref sig .tc) (h6 : r ∉ hostOps1_1_W) (h5 : r ∉ hostOps1_W) (h4 : r ∉ ([main_v10] : List (Ref sig .tc))) (h3 : r ∉ hostOps0_2_W)
    (h2 : r ∉ hostOps0_1_W) (h1 : r ∉ hostOps0_W) : V6 m (outs m) c r = m ((c : Thread nD τ).loc r) :=
  (V6_of m (outs m) c r h6).trans (keep5 m c r h5 h4 h3 h2 h1)
theorem keep8 (r : Ref sig .tc) (h8 : r ∉ hostOps2_W) (h7 : r ∉ ([main_v20] : List (Ref sig .tc))) (h6 : r ∉ hostOps1_1_W) (h5 : r ∉ hostOps1_W)
    (h4 : r ∉ ([main_v10] : List (Ref sig .tc))) (h3 : r ∉ hostOps0_2_W) (h2 : r ∉ hostOps0_1_W) (h1 : r ∉ hostOps0_W) :
    V8 m (outs m) c r = m ((c : Thread nD τ).loc r) :=
  (V8_of m (outs m) c r h8).trans ((V7_of m (outs m) c r h7).trans (keep6 m c r h6 h5 h4 h3 h2 h1))
theorem keep9 (r : Ref sig .tc) (h9 : r ∉ hostOps2_1_W) (h8 : r ∉ hostOps2_W) (h7 : r ∉ ([main_v20] : List (Ref sig .tc))) (h6 : r ∉ hostOps1_1_W)
    (h5 : r ∉ hostOps1_W) (h4 : r ∉ ([main_v10] : List (Ref sig .tc))) (h3 : r ∉ hostOps0_2_W) (h2 : r ∉ hostOps0_1_W) (h1 : r ∉ hostOps0_W) :
    V9 m (outs m) c r = m ((c : Thread nD τ).loc r) := (V9_of m (outs m) c r h9).trans (keep8 m c r h8 h7 h6 h5 h4 h3 h2 h1)

/-! ## The first layer -/

theorem v1_v0 : V1 m c main_v0 = A0 m c :=
  (s0_v0 (V0 m c)).trans (cat0_eq _ _)

theorem v3_v0 : V3 m c main_v0 = A0 m c :=
  (V3_of m c main_v0 (by decide)).trans ((V2_of m c main_v0 (by decide)).trans (v1_v0 m c))

theorem v3_v7 (hcol : ∀ e, 0 ≤ ((m ((c : Thread nD τ).loc main_arg1) : IVec S1600000 32) e).toInt ∧ ((m ((c : Thread nD τ).loc main_arg1) : IVec S1600000 32) e).toInt < 100000) :
    V3 m c main_v7 = M0 m c := by
  have e : V3 m c main_v7 = Cert.KernelIdeal.Hand.msgK (F := Ideal) (V1 m c main_v0) (V2 m c main_arg0) (V1 m c main_arg1) (V2 m c main_arg2) := by
    show StableHlo.after hostOps0_2 (V2 m c) (Proc.devRef .tc main_v7) = _
    rw [s0_2_v7, show V2 m c (Proc.devRef .tc main_v1) = _ from s0_1_v1 (V1 m c)]
    rfl
  rw [e, v1_v0, keep2 m c main_arg0 (by decide) (by decide), keep1 m c main_arg1 (by decide), keep2 m c main_arg2 (by decide) (by decide)]
  exact msg_eq _ _ _ _ hcol

theorem v3_v8 : V3 m c main_v8 = shapeCast S1x64 (m ((c : Thread nD τ).loc main_arg6)) Cert.KernelIdeal.Gen.shapeCasts_S64_S1x64 := by
  show StableHlo.after hostOps0_2 (V2 m c) (Proc.devRef .tc main_v8) = _
  rw [s0_2_v8, show V2 m c (Proc.devRef .tc main_arg6) = _ from keep2 m c main_arg6 (by decide) (by decide)]

theorem v3_v9 : V3 m c main_v9 = shapeCast S1x64 (m ((c : Thread nD τ).loc main_arg8)) Cert.KernelIdeal.Gen.shapeCasts_S64_S1x64 := by
  show StableHlo.after hostOps0_2 (V2 m c) (Proc.devRef .tc main_v9) = _
  rw [s0_2_v9, show V2 m c (Proc.devRef .tc main_arg8) = _ from keep2 m c main_arg8 (by decide) (by decide)]

/-- What the first pipeline leaves is the reference's first layer. -/
theorem a1 (hcol : ∀ e, 0 ≤ ((m ((c : Thread nD τ).loc main_arg1) : IVec S1600000 32) e).toInt ∧ ((m ((c : Thread nD τ).loc main_arg1) : IVec S1600000 32) e).toInt < 100000) :
    outs m 4 main_v10 c = A1 m c := by
  rw [outs_4]
  exact layer64_value (fun c b => V3 m c b) c (A0 m c) (M0 m c) _ _ _ _ (v3_v0 m c) (v3_v7 m c hcol)
    (keep3 m c main_arg5 (by decide) (by decide) (by decide)) (v3_v8 m c)
    (keep3 m c main_arg7 (by decide) (by decide) (by decide)) (v3_v9 m c)

/-! ## The second layer -/

theorem v4_v10 (hcol : ∀ e, 0 ≤ ((m ((c : Thread nD τ).loc main_arg1) : IVec S1600000 32) e).toInt ∧ ((m ((c : Thread nD τ).loc main_arg1) : IVec S1600000 32) e).toInt < 100000) :
    V4 m (outs m) c main_v10 = A1 m c := by
  rw [← a1 m c hcol]
  simp only [Cert.KernelIdeal.Gen.V4, Function.update_self]

theorem v6_v10 (hcol : ∀ e, 0 ≤ ((m ((c : Thread nD τ).loc main_arg1) : IVec S1600000 32) e).toInt ∧ ((m ((c : Thread nD τ).loc main_arg1) : IVec S1600000 32) e).toInt < 100000) :
    V6 m (outs m) c main_v10 = A1 m c :=
  (V6_of m (outs m) c main_v10 (by decide)).trans ((V5_of m (outs m) c main_v10 (by decide)).trans (v4_v10 m c hcol))

theorem v6_v17 (hcol : ∀ e, 0 ≤ ((m ((c : Thread nD τ).loc main_arg1) : IVec S1600000 32) e).toInt ∧ ((m ((c : Thread nD τ).loc main_arg1) : IVec S1600000 32) e).toInt < 100000) :
    V6 m (outs m) c main_v17 = M1 m c := by
  have e : V6 m (outs m) c main_v17 = Cert.KernelIdeal.Hand.msgK (F := Ideal) (V4 m (outs m) c main_v10) (V5 m (outs m) c main_arg0)
      (V4 m (outs m) c main_arg1) (V5 m (outs m) c main_arg2) := by
    show StableHlo.after hostOps1_1 (V5 m (outs m) c) (Proc.devRef .tc main_v17) = _
    rw [s1_1_v17, show V5 m (outs m) c (Proc.devRef .tc main_v11) = _ from s1_v11 (V4 m (outs m) c)]
    rfl
  rw [e, v4_v10 m c hcol, keep5 m c main_arg0 (by decide) (by decide) (by decide) (by decide) (by decide),
    keep4 m c main_arg1 (by decide) (by decide) (by decide) (by decide),
    keep5 m c main_arg2 (by decide) (by decide) (by decide) (by decide) (by decide)]
  exact msg_eq _ _ _ _ hcol

theorem v6_v18 : V6 m (outs m) c main_v18 = shapeCast S1x32 (m ((c : Thread nD τ).loc main_arg10)) Cert.KernelIdeal.Gen.shapeCasts_S32_S1x32 := by
  show StableHlo.after hostOps1_1 (V5 m (outs m) c) (Proc.devRef .tc main_v18) = _
  rw [s1_1_v18, show V5 m (outs m) c (Proc.devRef .tc main_arg10) = _ from
    keep5 m c main_arg10 (by decide) (by decide) (by decide) (by decide) (by decide)]

theorem v6_v19 : V6 m (outs m) c main_v19 = shapeCast S1x32 (m ((c : Thread nD τ).loc main_arg12)) Cert.KernelIdeal.Gen.shapeCasts_S32_S1x32 := by
  show StableHlo.after hostOps1_1 (V5 m (outs m) c) (Proc.devRef .tc main_v19) = _
  rw [s1_1_v19, show V5 m (outs m) c (Proc.devRef .tc main_arg12) = _ from
    keep5 m c main_arg12 (by decide) (by decide) (by decide) (by decide) (by decide)]

/-- What the second pipeline leaves is the reference's second layer. -/
theorem a2 (hcol : ∀ e, 0 ≤ ((m ((c : Thread nD τ).loc main_arg1) : IVec S1600000 32) e).toInt ∧ ((m ((c : Thread nD τ).loc main_arg1) : IVec S1600000 32) e).toInt < 100000) :
    outs m 7 main_v20 c = A2 m c := by
  rw [outs_7]
  exact layer32_value (fun c b => V6 m (outs m) c b) c (A1 m c) (M1 m c) _ _ _ _ (v6_v10 m c hcol) (v6_v17 m c hcol)
    (keep6 m c main_arg9 (by decide) (by decide) (by decide) (by decide) (by decide) (by decide)) (v6_v18 m c)
    (keep6 m c main_arg11 (by decide) (by decide) (by decide) (by decide) (by decide) (by decide)) (v6_v19 m c)

/-! ## The joined table and the scored rows -/

theorem v8_v21 (hcol : ∀ e, 0 ≤ ((m ((c : Thread nD τ).loc main_arg1) : IVec S1600000 32) e).toInt ∧ ((m ((c : Thread nD τ).loc main_arg1) : IVec S1600000 32) e).toInt < 100000) :
    V8 m (outs m) c main_v21 = FIN m c := by
  have h0 : V7 m (outs m) c main_v0 = A0 m c :=
    (V7_of m (outs m) c main_v0 (by decide)).trans ((V6_of m (outs m) c main_v0 (by decide)).trans ((V5_of m (outs m) c main_v0 (by decide)).trans
      ((V4_of m (outs m) c main_v0 (by decide)).trans (v3_v0 m c))))
  have h1 : V7 m (outs m) c main_v10 = A1 m c := (V7_of m (outs m) c main_v10 (by decide)).trans (v6_v10 m c hcol)
  have h2 : V7 m (outs m) c main_v20 = A2 m c := by
    rw [← a2 m c hcol]
    simp only [Cert.KernelIdeal.Gen.V7, Function.update_self]
  show StableHlo.after hostOps2 (V7 m (outs m) c) (Proc.devRef .tc main_v21) = _
  rw [s2_v21, show V7 m (outs m) c (Proc.devRef .tc main_v0) = _ from h0, show V7 m (outs m) c (Proc.devRef .tc main_v10) = _ from h1,
    show V7 m (outs m) c (Proc.devRef .tc main_v20) = _ from h2]
  exact cat3_eq _ _ _

theorem v11_v22 (hcol : ∀ e, 0 ≤ ((m ((c : Thread nD τ).loc main_arg1) : IVec S1600000 32) e).toInt ∧ ((m ((c : Thread nD τ).loc main_arg1) : IVec S1600000 32) e).toInt < 100000)
    (hu : ∀ b, 0 ≤ ((m ((c : Thread nD τ).loc main_arg13) : IVec S4096 32) b).toInt ∧ ((m ((c : Thread nD τ).loc main_arg13) : IVec S4096 32) b).toInt < 100000) :
    V11 m (outs m) c main_v22 = UU m c := by
  have e : V11 m (outs m) c main_v22 = V9 m (outs m) c main_v22 :=
    (V11_of m (outs m) c main_v22 (by decide)).trans (V10_of m (outs m) c main_v22 (by decide))
  rw [e]
  show StableHlo.after hostOps2_1 (V8 m (outs m) c) (Proc.devRef .tc main_v22) = _
  rw [s2_1_v22, show V8 m (outs m) c (Proc.devRef .tc main_v21) = _ from v8_v21 m c hcol,
    show V8 m (outs m) c (Proc.devRef .tc main_arg13) = _ from
      keep8 m c main_arg13 (by decide) (by decide) (by decide) (by decide) (by decide) (by decide) (by decide) (by decide)]
  exact rows_eq _ _ hu

theorem v11_v25 (hcol : ∀ e, 0 ≤ ((m ((c : Thread nD τ).loc main_arg1) : IVec S1600000 32) e).toInt ∧ ((m ((c : Thread nD τ).loc main_arg1) : IVec S1600000 32) e).toInt < 100000)
    (hj : ∀ b, -30000 ≤ ((m ((c : Thread nD τ).loc main_arg14) : IVec S4096 32) b).toInt ∧ ((m ((c : Thread nD τ).loc main_arg14) : IVec S4096 32) b).toInt < 70000) :
    V11 m (outs m) c main_v25 = II m c := by
  have h21 : V10 m (outs m) c main_v21 = FIN m c :=
    (V10_of m (outs m) c main_v21 (by decide)).trans ((V9_of m (outs m) c main_v21 (by decide)).trans (v8_v21 m c hcol))
  have h24 : V10 m (outs m) c main_v24 = Cert.KernelIdeal.Hand.itemIdx (m ((c : Thread nD τ).loc main_arg14)) := by
    show StableHlo.after hostOps2_2 (V9 m (outs m) c) (Proc.devRef .tc main_v24) = _
    rw [s2_2_v24, show V9 m (outs m) c (Proc.devRef .tc main_arg14) = _ from
      keep9 m c main_arg14 (by decide) (by decide) (by decide) (by decide) (by decide) (by decide) (by decide) (by decide) (by decide)]
  show StableHlo.after hostOps2_3 (V10 m (outs m) c) (Proc.devRef .tc main_v25) = _
  rw [s2_3_v25, show V10 m (outs m) c (Proc.devRef .tc main_v21) = _ from h21, show V10 m (outs m) c (Proc.devRef .tc main_v24) = _ from h24]
  unfold II
  rw [← itemIdx_eq]
  exact rows_eq _ _ (Cert.KernelIdeal.Hand.item_idx_range _ hj)

/-! ## The result -/

/-- The idealized kernel program's result buffer, after its last host stretch, holds the reference's result function of
    the launch contents of the fifteen argument arrays. -/
theorem kernel_value
    (hcol : ∀ e, 0 ≤ ((m ((c : Thread nD τ).loc main_arg1) : IVec S1600000 32) e).toInt ∧ ((m ((c : Thread nD τ).loc main_arg1) : IVec S1600000 32) e).toInt < 100000)
    (hu : ∀ b, 0 ≤ ((m ((c : Thread nD τ).loc main_arg13) : IVec S4096 32) b).toInt ∧ ((m ((c : Thread nD τ).loc main_arg13) : IVec S4096 32) b).toInt < 100000)
    (hj : ∀ b, -30000 ≤ ((m ((c : Thread nD τ).loc main_arg14) : IVec S4096 32) b).toInt ∧ ((m ((c : Thread nD τ).loc main_arg14) : IVec S4096 32) b).toInt < 70000) :
    V13 m (outs m) c main_v27
      = Cert.ReferenceIdeal.Hand.result (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) := by
  rw [result_eq]
  show StableHlo.after hostOps3 (V12 m (outs m) c) (Proc.devRef .tc main_v27) = _
  rw [s3_v27, show V12 m (outs m) c (Proc.devRef .tc main_v26) = outs m 12 main_v26 c from by
    simp only [Cert.KernelIdeal.Gen.V12, Function.update_self], outs_12]
  exact score_value (fun c b => V11 m (outs m) c b) c (UU m c) (II m c) (v11_v22 m c hcol hu) (v11_v25 m c hcol hj)

end Cert.Hand.Bridge

end
-- ==== Proof.PreIdx.lean ====
/-
  The printed precondition decoded at its integer conjuncts.

  The precondition is one conjunction of seventeen whole-array tests; the last six of them say, entry by
  entry and read signed, 0 ≤ edge_col < 100000, 0 ≤ user_ids < 100000 and -30000 ≤ item_ids < 70000.
  If the conjunction is the bit 1 then every one of its conjuncts is 1; a whole-array "and" that is 1 had a 1
  at every entry; and a signed comparison word that is 1 orders its two operands as integers. The literal
  operands are broadcasts of the constants 0, 100000, -30000 (printed as its two's complement 4294937296)
  and 70000, whose signed readings are computed.
-/
import proofs.«415617_j89146341196446_1_alg».proof.Pre_finite_inputs
import proofs.«415617_j89146341196446_1_alg».proof.Proof.Gen.Pre_finite_inputs
import Idealize.ShloMosaic.Lib.StableHlo.Predicate
import Idealize.ShloMosaic.Lib.ReduceAll
import Idealize.ShloMosaic.Lib.ValueIdx

noncomputable section

namespace Cert.Hand.PreIdx

open Idealize.ShloMosaic Cert.Pre_finite_inputs

/-- The rank-0 shape has one index. -/
instance subsingleton_S_ : Subsingleton S_.Idx := ⟨fun a b => funext fun d => d.elim0⟩

/-- The signed readings of the four literals the range tests compare against. -/
theorem toInt_lit0 : (0#32 : BitVec 32).toInt = 0 := by decide
theorem toInt_lit100000 : (100000#32 : BitVec 32).toInt = 100000 := by decide
theorem toInt_litNeg30000 : (4294937296#32 : BitVec 32).toInt = -30000 := by decide
theorem toInt_lit70000 : (70000#32 : BitVec 32).toInt = 70000 := by decide

section
variable {F : FTy → Type} [FloatOps F] [Cert.Pre_finite_inputs.Facts]

/-- A whole-array test "every entry ≥ the literal c" that came out 1 bounds every entry below by c. -/
theorem all_sge {s : Shape} {axes : List (Fin s.rank)} (x : IVec s 32) (c : BitVec 32)
    (hb : S_.BroadcastsInDim s (![] : Fin 0 → Fin s.rank)) (hr : s.ReducesTo axes S_) (hu : 0 < S_.numel)
    (j : S_.Idx)
    (e : Host.reduce IntOp.andi (cmpi .sge x (broadcastInDim s ![] hb (constantI S_ 32 c))) (constantI S_ 1 1#1) hr hu j = 1#1)
    (i : s.Idx) : c.toInt ≤ (x i).toInt :=
  IntOp.cmpi_sge.1 (Host.reduce_andi_all _ _ hr hu j e i)

/-- A whole-array test "every entry < the literal c" that came out 1 bounds every entry above by c. -/
theorem all_slt {s : Shape} {axes : List (Fin s.rank)} (x : IVec s 32) (c : BitVec 32)
    (hb : S_.BroadcastsInDim s (![] : Fin 0 → Fin s.rank)) (hr : s.ReducesTo axes S_) (hu : 0 < S_.numel)
    (j : S_.Idx)
    (e : Host.reduce IntOp.andi (cmpi .slt x (broadcastInDim s ![] hb (constantI S_ 32 c))) (constantI S_ 1 1#1) hr hu j = 1#1)
    (i : s.Idx) : (x i).toInt < c.toInt :=
  IntOp.cmpi_slt.1 (Host.reduce_andi_all _ _ hr hu j e i)

/-- THE PRECONDITION DECODED at its index arguments: the edge columns and the user ids name rows of the
    100000-row table, and the item ids, offset by 30000, do too. -/
theorem idx_ranges (x0 x1 : IVec S1600000 32) (x2 : FVec F S1600000 .f32) (x3 : FVec F S30000x64 .f32)
    (x4 : FVec F S70000x64 .f32) (x5 : FVec F S64x64 .f32) (x6 : FVec F S64 .f32) (x7 : FVec F S64x64 .f32)
    (x8 : FVec F S64 .f32) (x9 : FVec F S64x32 .f32) (x10 : FVec F S32 .f32) (x11 : FVec F S64x32 .f32)
    (x12 : FVec F S32 .f32) (x13 x14 : IVec S4096 32)
    (h : Cert.Pre_finite_inputs.fn (F := F) x0 x1 x2 x3 x4 x5 x6 x7 x8 x9 x10 x11 x12 x13 x14 = fun _ => 1#1) :
    (∀ e, 0 ≤ (x1 e).toInt ∧ (x1 e).toInt < 100000) ∧ (∀ b, 0 ≤ (x13 b).toInt ∧ (x13 b).toInt < 100000)
      ∧ (∀ b, -30000 ≤ (x14 b).toInt ∧ (x14 b).toInt < 70000) := by
  have e := congrFun h ValueIdx.ix0
  dsimp only [Cert.Pre_finite_inputs.fn, fn_part1, fn_part2, fn_part3, fn_part4] at e
  simp only [Idealize.ShloMosaic.andi, IntOp.andi_eq_one] at e
  obtain ⟨⟨⟨⟨⟨⟨-, h1lo⟩, h1hi⟩, h13lo⟩, h13hi⟩, h14lo⟩, h14hi⟩ := e
  refine ⟨fun i => ⟨?_, ?_⟩, fun i => ⟨?_, ?_⟩, fun i => ⟨?_, ?_⟩⟩
  · have := all_sge x1 _ _ _ _ _ h1lo i; rwa [toInt_lit0] at this
  · have := all_slt x1 _ _ _ _ _ h1hi i; rwa [toInt_lit100000] at this
  · have := all_sge x13 _ _ _ _ _ h13lo i; rwa [toInt_lit0] at this
  · have := all_slt x13 _ _ _ _ _ h13hi i; rwa [toInt_lit100000] at this
  · have := all_sge x14 _ _ _ _ _ h14lo i; rwa [toInt_litNeg30000] at this
  · have := all_slt x14 _ _ _ _ _ h14hi i; rwa [toInt_lit70000] at this

end

end Cert.Hand.PreIdx

end
-- ==== Proof.lean ====
/-
  The graph network's two programs compute one function.

  The kernel program joins the user and entity embeddings into a node table, forms for each of two layers the weighted
  neighbour sums on the host (rows taken at the edges' column indices, scaled by the edge weights, added into the
  edges' destination rows) and runs a pipeline over 20 row tiles that maps each node's features x and neighbour sum n to
  the leaky rectifier of (x + n) W1 + b1 + (x * n) W2 + b2 divided by its Euclidean norm floored at 1e-12; it joins the
  three tables, takes the scored user and item rows, and a last pipeline over 4 tiles returns their row-wise inner
  products. The reference computes the same on the host.

  On the extended reals the two agree entry by entry wherever the edge column indices and the scored indices lie inside
  the node table: there the kernel program's filling take is the reference's plain gather, the rounding of the matrix
  unit's operands is the identity, both rectifiers agree (they differ only in the test at 0, where both give 0), and
  every sum is the same finite sum of the same terms. No finiteness of the float inputs is used.

  The frames: each program runs to the end, faults nowhere and leaves its fifteen argument arrays as launched — the kernel
  programs by the launch of @main as host stretches and three pipelines whose bodies store one value per tile, the
  reference by its host operations run in order.
-/
import proofs.«415617_j89146341196446_1_alg».proof.Defs
import proofs.«415617_j89146341196446_1_alg».proof.Proof.K.Run
import proofs.«415617_j89146341196446_1_alg».proof.Proof.KI.Run
import proofs.«415617_j89146341196446_1_alg».proof.Proof.Ref.Run
import proofs.«415617_j89146341196446_1_alg».proof.Proof.Bridge.Value
import proofs.«415617_j89146341196446_1_alg».proof.Proof.PreIdx
import proofs.«415617_j89146341196446_1_alg».proof.Proof.Gen.Kernel
import proofs.«415617_j89146341196446_1_alg».proof.Proof.Gen.KernelIdeal
import proofs.«415617_j89146341196446_1_alg».proof.Proof.Gen.ReferenceIdeal
import proofs.«415617_j89146341196446_1_alg».proof.Proof.Gen.Pre_finite_inputs

noncomputable section

namespace Cert.Proof

open Idealize.ShloMosaic Idealize.ShloMosaic.TcCoe Idealize.SL.Sem

/-- The kernel program at the word-level instance: its run with the result's conjunct dropped. -/
theorem frame_k : Cert.frame_Kernel := fun m ρ _ =>
  (θ_run Cert.Kernel.defs _ _).mono (fun _ h c => (h c).2) (Cert.Kernel.Hand.run_main (F := Bits) m ρ)

/-- The idealized kernel program: the same run at the ideal instance. -/
theorem frame_ki : Cert.frame_KernelIdeal := fun m ρ _ =>
  (θ_run Cert.KernelIdeal.defs _ _).mono (fun _ h c => (h c).2) (Cert.KernelIdeal.Hand.run_main (F := Ideal) m ρ)

/-- The reference: its host operations run in order. -/
theorem frame_ri : Cert.frame_ReferenceIdeal := fun m ρ _ =>
  (θ_run Cert.ReferenceIdeal.defs _ _).mono (fun _ h c => (h c).2) (Cert.ReferenceIdeal.Hand.run (F := Ideal) m ρ)

/-- Both runs end with the reference's result function of the kernel program's launch contents: the kernel program's by
    the stage-by-stage identification under the index ranges the precondition states, the reference's by its run and
    the agreement of the two memories on the arguments. -/
theorem algebraic : Cert.algebraic_KernelIdeal_ReferenceIdeal := by
  intro m ρ m' ρ' hpre hagree
  refine ⟨fun c => Cert.ReferenceIdeal.Hand.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · refine (θ_run Cert.KernelIdeal.defs _ _).mono (fun _ h c => ⟨(h c).1.trans ?_, (h c).2⟩)
      (Cert.KernelIdeal.Hand.run_main (F := Ideal) m ρ)
    obtain ⟨hcol, hu, hj⟩ := Cert.Hand.PreIdx.idx_ranges (F := Ideal) _ _ _ _ _ _ _ _ _ _ _ _ _ _ _ (hpre c)
    exact Cert.Hand.Bridge.kernel_value m c hcol hu hj
  · refine (θ_run Cert.ReferenceIdeal.defs _ _).mono (fun _ h c => ⟨(h c).1.trans ?_, (h c).2⟩)
      (Cert.ReferenceIdeal.Hand.run (F := Ideal) m' ρ')
    obtain ⟨h0, h1, h2, h3, h4, h5, h6, h7, h8, h9, h10, h11, h12, h13, h14⟩ := hagree c
    rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
